-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S32x16 : Shape := ⟨2, ![32, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part5 {F : FTy → Type} [FloatOps F] (main_v83 : IVec S_ 1) (main_v84 : FVec F S4 .f32) (main_cst_32 : FVec F S_ .f32) : IVec S_ 1 :=
  let main_v85 : FVec F S4 .f32 := broadcastInDim S4 ![] bcast_S_S4 main_cst_32
  let main_v86 : IVec S4 1 := cmpf .olt main_v84 main_v85
  let main_c_33 : IVec S_ 1 := constantI S_ 1 1#1
  let main_v87 : IVec S_ 1 := (fun x v => Host.reduce IntOp.andi x v reducesTo_S4_S_d0 h_S_) main_v86 main_c_33
  let main_v88 : IVec S_ 1 := andi main_v83 main_v87
  main_v88

def fn_part4 {F : FTy → Type} [FloatOps F] (main_arg15 : FVec F S64x64 .f32) (main_arg16 : FVec F S64 .f32) (main_arg17 : FVec F S64x4 .f32) (main_arg18 : FVec F S4 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x4 .f32 := Host.absf main_arg17
  let main_cst_30 : FVec F S_ .f32 := constant S_ .f32 0x7F800000#32
  let main_v80 : FVec F S64x4 .f32 := broadcastInDim S64x4 ![] bcast_S_S64x4 main_cst_30
  let main_v81 : IVec S64x4 1 := cmpf .olt main_v79 main_v80
  let main_c_31 : IVec S_ 1 := constantI S_ 1 1#1
  let main_v82 : IVec S_ 1 := (fun x v => Host.reduce IntOp.andi x v reducesTo_S64x4_S_d0_1 h_S_) main_v81 main_c_31
  let main_v83 : IVec S_ 1 := andi main_v78 main_v82
  let main_v84 : FVec F S4 .f32 := Host.absf main_arg18
  let main_cst_32 : FVec F S_ .f32 := constant S_ .f32 0x7F800000#32
  fn_part5 (F := F) main_v83 main_v84 main_cst_32

def fn_part3 {F : FTy → Type} [FloatOps F] (main_arg12 : FVec F S64 .f32) (main_arg13 : FVec F S64x64 .f32) (main_arg14 : FVec F S64 .f32) (main_arg15 : FVec F S64x64 .f32) (main_arg16 : FVec F S64 .f32) (main_arg17 : FVec F S64x4 .f32) (main_arg18 : FVec F S4 .f32) (main_v48 : IVec S_ 1) (main_v49 : FVec F S16x64 .f32) (main_v50 : FVec F S16x64 .f32) : IVec S_ 1 :=
  let main_v51 : IVec S16x64 1 := cmpf .olt main_v49 main_v50
  let main_c_19 : IVec S_ 1 := constantI S_ 1 1#1
  let main_v52 : IVec S_ 1 := (fun x v => Host.reduce IntOp.andi x v reducesTo_S16x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_v63 main_v67

def fn_part2 {F : FTy → Type} [FloatOps F] (main_arg8 : FVec F S16x16 .f32) (main_arg9 : FVec F S16x16 .f32) (main_arg10 : FVec F S16 .f32) (main_arg11 : FVec F S16x64 .f32) (main_arg12 : FVec F S64 .f32) (main_arg13 : FVec F S64x64 .f32) (main_arg14 : FVec F S64 .f32) (main_arg15 : FVec F S64x64 .f32) (main_arg16 : FVec F S64 .f32) (main_arg17 : FVec F S64x4 .f32) (main_arg18 : FVec F S4 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16x16 .f32 := Host.absf main_arg9
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x64 .f32 := Host.absf main_arg11
  let main_cst_18 : FVec F S_ .f32 := constant S_ .f32 0x7F800000#32
  let main_v50 : FVec F S16x64 .f32 := broadcastInDim S16x64 ![] bcast_S_S16x64 main_cst_18
  fn_part3 (F := F) main_arg12 main_arg13 main_arg14 main_arg15 main_arg16 main_arg17 main_arg18 main_v48 main_v49 main_v50

def fn_part1 {F : FTy → Type} [FloatOps F] (main_arg5 : FVec F S16x16 .f32) (main_arg6 : FVec F S16x16 .f32) (main_arg7 : FVec F S16 .f32) (main_arg8 : FVec F S16x16 .f32) (main_arg9 : FVec F S16x16 .f32) (main_arg10 : FVec F S16 .f32) (main_arg11 : FVec F S16x64 .f32) (main_arg12 : FVec F S64 .f32) (main_arg13 : FVec F S64x64 .f32) (main_arg14 : FVec F S64 .f32) (main_arg15 : FVec F S64x64 .f32) (main_arg16 : FVec F S64 .f32) (main_arg17 : FVec F S64x4 .f32) (main_arg18 : FVec F S4 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x32 .f32) (main_arg1 : IVec S2x3200000 32) (main_arg2 : FVec F S32x16 .f32) (main_arg3 : FVec F S32x16 .f32) (main_arg4 : FVec F S16 .f32) (main_arg5 : FVec F S16x16 .f32) (main_arg6 : FVec F S16x16 .f32) (main_arg7 : FVec F S16 .f32) (main_arg8 : FVec F S16x16 .f32) (main_arg9 : FVec F S16x16 .f32) (main_arg10 : FVec F S16 .f32) (main_arg11 : FVec F S16x64 .f32) (main_arg12 : FVec F S64 .f32) (main_arg13 : FVec F S64x64 .f32) (main_arg14 : FVec F S64 .f32) (main_arg15 : FVec F S64x64 .f32) (main_arg16 : FVec F S64 .f32) (main_arg17 : FVec F S64x4 .f32) (main_arg18 : FVec F S4 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x16 .f32 := Host.absf main_arg2
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S32x16 .f32 := Host.absf main_arg3
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x32 : Shape := ⟨2, ![100000, 32]⟩
abbrev S2x3200000 : Shape := ⟨2, ![2, 3200000]⟩
abbrev S32x16 : Shape := ⟨2, ![32, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S3200000x32 : Shape := ⟨2, ![3200000, 32]⟩
abbrev S1x16 : Shape := ⟨2, ![1, 16]⟩
abbrev S100000x16 : Shape := ⟨2, ![100000, 16]⟩
abbrev S5000x32 : Shape := ⟨2, ![5000, 32]⟩
abbrev S5000x16 : Shape := ⟨2, ![5000, 16]⟩
abbrev S3200000x16 : Shape := ⟨2, ![3200000, 16]⟩
abbrev S1x64 : Shape := ⟨2, ![1, 64]⟩
abbrev S1x4 : Shape := ⟨2, ![1, 4]⟩
abbrev S100000x4 : Shape := ⟨2, ![100000, 4]⟩
abbrev S5000x4 : Shape := ⟨2, ![5000, 4]⟩
abbrev S5000x64 : Shape := ⟨2, ![5000, 64]⟩

abbrev nBuf : Space → Nat
  | .hbm => 91
  | .vmem => 39
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S32x16, .f32⟩
  | .hbm, ⟨3, _⟩ => ⟨S32x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S16x16, .f32⟩
  | .hbm, ⟨10, _⟩ => ⟨S16, .f32⟩
  | .hbm, ⟨11, _⟩ => ⟨S16x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x4, .f32⟩
  | .hbm, ⟨18, _⟩ => ⟨S4, .f32⟩
  | .hbm, ⟨19, _⟩ => ⟨S1x3200000, .i32⟩
  | .hbm, ⟨20, _⟩ => ⟨S3200000, .i32⟩
  | .hbm, ⟨21, _⟩ => ⟨S1x3200000, .i32⟩
  | .hbm, ⟨22, _⟩ => ⟨S3200000, .i32⟩
  | .hbm, ⟨23, _⟩ => ⟨S_, .f32⟩
  | .hbm, ⟨24, _⟩ => ⟨S3200000x1, .f32⟩
  | .hbm, ⟨25, _⟩ => ⟨S_, .f32⟩
  | .hbm, ⟨26, _⟩ => ⟨S100000x1, .f32⟩
  | .hbm, ⟨27, _⟩ => ⟨S3200000x1, .i32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x32, .f32⟩
  | .hbm, ⟨44, _⟩ => ⟨S_, .f32⟩
  | .hbm, ⟨45, _⟩ => ⟨S100000x32, .f32⟩
  | .hbm, ⟨46, _⟩ => ⟨S3200000x1, .i32⟩
  | .hbm, ⟨47, _⟩ => ⟨S100000x32, .f32⟩
  | .hbm, ⟨48, _⟩ => ⟨S100000x32, .f32⟩
  | .hbm, ⟨49, _⟩ => ⟨S100000x32, .f32⟩
  | .hbm, ⟨50, _⟩ => ⟨S1x16, .f32⟩
  | .hbm, ⟨51, _⟩ => ⟨S100000x16, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S3200000x16, .f32⟩
  | .hbm, ⟨61, _⟩ => ⟨S_, .f32⟩
  | .hbm, ⟨62, _⟩ => ⟨S100000x16, .f32⟩
  | .hbm, ⟨63, _⟩ => ⟨S3200000x1, .i32⟩
  | .hbm, ⟨64, _⟩ => ⟨S100000x16, .f32⟩
  | .hbm, ⟨65, _⟩ => ⟨S100000x16, .f32⟩
  | .hbm, ⟨66, _⟩ => ⟨S100000x16, .f32⟩
  | .hbm, ⟨67, _⟩ => ⟨S1x16, .f32⟩
  | .hbm, ⟨68, _⟩ => ⟨S100000x16, .f32⟩
  | .hbm, ⟨69, _⟩ => ⟨S_, .i32⟩
  | .hbm, ⟨70, _⟩ => ⟨S3200000, .i32⟩
  | .hbm, ⟨71, _⟩ => ⟨S3200000, .i1⟩
  | .hbm, ⟨72, _⟩ => ⟨S_, .i32⟩
  | .hbm, ⟨73, _⟩ => ⟨S3200000, .i32⟩
  | .hbm, ⟨74, _⟩ => ⟨S3200000, .i32⟩
  | .hbm, ⟨75, _⟩ => ⟨S3200000, .i32⟩
  | .hbm, ⟨76, _⟩ => ⟨S3200000x1, .i32⟩
  | .hbm, ⟨77, _⟩ => ⟨S3200000x16, .f32⟩
  | .hbm, ⟨78, _⟩ => ⟨S_, .f32⟩
  | .hbm, ⟨79, _⟩ => ⟨S100000x16, .f32⟩
  | .hbm, ⟨80, _⟩ => ⟨S3200000x1, .i32⟩
  | .hbm, ⟨81, _⟩ => ⟨S100000x16, .f32⟩
  | .hbm, ⟨82, _⟩ => ⟨S100000x16, .f32⟩
  | .hbm, ⟨83, _⟩ => ⟨S100000x16, .f32⟩
  | .hbm, ⟨84, _⟩ => ⟨S1x16, .f32⟩
  | .hbm, ⟨85, _⟩ => ⟨S100000x16, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1x4, .f32⟩
  | .hbm, ⟨90, _⟩ => ⟨S100000x4, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x16, .f32⟩
  | .local _ .vmem, ⟨5, _⟩ => ⟨S32x16, .f32⟩
  | .local _ .vmem, ⟨6, _⟩ => ⟨S1x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16x16, .f32⟩
  | .local _ .vmem, ⟨14, _⟩ => ⟨S16x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S16x16, .f32⟩
  | .local _ .vmem, ⟨23, _⟩ => ⟨S16x16, .f32⟩
  | .local _ .vmem, ⟨24, _⟩ => ⟨S1x16, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S16x64, .f32⟩
  | .local _ .vmem, ⟨30, _⟩ => ⟨S1x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S1x64, .f32⟩
  | .local _ .vmem, ⟨35, _⟩ => ⟨S64x4, .f32⟩
  | .local _ .vmem, ⟨36, _⟩ => ⟨S1x4, .f32⟩
  | .local _ .vmem, ⟨37, _⟩ => ⟨S5000x4, .f32⟩
  | .local _ .vmem, ⟨38, _⟩ => ⟨S5000x4, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_v40 : Ref sig .tc := ⟨.hbm, 70, rfl⟩
abbrev main_v41 : Ref sig .tc := ⟨.hbm, 71, rfl⟩
abbrev main_c_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg9_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem9_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x4 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x4 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x4 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000x1 : S_.BroadcastsInDim S3200000x1 (![] : Fin 0 → Fin S3200000x1.rank)
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S16_S1x16 : S16.ShapeCasts S1x16
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  shapeCasts_S64_S1x64 : S64.ShapeCasts S1x64
  shapeCasts_S4_S1x4 : S4.ShapeCasts S1x4
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S100000x1_S3200000x1_S3200000x1_1_0_0_1_wf : ScatterDims.WF S100000x1 S3200000x1 S3200000x1 [1] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x16_S5000x16_1_0_0_1_n_n_wf : DotDims.WF S5000x32 S32x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x16_S5000x16_1_0_0_1_n_n_wf : DotDims.WF S5000x16 S16x16 S5000x16 [1] [0] [0] [1] [] []
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  dot_S5000x64_S64x4_S5000x4_1_0_0_1_n_n_wf : DotDims.WF S5000x64 S64x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x16.size a ≤ S32x16.size a
  hwx0_2 : ∀ i : grid0.Coords, EltTy.bits .f32 = 32 ∨ (Rect.block (s := S32x16) S32x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x64.size a ≤ S16x64.size a
  hwx3_1 : ∀ i : grid3.Coords, EltTy.bits .f32 = 32 ∨ (Rect.block (s := S16x64) S16x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x4.size a ≤ S64x4.size a
  hwx3_7 : ∀ i : grid3.Coords, EltTy.bits .f32 = 32 ∨ (Rect.block (s := S64x4) S64x4.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x4.size a ≤ S1x4.size a
  hwx3_8 : ∀ i : grid3.Coords, EltTy.bits .f32 = 32 ∨ (Rect.block (s := S1x4) S1x4.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x4.size a ≤ S100000x4.size a
  hwx3_9 : ∀ i : grid3.Coords, EltTy.bits .f32 = 32 ∨ (Rect.block (s := S100000x4) S5000x4.size (cc3_transform_9 i) (hinb3_9 i)).WholeWords (EltTy.packing .f32)

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf

abbrev win0_0 : Pipeline.Window sig grid0 :=
  Pipeline.Window.ofSpec (Memref.whole main_v23) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S16x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg17) S64x4.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v57) S1x4.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v58) S5000x4.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S32x16 : Shape := ⟨2, ![32, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S100000x1 : Shape := ⟨2, ![100000, 1]⟩
abbrev S100000x16 : Shape := ⟨2, ![100000, 16]⟩
abbrev S1x16 : Shape := ⟨2, ![1, 16]⟩
abbrev S3200000x16 : Shape := ⟨2, ![3200000, 16]⟩
abbrev S100000x64 : Shape := ⟨2, ![100000, 64]⟩
abbrev S1x64 : Shape := ⟨2, ![1, 64]⟩
abbrev S100000x4 : Shape := ⟨2, ![100000, 4]⟩
abbrev S1x4 : Shape := ⟨2, ![1, 4]⟩

abbrev nBuf : Space → Nat
  | .hbm => 219
  | .vmem => 0
  | .smem => 0
  | _ => 0

abbrev hbmTy0_0 (i : Nat) : BufTy := match i % 128 with
  | 0 => ⟨S100000x32, .f32⟩
  | 1 => ⟨S2x3200000, .i32⟩
  | 2 => ⟨S32x16, .f32⟩
  | 3 => ⟨S32x16, .f32⟩
  | 4 => ⟨S16, .f32⟩
  | 5 => ⟨S16x16, .f32⟩
  | 6 => ⟨S16x16, .f32⟩
  | 7 => ⟨S16, .f32⟩
  | 8 => ⟨S16x16, .f32⟩
  | 9 => ⟨S16x16, .f32⟩
  | 10 => ⟨S16, .f32⟩
  | 11 => ⟨S16x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x4, .f32⟩
  | 18 => ⟨S4, .f32⟩
  | 19 => ⟨S1x3200000, .i32⟩
  | 20 => ⟨S3200000, .i32⟩
  | 21 => ⟨S1x3200000, .i32⟩
  | 22 => ⟨S3200000, .i32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x32, .f32⟩
  | 32 => ⟨S_, .f32⟩
  | 33 => ⟨S100000x32, .f32⟩
  | 34 => ⟨S3200000x1, .i32⟩
  | 35 => ⟨S100000x32, .f32⟩
  | 36 => ⟨S_, .f32⟩
  | 37 => ⟨S3200000x1, .f32⟩
  | 38 => ⟨S_, .f32⟩
  | 39 => ⟨S100000x1, .f32⟩
  | 40 => ⟨S3200000x1, .i32⟩
  | 41 => ⟨S100000x1, .f32⟩
  | 42 => ⟨S_, .f32⟩
  | 43 => ⟨S100000x1, .f32⟩
  | 44 => ⟨S100000x1, .f32⟩
  | 45 => ⟨S100000x32, .f32⟩
  | 46 => ⟨S100000x32, .f32⟩
  | 47 => ⟨S100000x16, .f32⟩
  | 48 => ⟨S1x16, .f32⟩
  | 49 => ⟨S100000x16, .f32⟩
  | 50 => ⟨S100000x16, .f32⟩
  | 51 => ⟨S100000x16, .f32⟩
  | 52 => ⟨S100000x16, .f32⟩
  | 53 => ⟨S_, .f32⟩
  | 54 => ⟨S100000x16, .f32⟩
  | 55 => ⟨S100000x16, .i1⟩
  | 56 => ⟨S_, .f32⟩
  | 57 => ⟨S100000x16, .f32⟩
  | 58 => ⟨S100000x16, .i1⟩
  | 59 => ⟨S_, .f32⟩
  | 60 => ⟨S_, .f32⟩
  | 61 => ⟨S100000x16, .f32⟩
  | 62 => ⟨S100000x16, .f32⟩
  | 63 => ⟨S100000x16, .f32⟩
  | 64 => ⟨S_, .f32⟩
  | 65 => ⟨S100000x16, .f32⟩
  | 66 => ⟨S100000x16, .f32⟩
  | 67 => ⟨S100000x16, .f32⟩
  | 68 => ⟨S_, .i32⟩
  | 69 => ⟨S3200000, .i32⟩
  | 70 => ⟨S3200000, .i1⟩
  | 71 => ⟨S_, .i32⟩
  | 72 => ⟨S3200000, .i32⟩
  | 73 => ⟨S3200000, .i32⟩
  | 74 => ⟨S3200000, .i32⟩
  | 75 => ⟨S3200000x1, .i32⟩
  | 76 => ⟨S3200000x16, .f32⟩
  | 77 => ⟨S_, .f32⟩
  | 78 => ⟨S100000x16, .f32⟩
  | 79 => ⟨S3200000x1, .i32⟩
  | 80 => ⟨S100000x16, .f32⟩
  | 81 => ⟨S_, .f32⟩
  | 82 => ⟨S3200000x1, .f32⟩
  | 83 => ⟨S_, .f32⟩
  | 84 => ⟨S100000x1, .f32⟩
  | 85 => ⟨S3200000x1, .i32⟩
  | 86 => ⟨S100000x1, .f32⟩
  | 87 => ⟨S_, .f32⟩
  | 88 => ⟨S100000x1, .f32⟩
  | 89 => ⟨S100000x1, .f32⟩
  | 90 => ⟨S100000x16, .f32⟩
  | 91 => ⟨S100000x16, .f32⟩
  | 92 => ⟨S100000x16, .f32⟩
  | 93 => ⟨S1x16, .f32⟩
  | 94 => ⟨S100000x16, .f32⟩
  | 95 => ⟨S100000x16, .f32⟩
  | 96 => ⟨S100000x16, .f32⟩
  | 97 => ⟨S100000x16, .f32⟩
  | 98 => ⟨S_, .f32⟩
  | 99 => ⟨S100000x16, .f32⟩
  | 100 => ⟨S100000x16, .i1⟩
  | 101 => ⟨S_, .f32⟩
  | 102 => ⟨S100000x16, .f32⟩
  | 103 => ⟨S100000x16, .i1⟩
  | 104 => ⟨S_, .f32⟩
  | 105 => ⟨S_, .f32⟩
  | 106 => ⟨S100000x16, .f32⟩
  | 107 => ⟨S100000x16, .f32⟩
  | 108 => ⟨S100000x16, .f32⟩
  | 109 => ⟨S_, .f32⟩
  | 110 => ⟨S100000x16, .f32⟩
  | 111 => ⟨S100000x16, .f32⟩
  | 112 => ⟨S100000x16, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x16, .f32⟩
  | 122 => ⟨S_, .f32⟩
  | 123 => ⟨S100000x16, .f32⟩
  | 124 => ⟨S3200000x1, .i32⟩
  | 125 => ⟨S100000x16, .f32⟩
  | 126 => ⟨S_, .f32⟩
  | 127 => ⟨S3200000x1, .f32⟩
  | _ => ⟨S100000x32, .f32⟩

abbrev hbmTy0_1 (i : Nat) : BufTy := match i % 128 with
  | 0 => ⟨S_, .f32⟩
  | 1 => ⟨S100000x1, .f32⟩
  | 2 => ⟨S3200000x1, .i32⟩
  | 3 => ⟨S100000x1, .f32⟩
  | 4 => ⟨S_, .f32⟩
  | 5 => ⟨S100000x1, .f32⟩
  | 6 => ⟨S100000x1, .f32⟩
  | 7 => ⟨S100000x16, .f32⟩
  | 8 => ⟨S100000x16, .f32⟩
  | 9 => ⟨S100000x16, .f32⟩
  | 10 => ⟨S1x16, .f32⟩
  | 11 => ⟨S100000x16, .f32⟩
  | 12 => ⟨S100000x16, .f32⟩
  | 13 => ⟨S100000x16, .f32⟩
  | 14 => ⟨S100000x16, .f32⟩
  | 15 => ⟨S_, .f32⟩
  | 16 => ⟨S100000x16, .f32⟩
  | 17 => ⟨S100000x16, .i1⟩
  | 18 => ⟨S_, .f32⟩
  | 19 => ⟨S100000x16, .f32⟩
  | 20 => ⟨S100000x16, .i1⟩
  | 21 => ⟨S_, .f32⟩
  | 22 => ⟨S_, .f32⟩
  | 23 => ⟨S100000x16, .f32⟩
  | 24 => ⟨S100000x16, .f32⟩
  | 25 => ⟨S100000x16, .f32⟩
  | 26 => ⟨S_, .f32⟩
  | 27 => ⟨S100000x16, .f32⟩
  | 28 => ⟨S100000x16, .f32⟩
  | 29 => ⟨S100000x16, .f32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .i1⟩
  | 37 => ⟨S_, .f32⟩
  | 38 => ⟨S100000x64, .f32⟩
  | 39 => ⟨S100000x64, .i1⟩
  | 40 => ⟨S_, .f32⟩
  | 41 => ⟨S_, .f32⟩
  | 42 => ⟨S100000x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .i1⟩
  | 56 => ⟨S_, .f32⟩
  | 57 => ⟨S100000x64, .f32⟩
  | 58 => ⟨S100000x64, .i1⟩
  | 59 => ⟨S_, .f32⟩
  | 60 => ⟨S_, .f32⟩
  | 61 => ⟨S100000x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .i1⟩
  | 75 => ⟨S_, .f32⟩
  | 76 => ⟨S100000x64, .f32⟩
  | 77 => ⟨S100000x64, .i1⟩
  | 78 => ⟨S_, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S100000x4, .f32⟩
  | 88 => ⟨S1x4, .f32⟩
  | 89 => ⟨S100000x4, .f32⟩
  | 90 => ⟨S100000x4, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_cst_1 : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_v4 : Ref sig .tc := ⟨.hbm, 62, rfl⟩
abbrev main_call0_v5 : Ref sig .tc := ⟨.hbm, 63, rfl⟩
abbrev main_call0_cst_2 : Ref sig .tc := ⟨.hbm, 64, rfl⟩
abbrev main_call0_v6 : Ref sig .tc := ⟨.hbm, 65, rfl⟩
abbrev main_call0_v7 : Ref sig .tc := ⟨.hbm, 66, rfl⟩
abbrev main_v28 : Ref sig .tc := ⟨.hbm, 67, rfl⟩
abbrev main_c_4 : Ref sig .tc := ⟨.hbm, 68, rfl⟩
abbrev main_v29 : Ref sig .tc := ⟨.hbm, 69, rfl⟩
abbrev main_v30 : Ref sig .tc := ⟨.hbm, 70, rfl⟩
abbrev main_c_5 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_6 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_7 : Ref sig .tc := ⟨.hbm, 81, rfl⟩
abbrev main_v39 : Ref sig .tc := ⟨.hbm, 82, rfl⟩
abbrev main_cst_8 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_9 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_cst_1 : Ref sig .tc := ⟨.hbm, 104, rfl⟩
abbrev main_call1_call0_v0 : Ref sig .tc := ⟨.hbm, 105, rfl⟩
abbrev main_call1_call0_v1 : Ref sig .tc := ⟨.hbm, 106, rfl⟩
abbrev main_call1_v4 : Ref sig .tc := ⟨.hbm, 107, rfl⟩
abbrev main_call1_v5 : Ref sig .tc := ⟨.hbm, 108, rfl⟩
abbrev main_call1_cst_2 : Ref sig .tc := ⟨.hbm, 109, rfl⟩
abbrev main_call1_v6 : Ref sig .tc := ⟨.hbm, 110, rfl⟩
abbrev main_call1_v7 : Ref sig .tc := ⟨.hbm, 111, rfl⟩
abbrev main_v53 : Ref sig .tc := ⟨.hbm, 112, rfl⟩
abbrev main_c_10 : Ref sig .tc := ⟨.hbm, 113, rfl⟩
abbrev main_v54 : Ref sig .tc := ⟨.hbm, 114, rfl⟩
abbrev main_v55 : Ref sig .tc := ⟨.hbm, 115, rfl⟩
abbrev main_c_11 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_cst_12 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_13 : Ref sig .tc := ⟨.hbm, 126, rfl⟩
abbrev main_v64 : Ref sig .tc := ⟨.hbm, 127, rfl⟩
abbrev main_cst_14 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_15 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_cst_0 : Ref sig .tc := ⟨.hbm, 146, rfl⟩
abbrev main_call2_v2 : Ref sig .tc := ⟨.hbm, 147, rfl⟩
abbrev main_call2_v3 : Ref sig .tc := ⟨.hbm, 148, rfl⟩
abbrev main_call2_cst_1 : Ref sig .tc := ⟨.hbm, 149, rfl⟩
abbrev main_call2_call0_v0 : Ref sig .tc := ⟨.hbm, 150, rfl⟩
abbrev main_call2_call0_v1 : Ref sig .tc := ⟨.hbm, 151, rfl⟩
abbrev main_call2_v4 : Ref sig .tc := ⟨.hbm, 152, rfl⟩
abbrev main_call2_v5 : Ref sig .tc := ⟨.hbm, 153, rfl⟩
abbrev main_call2_cst_2 : Ref sig .tc := ⟨.hbm, 154, rfl⟩
abbrev main_call2_v6 : Ref sig .tc := ⟨.hbm, 155, rfl⟩
abbrev main_call2_v7 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_cst_0 : Ref sig .tc := ⟨.hbm, 165, rfl⟩
abbrev main_call3_v2 : Ref sig .tc := ⟨.hbm, 166, rfl⟩
abbrev main_call3_v3 : Ref sig .tc := ⟨.hbm, 167, rfl⟩
abbrev main_call3_cst_1 : Ref sig .tc := ⟨.hbm, 168, rfl⟩
abbrev main_call3_call0_v0 : Ref sig .tc := ⟨.hbm, 169, rfl⟩
abbrev main_call3_call0_v1 : Ref sig .tc := ⟨.hbm, 170, rfl⟩
abbrev main_call3_v4 : Ref sig .tc := ⟨.hbm, 171, rfl⟩
abbrev main_call3_v5 : Ref sig .tc := ⟨.hbm, 172, rfl⟩
abbrev main_call3_cst_2 : Ref sig .tc := ⟨.hbm, 173, rfl⟩
abbrev main_call3_v6 : Ref sig .tc := ⟨.hbm, 174, rfl⟩
abbrev main_call3_v7 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_call4_cst_1 : Ref sig .tc := ⟨.hbm, 187, rfl⟩
abbrev main_call4_call0_v0 : Ref sig .tc := ⟨.hbm, 188, rfl⟩
abbrev main_call4_call0_v1 : Ref sig .tc := ⟨.hbm, 189, rfl⟩
abbrev main_call4_v4 : Ref sig .tc := ⟨.hbm, 190, rfl⟩
abbrev main_call4_v5 : Ref sig .tc := ⟨.hbm, 191, rfl⟩
abbrev main_call4_cst_2 : Ref sig .tc := ⟨.hbm, 192, rfl⟩
abbrev main_call4_v6 : Ref sig .tc := ⟨.hbm, 193, rfl⟩
abbrev main_call4_v7 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_call5_cst : Ref sig .tc := ⟨.hbm, 200, rfl⟩
abbrev main_call5_v0 : Ref sig .tc := ⟨.hbm, 201, rfl⟩
abbrev main_call5_v1 : Ref sig .tc := ⟨.hbm, 202, rfl⟩
abbrev main_call5_cst_0 : Ref sig .tc := ⟨.hbm, 203, rfl⟩
abbrev main_call5_v2 : Ref sig .tc := ⟨.hbm, 204, rfl⟩
abbrev main_call5_v3 : Ref sig .tc := ⟨.hbm, 205, rfl⟩
abbrev main_call5_cst_1 : Ref sig .tc := ⟨.hbm, 206, rfl⟩
abbrev main_call5_call0_v0 : Ref sig .tc := ⟨.hbm, 207, rfl⟩
abbrev main_call5_call0_v1 : Ref sig .tc := ⟨.hbm, 208, rfl⟩
abbrev main_call5_v4 : Ref sig .tc := ⟨.hbm, 209, rfl⟩
abbrev main_call5_v5 : Ref sig .tc := ⟨.hbm, 210, rfl⟩
abbrev main_call5_cst_2 : Ref sig .tc := ⟨.hbm, 211, rfl⟩
abbrev main_call5_v6 : Ref sig .tc := ⟨.hbm, 212, rfl⟩
abbrev main_call5_v7 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev main_v97 : Ref sig .tc := ⟨.hbm, 218, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000x1_S3200000x1_S3200000x1_1_0_0_1_wf : ScatterDims.WF S100000x1 S3200000x1 S3200000x1 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x64_S100000x64_1_0_0_1_n_n_wf : DotDims.WF S100000x16 S16x64 S100000x64 [1] [0] [0] [1] [] []
  dot_S100000x64_S64x64_S100000x64_1_0_0_1_n_n_wf : DotDims.WF S100000x64 S64x64 S100000x64 [1] [0] [0] [1] [] []
  dot_S100000x64_S64x4_S100000x4_1_0_0_1_n_n_wf : DotDims.WF S100000x64 S64x4 S100000x4 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf

class Facts : Prop extends Facts₀ where

variable [Facts]
-- ==== Proof.Spec.lean ====
/-
  The mathematics both programs compute, stated once over the extended reals, with no program in sight.

  A node table is an n × k array, a weight a k × d array, a bias a 1 × d row.  One linear stage sends the table A to
  the table whose entry (i, j) is  ∑ q, A(i, q) · W(q, j) + b(0, j).  The exponential linear unit is v for v > 0 and
  exp v − 1 otherwise.  A graph layer takes the neighbour means `agg` and the nodes' own features `x` and returns
  ELU(agg · Wl + x · Wr + b) entry by entry.  The head is four linear stages with the unit after the first three.

  Every stage is ROW-LOCAL: row i of the result depends on row i of the table only.  That is what lets a result
  computed block of rows by block of rows be read as one function of the whole table (`linS_rows`, `eluS_rows`,
  `sageS_rows`): if a block's rows are the table's rows from `off` on, the stage of the block is the stage of the
  table at the same rows.
-/
import Idealize.ShloMosaic.PureOps.Ideal.Laws
import Idealize.ShloMosaic.Lib.ValueIdx

noncomputable section

open scoped BigOperators

namespace Cert.Spec

open Idealize.ShloMosaic Idealize.ShloMosaic.ValueIdx

variable {n n' k d : Nat}

/-- The exponential linear unit on the extended reals: the identity above zero, `exp v - 1` elsewhere. -/
def elu (v : EReal) : EReal := if 0 < v then v else Ideal.exp v - 1

/-- One linear stage at entry (i, j): the row of `A` against the column of `W`, plus the bias of column j. -/
def linAt (A : FVec Ideal ⟨2, ![n, k]⟩ .f32) (W : FVec Ideal ⟨2, ![k, d]⟩ .f32) (b : FVec Ideal ⟨2, ![1, d]⟩ .f32)
    (i : Fin n) (j : Fin d) : EReal :=
  (∑ q : Fin k, A (ix2 i q) * W (ix2 q j)) + b (ix2 0 j)

/-- One linear stage, as a table. -/
def linS (A : FVec Ideal ⟨2, ![n, k]⟩ .f32) (W : FVec Ideal ⟨2, ![k, d]⟩ .f32) (b : FVec Ideal ⟨2, ![1, d]⟩ .f32) :
    FVec Ideal ⟨2, ![n, d]⟩ .f32 :=
  fun e => linAt A W b (e 0) (e 1)

/-- The unit applied to every entry of a table. -/
def eluS (A : FVec Ideal ⟨2, ![n, d]⟩ .f32) : FVec Ideal ⟨2, ![n, d]⟩ .f32 := fun e => elu (A e)

/-- A graph layer at entry (i, j): ELU(agg(i,·)·Wl(·,j) + x(i,·)·Wr(·,j) + b(0,j)). -/
def sageAt (agg x : FVec Ideal ⟨2, ![n, k]⟩ .f32) (Wl Wr : FVec Ideal ⟨2, ![k, d]⟩ .f32) (b : FVec Ideal ⟨2, ![1, d]⟩ .f32)
    (i : Fin n) (j : Fin d) : EReal :=
  elu ((∑ q : Fin k, agg (ix2 i q) * Wl (ix2 q j)) + (∑ q : Fin k, x (ix2 i q) * Wr (ix2 q j)) + b (ix2 0 j))

/-- A graph layer, as a table. -/
def sageS (agg x : FVec Ideal ⟨2, ![n, k]⟩ .f32) (Wl Wr : FVec Ideal ⟨2, ![k, d]⟩ .f32) (b : FVec Ideal ⟨2, ![1, d]⟩ .f32) :
    FVec Ideal ⟨2, ![n, d]⟩ .f32 :=
  fun e => sageAt agg x Wl Wr b (e 0) (e 1)

/-- The head: four linear stages, the unit after the first three. -/
def mlpS {d0 d1 d2 d3 d4 : Nat} (h : FVec Ideal ⟨2, ![n, d0]⟩ .f32)
    (W0 : FVec Ideal ⟨2, ![d0, d1]⟩ .f32) (b0 : FVec Ideal ⟨2, ![1, d1]⟩ .f32)
    (W1 : FVec Ideal ⟨2, ![d1, d2]⟩ .f32) (b1 : FVec Ideal ⟨2, ![1, d2]⟩ .f32)
    (W2 : FVec Ideal ⟨2, ![d2, d3]⟩ .f32) (b2 : FVec Ideal ⟨2, ![1, d3]⟩ .f32)
    (W3 : FVec Ideal ⟨2, ![d3, d4]⟩ .f32) (b3 : FVec Ideal ⟨2, ![1, d4]⟩ .f32) : FVec Ideal ⟨2, ![n, d4]⟩ .f32 :=
  linS (eluS (linS (eluS (linS (eluS (linS h W0 b0)) W1 b1)) W2 b2)) W3 b3

theorem linS_apply (A : FVec Ideal ⟨2, ![n, k]⟩ .f32) (W : FVec Ideal ⟨2, ![k, d]⟩ .f32) (b : FVec Ideal ⟨2, ![1, d]⟩ .f32)
    (i : Fin n) (j : Fin d) : linS A W b (ix2 i j) = linAt A W b i j := rfl

theorem eluS_apply (A : FVec Ideal ⟨2, ![n, d]⟩ .f32) (i : Fin n) (j : Fin d) : eluS A (ix2 i j) = elu (A (ix2 i j)) := rfl

theorem sageS_apply (agg x : FVec Ideal ⟨2, ![n, k]⟩ .f32) (Wl Wr : FVec Ideal ⟨2, ![k, d]⟩ .f32)
    (b : FVec Ideal ⟨2, ![1, d]⟩ .f32) (i : Fin n) (j : Fin d) : sageS agg x Wl Wr b (ix2 i j) = sageAt agg x Wl Wr b i j := rfl

/-! ## Row-locality: a block of rows against the whole table -/

/-- If the rows of the block `A'` are the rows `ρ r` of the table `A`, a linear stage of the block is the stage of the
    table at those rows. -/
theorem linS_rows (A' : FVec Ideal ⟨2, ![n', k]⟩ .f32) (A : FVec Ideal ⟨2, ![n, k]⟩ .f32) (ρ : Fin n' → Fin n)
    (h : ∀ r q, A' (ix2 r q) = A (ix2 (ρ r) q))
    (W : FVec Ideal ⟨2, ![k, d]⟩ .f32) (b : FVec Ideal ⟨2, ![1, d]⟩ .f32) (r : Fin n') (j : Fin d) :
    linS A' W b (ix2 r j) = linS A W b (ix2 (ρ r) j) := by
  rw [linS_apply, linS_apply]; unfold linAt
  exact congrArg (· + b (ix2 0 j)) (Finset.sum_congr rfl fun q _ => by rw [h])

/-- The same for the unit. -/
theorem eluS_rows (A' : FVec Ideal ⟨2, ![n', d]⟩ .f32) (A : FVec Ideal ⟨2, ![n, d]⟩ .f32) (ρ : Fin n' → Fin n)
    (h : ∀ r q, A' (ix2 r q) = A (ix2 (ρ r) q)) (r : Fin n') (j : Fin d) :
    eluS A' (ix2 r j) = eluS A (ix2 (ρ r) j) := by
  rw [eluS_apply, eluS_apply, h]

/-- The same for a graph layer. -/
theorem sageS_rows (agg' x' : FVec Ideal ⟨2, ![n', k]⟩ .f32) (agg x : FVec Ideal ⟨2, ![n, k]⟩ .f32) (ρ : Fin n' → Fin n)
    (ha : ∀ r q, agg' (ix2 r q) = agg (ix2 (ρ r) q)) (hx : ∀ r q, x' (ix2 r q) = x (ix2 (ρ r) q))
    (Wl Wr : FVec Ideal ⟨2, ![k, d]⟩ .f32) (b : FVec Ideal ⟨2, ![1, d]⟩ .f32) (r : Fin n') (j : Fin d) :
    sageS agg' x' Wl Wr b (ix2 r j) = sageS agg x Wl Wr b (ix2 (ρ r) j) := by
  rw [sageS_apply, sageS_apply]; unfold sageAt
  simp only [ha, hx]

/-- The same for the head. -/
theorem mlpS_rows {d0 d1 d2 d3 d4 : Nat} (h' : FVec Ideal ⟨2, ![n', d0]⟩ .f32) (h : FVec Ideal ⟨2, ![n, d0]⟩ .f32)
    (ρ : Fin n' → Fin n) (hh : ∀ r q, h' (ix2 r q) = h (ix2 (ρ r) q))
    (W0 : FVec Ideal ⟨2, ![d0, d1]⟩ .f32) (b0 : FVec Ideal ⟨2, ![1, d1]⟩ .f32)
    (W1 : FVec Ideal ⟨2, ![d1, d2]⟩ .f32) (b1 : FVec Ideal ⟨2, ![1, d2]⟩ .f32)
    (W2 : FVec Ideal ⟨2, ![d2, d3]⟩ .f32) (b2 : FVec Ideal ⟨2, ![1, d3]⟩ .f32)
    (W3 : FVec Ideal ⟨2, ![d3, d4]⟩ .f32) (b3 : FVec Ideal ⟨2, ![1, d4]⟩ .f32) (r : Fin n') (j : Fin d4) :
    mlpS h' W0 b0 W1 b1 W2 b2 W3 b3 (ix2 r j) = mlpS h W0 b0 W1 b1 W2 b2 W3 b3 (ix2 (ρ r) j) := by
  unfold mlpS
  refine linS_rows _ _ ρ (fun r q => ?_) W3 b3 r j
  refine eluS_rows _ _ ρ (fun r q => ?_) r q
  refine linS_rows _ _ ρ (fun r q => ?_) W2 b2 r q
  refine eluS_rows _ _ ρ (fun r q => ?_) r q
  refine linS_rows _ _ ρ (fun r q => ?_) W1 b1 r q
  refine eluS_rows _ _ ρ (fun r q => ?_) r q
  exact linS_rows _ _ ρ hh W0 b0 r q

end Cert.Spec
-- ==== Proof.TermsK.lean ====
/-
  The idealized kernel program's result as one term of its nineteen arguments.

  From the edge table the program reads the source list (row 0) and the destination list (row 1).  A negative
  source index is wrapped by adding the node count.  The clamped degree of a node is max(number of edges that
  end there, 1), computed by a scatter-add of ones; the program takes its reciprocal ONCE.  For a node table h the
  message sum adds, at every node, the rows of h gathered at the sources of the edges that end there, and the
  neighbour mean is that sum TIMES the reciprocal clamped degree.  A graph layer (Spec.sageS) then combines the mean
  and h; three layers and the four-stage head (Spec.mlpS) follow one another.  Biases enter as 1 × d rows.
-/
import proofs.«136279_j14955076125382_1_alg».proof.Proof.Gen.KernelIdeal
import proofs.«136279_j14955076125382_1_alg».proof.Proof.Spec
import Idealize.ShloMosaic.PureOps.Ideal

noncomputable section

namespace Cert.KernelIdeal.Terms

open Idealize.ShloMosaic Cert.KernelIdeal Cert.KernelIdeal.Gen

/-- The 2 × E edge table and a length-E list of node indices. -/
abbrev EdgeTbl := (⟨S2x3200000, .i32⟩ : BufTy).Contents (Elt Ideal)
abbrev EdgeVec := (⟨S3200000, .i32⟩ : BufTy).Contents (Elt Ideal)

/-- Row 0 of the edge table: the edges' sources. -/
def src (ei : EdgeTbl) : EdgeVec := fun i =>
  shapeCast S3200000 (extractStridedSlice S1x3200000 ![0, 0] ei slices_S2x3200000_S1x3200000_0_0) shapeCasts_S1x3200000_S3200000 i

/-- Row 1 of the edge table: the edges' destinations. -/
def dst (ei : EdgeTbl) : EdgeVec := fun i =>
  shapeCast S3200000 (extractStridedSlice S1x3200000 ![1, 0] ei slices_S2x3200000_S1x3200000_1_0) shapeCasts_S1x3200000_S3200000 i

/-- A negative index counts from the end: add the node count. -/
def wrap (s : EdgeVec) : EdgeVec :=
  select (cmpi .slt s (broadcastInDim S3200000 ![] bcast_S_S3200000 (constantI S_ 32 0#32)))
    (addi s (broadcastInDim S3200000 ![] bcast_S_S3200000 (constantI S_ 32 100000#32))) s

/-- max(number of edges ending at the node, 1). -/
def degree (d : EdgeVec) : FVec Ideal S100000x1 .f32 :=
  maximumf
    (Host.scatterAdd scatter_S100000x1_S3200000x1_S3200000x1_1_0_0_1
      (broadcastInDim S100000x1 ![] bcast_S_S100000x1 (constant (F := Ideal) S_ .f32 0x00000000#32))
      (broadcastInDim S3200000x1 ![0] bcast_S3200000_S3200000x1_0 d)
      (broadcastInDim S3200000x1 ![] bcast_S_S3200000x1 (constant (F := Ideal) S_ .f32 0x3F800000#32)))
    (broadcastInDim S100000x1 ![] bcast_S_S100000x1 (constant (F := Ideal) S_ .f32 0x3F800000#32))

/-- Its reciprocal. -/
def invDegree (d : EdgeVec) : FVec Ideal S100000x1 .f32 :=
  Host.divf (broadcastInDim S100000x1 ![] bcast_S_S100000x1 (constant (F := Ideal) S_ .f32 0x3F800000#32)) (degree d)

/-- At every node, the sum of the rows of `h` at the sources of the edges ending there (32 features). -/
def msgSum32 (h : FVec Ideal S100000x32 .f32) (s d : EdgeVec) : FVec Ideal S100000x32 .f32 :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 d)
    (Host.gather gather_S100000x32_S3200000x1_S3200000x32_1_0_n_n_0_1_132 h
      (broadcastInDim S3200000x1 ![0] bcast_S3200000_S3200000x1_0 (wrap s)))

/-- The same over 16 features. -/
def msgSum16 (h : FVec Ideal S100000x16 .f32) (s d : EdgeVec) : FVec Ideal S100000x16 .f32 :=
  Host.scatterAdd scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 d)
    (Host.gather gather_S100000x16_S3200000x1_S3200000x16_1_0_n_n_0_1_116 h
      (broadcastInDim S3200000x1 ![0] bcast_S3200000_S3200000x1_0 (wrap s)))

/-- The neighbour mean as the program forms it: the message sum times the reciprocal clamped degree. -/
def agg32 (h : FVec Ideal S100000x32 .f32) (s d : EdgeVec) (inv : FVec Ideal S100000x1 .f32) : FVec Ideal S100000x32 .f32 :=
  mulf (msgSum32 h s d) (broadcastInDim S100000x32 ![0, 1] bcast_S100000x1_S100000x32_0_1 inv)

def agg16 (h : FVec Ideal S100000x16 .f32) (s d : EdgeVec) (inv : FVec Ideal S100000x1 .f32) : FVec Ideal S100000x16 .f32 :=
  mulf (msgSum16 h s d) (broadcastInDim S100000x16 ![0, 1] bcast_S100000x1_S100000x16_0_1 inv)

/-- A bias vector as a 1 × d row. -/
def row16 (b : FVec Ideal S16 .f32) : FVec Ideal S1x16 .f32 := fun i => shapeCast S1x16 b shapeCasts_S16_S1x16 i
def row64 (b : FVec Ideal S64 .f32) : FVec Ideal S1x64 .f32 := fun i => shapeCast S1x64 b shapeCasts_S64_S1x64 i
def row4 (b : FVec Ideal S4 .f32) : FVec Ideal S1x4 .f32 := fun i => shapeCast S1x4 b shapeCasts_S4_S1x4 i

/-- The program's result. -/
def kernelTerm (x : FVec Ideal S100000x32 .f32) (ei : EdgeTbl)
    (Wl0 Wr0 : FVec Ideal S32x16 .f32) (bl0 : FVec Ideal S16 .f32)
    (Wl1 Wr1 : FVec Ideal S16x16 .f32) (bl1 : FVec Ideal S16 .f32)
    (Wl2 Wr2 : FVec Ideal S16x16 .f32) (bl2 : FVec Ideal S16 .f32)
    (LW0 : FVec Ideal S16x64 .f32) (LB0 : FVec Ideal S64 .f32) (LW1 : FVec Ideal S64x64 .f32) (LB1 : FVec Ideal S64 .f32)
    (LW2 : FVec Ideal S64x64 .f32) (LB2 : FVec Ideal S64 .f32) (LW3 : FVec Ideal S64x4 .f32) (LB3 : FVec Ideal S4 .f32) :
    FVec Ideal S100000x4 .f32 :=
  let s := src ei
  let d := dst ei
  let inv := invDegree d
  let h1 : FVec Ideal S100000x16 .f32 := Cert.Spec.sageS (agg32 x s d inv) x Wl0 Wr0 (row16 bl0)
  let h2 : FVec Ideal S100000x16 .f32 := Cert.Spec.sageS (agg16 h1 s d inv) h1 Wl1 Wr1 (row16 bl1)
  let h3 : FVec Ideal S100000x16 .f32 := Cert.Spec.sageS (agg16 h2 s d inv) h2 Wl2 Wr2 (row16 bl2)
  Cert.Spec.mlpS h3 LW0 (row64 LB0) LW1 (row64 LB1) LW2 (row64 LB2) LW3 (row4 LB3)

end Cert.KernelIdeal.Terms

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KRegion0.lean ====
/-
  What the array written by graph layer 0 holds when the region ends, as ONE function of the arrays the region found.

  The region runs over 20 points. Point t is handed rows 5000 t … 5000 t + 4999 of the two 100000 × 32 tables (the
  neighbour means and the nodes' own features), the two 32 × 16 weights and the 1 × 16 bias whole, and writes rows
  5000 t … 5000 t + 4999 of the 100000 × 16 result. Over the extended reals the body's value at entry (r, j) of its block
  is ELU(∑ q, agg(r, q) · Wl(q, j) + ∑ q, x(r, q) · Wr(q, j) + b(0, j)): the narrowing of the factors to sixteen bits is
  the identity there, each product into a zero accumulator is the plain sum of products, and the select on "v > 0" between
  v and exp v − 1 is the unit. Since row r of the block is row 5000 t + r of the table and a graph layer is row-local, what
  point t writes back is block t of the layer of the WHOLE tables; the 20 blocks tile the rows, entry (i, j) lying in the
  block of point i / 5000, so the array ends holding that layer.
-/
import proofs.«136279_j14955076125382_1_alg».proof.Proof.Gen.KernelIdeal.Frame
import proofs.«136279_j14955076125382_1_alg».proof.Proof.Spec
import proofs.«136279_j14955076125382_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

namespace Layer0

/-! ## The body's arithmetic at one entry -/

/-- The f32 word 0x3F800000 is the number one. -/
theorem ofBits_one_f32 : Ideal.ofBits .f32 0x3F800000#32 = 1 := by
  simp [Ideal.ofBits, Ideal.ieee, -EReal.coe_mul]; norm_num

/-- The select "v if v > 0 else exp v − 1", entry by entry, is the exponential linear unit of the entry. -/
theorem select_exp_sub_one_apply {s : Shape} (v : FVec Ideal s .f32) (i : s.Idx) :
    select (cmpf .ogt v (broadcast s (Scalar.ofBits (F := Ideal) .f32 0x00000000#32))) v
        (subf (exp v) (broadcast s (Scalar.ofBits (F := Ideal) .f32 0x3F800000#32))) i
      = Cert.Spec.elu (v i) := by
  show Scalar.select (Ideal.cmp .ogt (v i) (Ideal.ofBits .f32 0x00000000#32)) (v i)
      (Ideal.exp (v i) - Ideal.ofBits .f32 0x3F800000#32) = _
  rw [Ideal.ofBits_zero_f32, ofBits_one_f32]
  unfold Cert.Spec.elu Scalar.select Ideal.cmp
  by_cases h : (0 : EReal) < v i
  · rw [if_pos h, if_pos (by simp [h])]
  · rw [if_neg h, if_neg (by simp [h])]

/-- Two products into zero accumulators, added, plus the bias row broadcast over the rows: at entry (r, j) the two
    row-by-column sums plus the bias of column j.  The narrowing of the factors to sixteen bits and the casts of a
    shape to itself change nothing over the extended reals. -/
theorem two_products_plus_bias_apply (n k d : Nat)
    (x0 x1 : FVec Ideal ⟨2, ![n, k]⟩ .f32) (x2 x3 : FVec Ideal ⟨2, ![k, d]⟩ .f32) (x4 : FVec Ideal ⟨2, ![1, d]⟩ .f32)
    (D : DotDims ⟨2, ![n, k]⟩ ⟨2, ![k, d]⟩ ⟨2, ![n, d]⟩) (hD : D = DotDims.plain n k d)
    (h0 : (⟨2, ![n, k]⟩ : Shape).ShapeCasts ⟨2, ![n, k]⟩) (h4 : (⟨2, ![1, d]⟩ : Shape).ShapeCasts ⟨2, ![1, d]⟩)
    (hb : (⟨2, ![1, d]⟩ : Shape).Broadcasts ⟨2, ![n, d]⟩) (hw : FTy.bits .bf16 < FTy.bits .f32)
    (r : Fin n) (j : Fin d) :
    addf (addf
          (matmul D none (truncf .bf16 (shapeCast ⟨2, ![n, k]⟩ x0 h0) hw) (truncf .bf16 x2 hw)
            (constant (F := Ideal) ⟨2, ![n, d]⟩ .f32 0x00000000#32))
          (matmul D none (truncf .bf16 x1 hw) (truncf .bf16 x3 hw)
            (constant (F := Ideal) ⟨2, ![n, d]⟩ .f32 0x00000000#32)))
        (broadcastTo ⟨2, ![n, d]⟩ (shapeCast ⟨2, ![1, d]⟩ x4 h4) hb) (ix2 r j)
      = (∑ q : Fin k, x0 (ix2 r q) * x2 (ix2 q j)) + (∑ q : Fin k, x1 (ix2 r q) * x3 (ix2 q j)) + x4 (ix2 0 j) := by
  subst hD
  rw [shapeCast_self, shapeCast_self]
  show FloatOps.matmul _ _ _ _ _ (ix2 r j) + FloatOps.matmul _ _ _ _ _ (ix2 r j) + broadcastTo _ x4 hb (ix2 r j) = _
  rw [Cert.LibDotPlain.matmul_zero_plain, Cert.LibDotPlain.matmul_zero_plain, broadcastTo_1b_ab_apply]
  rfl

/-- The body's stored value at entry (r, j) of its block: the graph layer of the five loaded blocks there. -/
theorem payload_apply (x0 x1 : Vec Ideal S5000x32 .f32) (x2 x3 : Vec Ideal S32x16 .f32) (x4 : Vec Ideal S1x16 .f32)
    (r : Fin 5000) (j : Fin 16) :
    k0_pay1 (F := Ideal) x0 x1 x2 x3 x4 (ix2 r j)
      = Cert.Spec.sageS (n := 5000) (k := 32) (d := 16) x0 x1 x2 x3 x4 (ix2 r j) := by
  unfold k0_pay1
  refine (select_exp_sub_one_apply _ _).trans ?_
  rw [Cert.Spec.sageS_apply]
  unfold Cert.Spec.sageAt
  exact congrArg Cert.Spec.elu
    (two_products_plus_bias_apply 5000 32 16 x0 x1 x2 x3 x4 dot_S5000x32_S32x16_S5000x16_1_0_0_1_n_n rfl _ _ _ _ r j)

/-! ## The windows' blocks as rows of the arrays -/

/-- The offsets (0, 0), however spelt. -/
theorem zero_offsets : (![0, 0] : Fin 2 → Nat) = fun _ => 0 := funext fun a => by fin_cases a <;> rfl

/-- The printed index maps over the grid: the row windows and the output window sit at block (t, 0), the weight and
    bias windows at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour means as the region finds them. -/
abbrev aggArr (c : Dev nD) : FVec Ideal S100000x32 .f32 := V c main_v23
/-- The nodes' own features. -/
abbrev selfArr (c : Dev nD) : FVec Ideal S100000x32 .f32 := V c main_arg0
/-- The weight applied to the neighbour means. -/
abbrev wlArr (c : Dev nD) : FVec Ideal S32x16 .f32 := V c main_arg2
/-- The weight applied to the own features. -/
abbrev wrArr (c : Dev nD) : FVec Ideal S32x16 .f32 := V c main_arg3
/-- The bias row. -/
abbrev biasArr (c : Dev nD) : FVec Ideal S1x16 .f32 := V c main_v24

/-- Row r of point t's block is row 5000 t + r of the table. -/
def tableRow (t : Fin cfg0.N) (r : Fin 5000) : Fin 100000 :=
  ⟨5000 * t.val + r.val, by have h : t.val < 20 := t.isLt; have := r.isLt; omega⟩

/-- Entry (r, q) of the neighbour-means block at point t is entry (5000 t + r, q) of the table. -/
theorem aggBlock_apply (c : Dev nD) (t : Fin cfg0.N) (r : Fin 5000) (q : Fin 32) :
    (iblk0 V c 0 t : Vec Ideal S5000x32 .f32) (ix2 r q) = aggArr V c (ix2 (tableRow t r) q) := by
  obtain ⟨e0, e1, -⟩ := block_indices t
  show V c main_v23 (((cfg0.win 0).blk t).view.emb (ix2 r q)) = V c main_v23 (ix2 (tableRow t r) q)
  refine congrArg (V c main_v23) (funext fun a => Fin.ext ?_)
  match a with
  | ⟨0, _⟩ => show win0_0.index t (0 : Fin 2) * 5000 + 1 * r.val = 5000 * t.val + r.val; rw [e0]; omega
  | ⟨1, _⟩ => show win0_0.index t (1 : Fin 2) * 32 + 1 * q.val = q.val; rw [e1]; omega

/-- Entry (r, q) of the own-features block at point t is entry (5000 t + r, q) of the table. -/
theorem selfBlock_apply (c : Dev nD) (t : Fin cfg0.N) (r : Fin 5000) (q : Fin 32) :
    (iblk0 V c 1 t : Vec Ideal S5000x32 .f32) (ix2 r q) = selfArr V c (ix2 (tableRow t r) q) := by
  obtain ⟨-, -, e0, e1, -⟩ := block_indices t
  show V c main_arg0 (((cfg0.win 1).blk t).view.emb (ix2 r q)) = V c main_arg0 (ix2 (tableRow t r) q)
  refine congrArg (V c main_arg0) (funext fun a => Fin.ext ?_)
  match a with
  | ⟨0, _⟩ => show win0_1.index t (0 : Fin 2) * 5000 + 1 * r.val = 5000 * t.val + r.val; rw [e0]; omega
  | ⟨1, _⟩ => show win0_1.index t (1 : Fin 2) * 32 + 1 * q.val = q.val; rw [e1]; omega

/-- The weight and bias windows hold their whole arrays at every point. -/
theorem wlBlock_eq (c : Dev nD) (t : Fin cfg0.N) : (iblk0 V c 2 t : Vec Ideal S32x16 .f32) = wlArr V c := by
  obtain ⟨-, -, -, -, e0, e1, -⟩ := block_indices t
  funext y
  show V c main_arg2 (((cfg0.win 2).blk t).view.emb y) = V c main_arg2 y
  refine congrArg (V c main_arg2) (funext fun a => Fin.ext ?_)
  match a with
  | ⟨0, _⟩ => show win0_2.index t (0 : Fin 2) * 32 + 1 * (y 0).val = (y 0).val; rw [e0]; omega
  | ⟨1, _⟩ => show win0_2.index t (1 : Fin 2) * 16 + 1 * (y 1).val = (y 1).val; rw [e1]; omega

/-- The second weight's window likewise. -/
theorem wrBlock_eq (c : Dev nD) (t : Fin cfg0.N) : (iblk0 V c 3 t : Vec Ideal S32x16 .f32) = wrArr V c := by
  obtain ⟨-, -, -, -, -, -, e0, e1, -⟩ := block_indices t
  funext y
  show V c main_arg3 (((cfg0.win 3).blk t).view.emb y) = V c main_arg3 y
  refine congrArg (V c main_arg3) (funext fun a => Fin.ext ?_)
  match a with
  | ⟨0, _⟩ => show win0_3.index t (0 : Fin 2) * 32 + 1 * (y 0).val = (y 0).val; rw [e0]; omega
  | ⟨1, _⟩ => show win0_3.index t (1 : Fin 2) * 16 + 1 * (y 1).val = (y 1).val; rw [e1]; omega

/-- The bias row's window likewise. -/
theorem biasBlock_eq (c : Dev nD) (t : Fin cfg0.N) : (iblk0 V c 4 t : Vec Ideal S1x16 .f32) = biasArr V c := by
  obtain ⟨-, -, -, -, -, -, -, -, e0, e1, -⟩ := block_indices t
  funext y
  show V c main_v24 (((cfg0.win 4).blk t).view.emb y) = V c main_v24 y
  refine congrArg (V c main_v24) (funext fun a => Fin.ext ?_)
  match a with
  | ⟨0, _⟩ => show win0_4.index t (0 : Fin 2) * 1 + 1 * (y 0).val = (y 0).val; rw [e0]; omega
  | ⟨1, _⟩ => show win0_4.index t (1 : Fin 2) * 16 + 1 * (y 1).val = (y 1).val; rw [e1]; omega

/-- Entry (r, j) of the output window's block at point t sits at entry (5000 t + r, j) of its array. -/
theorem outBlock_emb (t : Fin cfg0.N) (r : Fin 5000) (j : Fin 16) :
    ((cfg0.win 5).blk t).view.emb (ix2 r j) = (ix2 (tableRow t r) j : S100000x16.Idx) := by
  obtain ⟨-, -, -, -, -, -, -, -, -, -, e0, e1⟩ := block_indices t
  refine funext fun a => Fin.ext ?_
  match a with
  | ⟨0, _⟩ => show win0_5.index t (0 : Fin 2) * 5000 + 1 * r.val = 5000 * t.val + r.val; rw [e0]; omega
  | ⟨1, _⟩ => show win0_5.index t (1 : Fin 2) * 16 + 1 * j.val = j.val; rw [e1]; omega

/-! ## From the blocks to the array -/

/-- The graph layer of the whole tables: what the output array holds when the region ends. -/
abbrev layerArr (c : Dev nD) : FVec Ideal S100000x16 .f32 :=
  Cert.Spec.sageS (n := 100000) (k := 32) (d := 16) (aggArr V c) (selfArr V c) (wlArr V c) (wrArr V c) (biasArr V c)

/-- A graph layer depends on its weights and bias only through their values. -/
theorem sageS_weights {n k d : Nat} (a x : FVec Ideal ⟨2, ![n, k]⟩ .f32) (Wl Wl' Wr Wr' : FVec Ideal ⟨2, ![k, d]⟩ .f32)
    (b b' : FVec Ideal ⟨2, ![1, d]⟩ .f32) (hl : Wl = Wl') (hr : Wr = Wr') (hb : b = b') :
    Cert.Spec.sageS a x Wl Wr b = Cert.Spec.sageS a x Wl' Wr' b' := by
  subst hl hr hb; rfl

/-- What point t writes back is block t of the layer of the whole tables: rows 5000 t … 5000 t + 4999, each computed
    from the same row of the two tables. -/
theorem flushed_eq_layer_block (c : Dev nD) (t : Fin cfg0.N) :
    (dat0 (F := Ideal) V c).flushed 5 t = ((cfg0.win 5).blk t).view.read (Elt Ideal) (layerArr V c) := by
  show (cfg0.win 5).cut (grid0.coords t) ((dat0 (F := Ideal) V c).after 5 t) = _
  rw [after0_5]
  unfold out0_5
  rw [View.canon_unit_zero zero_offsets]
  simp only [View.ld_unit_zero (S := S5000x32) zero_offsets, View.ld_unit_zero (S := S32x16) zero_offsets,
    View.ld_unit_zero (S := S1x16) zero_offsets]
  funext y
  obtain ⟨r, j, rfl⟩ : ∃ (r : Fin 5000) (j : Fin 16), y = ix2 r j := ⟨y 0, y 1, eq_ix2 y⟩
  show k0_pay1 (F := Ideal) (iblk0 V c 0 t) (iblk0 V c 1 t) (iblk0 V c 2 t) (iblk0 V c 3 t) (iblk0 V c 4 t) (ix2 r j)
    = layerArr V c (((cfg0.win 5).blk t).view.emb (ix2 r j))
  refine (payload_apply (iblk0 V c 0 t) (iblk0 V c 1 t) (iblk0 V c 2 t) (iblk0 V c 3 t) (iblk0 V c 4 t) r j).trans ?_
  refine Eq.trans ?_ (congrArg (layerArr V c) (outBlock_emb t r j)).symm
  refine (congrFun (sageS_weights (iblk0 V c 0 t) (iblk0 V c 1 t) (iblk0 V c 2 t) (wlArr V c) (iblk0 V c 3 t) (wrArr V c)
    (iblk0 V c 4 t) (biasArr V c) (wlBlock_eq V c t) (wrBlock_eq V c t) (biasBlock_eq V c t)) (ix2 r j)).trans ?_
  exact Cert.Spec.sageS_rows (iblk0 V c 0 t) (iblk0 V c 1 t) (aggArr V c) (selfArr V c) (tableRow t)
    (aggBlock_apply V c t) (selfBlock_apply V c t) (wlArr V c) (wrArr V c) (biasArr V c) r j

/-- An entry of the array is in point t's block iff each coordinate is in the block's range on its axis. -/
theorem mem_outBlock (t : Fin cfg0.N) (i : S100000x16.Idx) :
    i ∈ ((cfg0.win 5).blk t).view.set ↔ ∀ a : Fin 2, win0_5.index t a * S5000x16.size a ≤ (i a).val
      ∧ (i a).val < win0_5.index t a * S5000x16.size a + S5000x16.size a := by
  show i ∈ ((View.whole main_v25).slice (win0_5.rect t)).set ↔ _
  rw [View.set_slice_whole, Rect.mem_set_unit]
  exact Iff.rfl

/-- Every entry (i, j) of the array is in the block of point i / 5000, and every point writes back. -/
theorem outBlocks_cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨-, -, -, -, -, -, -, -, -, -, e0, e1⟩ := block_indices t
  have ht : t.val = (i 0).val / 5000 := rfl
  refine ⟨t, flush0_5 t, ?_⟩
  rw [mem_outBlock]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 16 ≤ (i 1).val ∧ (i 1).val < win0_5.index t (1 : Fin 2) * 16 + 16
    rw [e1]; omega

end Layer0

open Layer0 in
/-- The output array after all 20 write-backs is the graph layer of the whole tables: every point writes back its block
    of that one function, and the blocks cover the array. -/
theorem region0 (c : Dev nD) :
    (dat0 (F := Ideal) V c).arrAt 5 cfg0.N
      = Cert.Spec.sageS (n := 100000) (k := 32) (d := 16) (V c main_v23) (V c main_arg0) (V c main_arg2) (V c main_arg3) (V c main_v24) :=
  (dat0 (F := Ideal) V c).arrAt_eq_of_cover 5 (layerArr V c) (fun t _ => flushed_eq_layer_block V c t) outBlocks_cover

end Cert.KernelIdeal.RegionValue

end
-- ==== Proof.KRegion1.lean ====
/-
  What the array written by graph layer 1 holds when the region ends, as ONE function of the arrays the region found.
-/
import proofs.«136279_j14955076125382_1_alg».proof.Proof.Gen.KernelIdeal.Frame
import proofs.«136279_j14955076125382_1_alg».proof.Proof.Spec
import proofs.«136279_j14955076125382_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-! Graph layer 1 step by step: the body's arithmetic at one entry, the blocks as rows of the tables, what a point
    writes back, and the cover of the array by the points' blocks. -/

namespace Layer1

/-! ## The body's arithmetic at one entry -/

/-- The f32 word 0x3F800000 is the extended real one. -/
theorem one_word : Ideal.ofBits .f32 0x3F800000#32 = 1 := by
  rw [show (1 : EReal) = ((1 : ℝ) : EReal) by norm_cast]
  simp [Ideal.ofBits, Ideal.ieee, -EReal.coe_mul]; norm_num

/-- The body's way of writing the unit at one entry — keep v where v is above the zero word, else exp v minus the
    one word — is the specification's unit: the zero word is 0, the one word is 1, and the comparison's bit is set
    exactly when 0 < v. -/
theorem select_exp_eq_elu (v : EReal) :
    Scalar.select (FloatOps.cmpf (F := Ideal) (φ := .f32) .ogt v (Scalar.ofBits (F := Ideal) .f32 0x00000000#32)) v
        (FloatOps.subf (F := Ideal) (φ := .f32) (FloatOps.exp (F := Ideal) (φ := .f32) v) (Scalar.ofBits (F := Ideal) .f32 0x3F800000#32))
      = Cert.Spec.elu v := by
  have hs : ∀ b : BitVec 32, Scalar.ofBits (F := Ideal) .f32 b = Ideal.ofBits .f32 b := fun _ => rfl
  simp only [Scalar.select, Ideal.cmpf_def, hs, Ideal.cmp, Ideal.ofBits_zero_f32, one_word, Ideal.subf_def, Ideal.exp_def]
  unfold Cert.Spec.elu
  by_cases h : 0 < v
  · simp [h]
  · simp [h]

set_option maxHeartbeats 400000 in
/-- The body's result at entry (r, j) of a block of 5000 rows is the graph layer of the block's rows there. The two
    changes of float format and the casts to the same shape are the identity on extended reals; each product into the
    all-zero array is the sum over q of row entry times weight entry; the bias row is read at column j whatever the
    row; and the select is the unit. -/
theorem payload_at (x0 x1 : Vec Ideal S5000x16 .f32) (x2 x3 : Vec Ideal S16x16 .f32) (x4 : Vec Ideal S1x16 .f32)
    (r : Fin 5000) (j : Fin 16) :
    k1_pay1 (F := Ideal) x0 x1 x2 x3 x4 (ix2 r j) = Cert.Spec.sageS (n := 5000) (k := 16) (d := 16) x0 x1 x2 x3 x4 (ix2 r j) := by
  have hm : ∀ (A : FVec Ideal S5000x16 .bf16) (B : FVec Ideal S16x16 .bf16),
      matmul dot_S5000x16_S16x16_S5000x16_1_0_0_1_n_n none A B (constant (F := Ideal) S5000x16 .f32 0x00000000#32) (ix2 r j)
        = ∑ q : Fin 16, A (ix2 r q) * B (ix2 q j) :=
    fun A B => Cert.LibDotPlain.matmul_zero_plain 5000 16 16 none A B r j
  unfold k1_pay1
  simp only [shapeCast_self]
  rw [Cert.Spec.sageS_apply]; unfold Cert.Spec.sageAt
  refine (select_exp_eq_elu _).trans (congrArg Cert.Spec.elu ?_)
  exact congrArg₂ (· + ·) (congrArg₂ (· + ·) (hm _ _) (hm _ _)) (broadcastTo_1b_ab_apply x4 broadcasts_S1x16_S5000x16 r j)

/-! ## Each window's block, read off the array the region found -/

/-- The printed index maps over the twenty grid points: point t's two row blocks and its output block are block t
    along the rows; the weights and the bias are always block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has twenty points. -/
theorem point_lt (t : Fin cfg1.N) : t.val < 20 := by
  have h : cfg1.N = 20 := N_1
  have := t.isLt
  omega

/-- Row r of point t's block is row 5000 t + r of the table: twenty blocks of 5000 rows tile the 100000 rows. -/
def rowOf (t : Fin cfg1.N) (r : Fin 5000) : Fin 100000 :=
  ⟨5000 * t.val + r.val, by have := point_lt t; have := r.isLt; omega⟩

/-- The block of neighbour means at point t holds rows 5000 t … 5000 t + 4999 of the table of means. -/
theorem means_block_rows (c : Dev nD) (t : Fin cfg1.N) (r : Fin 5000) (q : Fin 16) :
    (iblk1 V c 0 t : Vec Ideal S5000x16 .f32) (ix2 r q) = (V c main_v37 : Vec Ideal S100000x16 .f32) (ix2 (rowOf t r) q) := by
  obtain ⟨e0, e1, -⟩ := index_maps t
  show V c main_v37 (((cfg1.win 0).blk t).view.emb (ix2 r q)) = V c main_v37 (ix2 (rowOf t r) q)
  refine congrArg (V c main_v37) (funext fun a => Fin.ext ?_)
  match a with
  | ⟨0, _⟩ => show win1_0.index t (0 : Fin 2) * 5000 + 1 * r.val = 5000 * t.val + r.val; omega
  | ⟨1, _⟩ => show win1_0.index t (1 : Fin 2) * 16 + 1 * q.val = q.val; omega

/-- The block of the nodes' own features at point t holds the same rows of the feature table. -/
theorem features_block_rows (c : Dev nD) (t : Fin cfg1.N) (r : Fin 5000) (q : Fin 16) :
    (iblk1 V c 1 t : Vec Ideal S5000x16 .f32) (ix2 r q) = (V c main_v25 : Vec Ideal S100000x16 .f32) (ix2 (rowOf t r) q) := by
  obtain ⟨-, -, e0, e1, -⟩ := index_maps t
  show V c main_v25 (((cfg1.win 1).blk t).view.emb (ix2 r q)) = V c main_v25 (ix2 (rowOf t r) q)
  refine congrArg (V c main_v25) (funext fun a => Fin.ext ?_)
  match a with
  | ⟨0, _⟩ => show win1_1.index t (0 : Fin 2) * 5000 + 1 * r.val = 5000 * t.val + r.val; omega
  | ⟨1, _⟩ => show win1_1.index t (1 : Fin 2) * 16 + 1 * q.val = q.val; omega

/-- The weight applied to the means is staged whole at every point. -/
theorem means_weight_block (c : Dev nD) (t : Fin cfg1.N) :
    (iblk1 V c 2 t : Vec Ideal S16x16 .f32) = (V c main_arg5 : Vec Ideal S16x16 .f32) := by
  obtain ⟨-, -, -, -, e0, e1, -⟩ := index_maps t
  funext y
  show V c main_arg5 (((cfg1.win 2).blk t).view.emb y) = V c main_arg5 y
  refine congrArg (V c main_arg5) (funext fun a => Fin.ext ?_)
  match a with
  | ⟨0, _⟩ => show win1_2.index t (0 : Fin 2) * 16 + 1 * (y 0).val = (y 0).val; omega
  | ⟨1, _⟩ => show win1_2.index t (1 : Fin 2) * 16 + 1 * (y 1).val = (y 1).val; omega

/-- So is the weight applied to the nodes' own features. -/
theorem features_weight_block (c : Dev nD) (t : Fin cfg1.N) :
    (iblk1 V c 3 t : Vec Ideal S16x16 .f32) = (V c main_arg6 : Vec Ideal S16x16 .f32) := by
  obtain ⟨-, -, -, -, -, -, e0, e1, -⟩ := index_maps t
  funext y
  show V c main_arg6 (((cfg1.win 3).blk t).view.emb y) = V c main_arg6 y
  refine congrArg (V c main_arg6) (funext fun a => Fin.ext ?_)
  match a with
  | ⟨0, _⟩ => show win1_3.index t (0 : Fin 2) * 16 + 1 * (y 0).val = (y 0).val; omega
  | ⟨1, _⟩ => show win1_3.index t (1 : Fin 2) * 16 + 1 * (y 1).val = (y 1).val; omega

/-- And the bias row. -/
theorem bias_block (c : Dev nD) (t : Fin cfg1.N) :
    (iblk1 V c 4 t : Vec Ideal S1x16 .f32) = (V c main_v38 : Vec Ideal S1x16 .f32) := by
  obtain ⟨-, -, -, -, -, -, -, -, e0, e1, -⟩ := index_maps t
  funext y
  show V c main_v38 (((cfg1.win 4).blk t).view.emb y) = V c main_v38 y
  refine congrArg (V c main_v38) (funext fun a => Fin.ext ?_)
  match a with
  | ⟨0, _⟩ => show win1_4.index t (0 : Fin 2) * 1 + 1 * (y 0).val = (y 0).val; omega
  | ⟨1, _⟩ => show win1_4.index t (1 : Fin 2) * 16 + 1 * (y 1).val = (y 1).val; omega

/-! ## What a point writes back, and the whole array -/

/-- The body's one store and its loads all start at entry (0, 0) of their buffers. -/
theorem origin : (![0, 0] : Fin 2 → Nat) = fun _ => 0 := funext fun a => by fin_cases a <;> rfl

/-- The graph layer of the whole tables, as the region finds them. -/
abbrev layerOf (c : Dev nD) : Vec Ideal S100000x16 .f32 :=
  Cert.Spec.sageS (n := 100000) (k := 16) (d := 16) (V c main_v37) (V c main_v25) (V c main_arg5) (V c main_arg6) (V c main_v38)

set_option maxHeartbeats 400000 in
/-- The body's result on point t's blocks, at entry y of the block, is the layer of the whole tables at the entry i
    of the array that y is written back to: row 5000 t + (y's row), same column. The layer is row-local, the block's
    rows are those rows of the tables, and the weights and the bias are staged whole. -/
theorem block_entry (c : Dev nD) (t : Fin cfg1.N) (y : S5000x16.Idx) (i : S100000x16.Idx)
    (h0 : (i 0).val = 5000 * t.val + (y 0).val) (h1 : (i 1).val = (y 1).val) :
    k1_pay1 (F := Ideal) (iblk1 V c 0 t) (iblk1 V c 1 t) (iblk1 V c 2 t) (iblk1 V c 3 t) (iblk1 V c 4 t) y = layerOf V c i := by
  obtain ⟨r, j, rfl⟩ : ∃ (r : Fin 5000) (j : Fin 16), y = ix2 r j := ⟨y 0, y 1, eq_ix2 y⟩
  have hi : i = ix2 (rowOf t r) j := by
    funext a; apply Fin.ext
    match a with
    | ⟨0, _⟩ => exact h0
    | ⟨1, _⟩ => exact h1
  rw [hi]
  refine (payload_at (iblk1 V c 0 t) (iblk1 V c 1 t) (iblk1 V c 2 t) (iblk1 V c 3 t) (iblk1 V c 4 t) r j).trans ?_
  rw [means_weight_block V c t, features_weight_block V c t, bias_block V c t]
  exact Cert.Spec.sageS_rows (iblk1 V c 0 t) (iblk1 V c 1 t) (V c main_v37) (V c main_v25) (rowOf t)
    (means_block_rows V c t) (features_block_rows V c t) (V c main_arg5) (V c main_arg6) (V c main_v38) r j

set_option maxHeartbeats 400000 in
/-- WHAT POINT t WRITES BACK is block t of the layer of the whole tables. -/
theorem flushed_eq (c : Dev nD) (t : Fin cfg1.N) :
    (dat1 (F := Ideal) V c).flushed 5 t = ((cfg1.win 5).blk t).view.read (Elt Ideal) (layerOf V c) := by
  show (cfg1.win 5).cut (grid1.coords t) ((dat1 V c).after 5 t) = _
  rw [after1_5]
  unfold out1_5
  rw [View.canon_unit_zero origin]
  simp only [View.ld_unit_zero (S := S5000x16) origin, View.ld_unit_zero (S := S16x16) origin, View.ld_unit_zero (S := S1x16) origin]
  obtain ⟨-, -, -, -, -, -, -, -, -, -, e0, e1⟩ := index_maps t
  funext y
  refine block_entry V c t y (((cfg1.win 5).blk t).view.emb y) ?_ ?_
  · show win1_5.index t (0 : Fin 2) * 5000 + 1 * (y 0).val = 5000 * t.val + (y 0).val; omega
  · show win1_5.index t (1 : Fin 2) * 16 + 1 * (y 1).val = (y 1).val; omega

/-- An entry of the array lies in point t's block exactly when each coordinate lies in the block's range on its axis. -/
theorem mem_block (t : Fin cfg1.N) (i : S100000x16.Idx) :
    i ∈ ((cfg1.win 5).blk t).view.set ↔ ∀ a : Fin 2, win1_5.index t a * S5000x16.size a ≤ (i a).val
      ∧ (i a).val < win1_5.index t a * S5000x16.size a + S5000x16.size a := by
  show i ∈ ((View.whole main_v39).slice (win1_5.rect t)).set ↔ _
  rw [View.set_slice_whole, Rect.mem_set_unit]
  exact Iff.rfl

/-- Every entry (i, j) of the array is written back by some point: the one whose block holds row i, point i / 5000. -/
theorem covered (i : S100000x16.Idx) :
    ∃ t : Fin cfg1.N, (cfg1.win 5).flush t = true ∧ i ∈ ((cfg1.win 5).blk t).view.set := by
  have hi0 : (i 0).val < 100000 := idx2_lt0 i
  have hi1 : (i 1).val < 16 := idx2_lt1 i
  have hN : cfg1.N = 20 := N_1
  have ht : (i 0).val / 5000 < cfg1.N := by omega
  obtain ⟨-, -, -, -, -, -, -, -, -, -, e0, e1⟩ := index_maps ⟨(i 0).val / 5000, ht⟩
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 16 ≤ (i 1).val
      ∧ (i 1).val < win1_5.index ⟨(i 0).val / 5000, ht⟩ (1 : Fin 2) * 16 + 16
    rw [e1]; omega

end Layer1

/-- After the twenty write-backs the array holds the graph layer of the whole tables: each point writes its block of
    it, and the blocks cover the array. -/
theorem region1 (c : Dev nD) :
    (dat1 (F := Ideal) V c).arrAt 5 cfg1.N
      = Cert.Spec.sageS (n := 100000) (k := 16) (d := 16) (V c main_v37) (V c main_v25) (V c main_arg5) (V c main_arg6) (V c main_v38) :=
  (dat1 (F := Ideal) V c).arrAt_eq_of_cover 5 (Layer1.layerOf V c) (fun t _ => Layer1.flushed_eq V c t)
    (fun i => Layer1.covered i)

end Cert.KernelIdeal.RegionValue

end
-- ==== Proof.KRegion2.lean ====
/-
  What the array written by graph layer 2 holds when the region ends, as ONE function of the arrays the region found.
-/
import proofs.«136279_j14955076125382_1_alg».proof.Proof.Gen.KernelIdeal.Frame
import proofs.«136279_j14955076125382_1_alg».proof.Proof.Spec
import proofs.«136279_j14955076125382_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-! Graph layer 2 step by step: the body's arithmetic at one entry, the blocks as rows of the tables, what a point
    writes back, and the cover of the array by the points' blocks. -/

namespace Layer2

/-! ## The body's arithmetic at one entry -/

/-- The f32 word 0x3F800000 is the extended real one. -/
theorem one_word : Ideal.ofBits .f32 0x3F800000#32 = 1 := by
  rw [show (1 : EReal) = ((1 : ℝ) : EReal) by norm_cast]
  simp [Ideal.ofBits, Ideal.ieee, -EReal.coe_mul]; norm_num

/-- The body's way of writing the unit at one entry — keep v where v is above the zero word, else exp v minus the
    one word — is the specification's unit: the zero word is 0, the one word is 1, and the comparison's bit is set
    exactly when 0 < v. -/
theorem select_exp_eq_elu (v : EReal) :
    Scalar.select (FloatOps.cmpf (F := Ideal) (φ := .f32) .ogt v (Scalar.ofBits (F := Ideal) .f32 0x00000000#32)) v
        (FloatOps.subf (F := Ideal) (φ := .f32) (FloatOps.exp (F := Ideal) (φ := .f32) v) (Scalar.ofBits (F := Ideal) .f32 0x3F800000#32))
      = Cert.Spec.elu v := by
  have hs : ∀ b : BitVec 32, Scalar.ofBits (F := Ideal) .f32 b = Ideal.ofBits .f32 b := fun _ => rfl
  simp only [Scalar.select, Ideal.cmpf_def, hs, Ideal.cmp, Ideal.ofBits_zero_f32, one_word, Ideal.subf_def, Ideal.exp_def]
  unfold Cert.Spec.elu
  by_cases h : 0 < v
  · simp [h]
  · simp [h]

set_option maxHeartbeats 400000 in
/-- The body's result at entry (r, j) of a block of 5000 rows is the graph layer of the block's rows there. The two
    changes of float format and the casts to the same shape are the identity on extended reals; each product into the
    all-zero array is the sum over q of row entry times weight entry; the bias row is read at column j whatever the
    row; and the select is the unit. -/
theorem payload_at (x0 x1 : Vec Ideal S5000x16 .f32) (x2 x3 : Vec Ideal S16x16 .f32) (x4 : Vec Ideal S1x16 .f32)
    (r : Fin 5000) (j : Fin 16) :
    k2_pay1 (F := Ideal) x0 x1 x2 x3 x4 (ix2 r j) = Cert.Spec.sageS (n := 5000) (k := 16) (d := 16) x0 x1 x2 x3 x4 (ix2 r j) := by
  have hm : ∀ (A : FVec Ideal S5000x16 .bf16) (B : FVec Ideal S16x16 .bf16),
      matmul dot_S5000x16_S16x16_S5000x16_1_0_0_1_n_n none A B (constant (F := Ideal) S5000x16 .f32 0x00000000#32) (ix2 r j)
        = ∑ q : Fin 16, A (ix2 r q) * B (ix2 q j) :=
    fun A B => Cert.LibDotPlain.matmul_zero_plain 5000 16 16 none A B r j
  unfold k2_pay1
  simp only [shapeCast_self]
  rw [Cert.Spec.sageS_apply]; unfold Cert.Spec.sageAt
  refine (select_exp_eq_elu _).trans (congrArg Cert.Spec.elu ?_)
  exact congrArg₂ (· + ·) (congrArg₂ (· + ·) (hm _ _) (hm _ _)) (broadcastTo_1b_ab_apply x4 broadcasts_S1x16_S5000x16 r j)

/-! ## Each window's block, read off the array the region found -/

/-- The printed index maps over the twenty grid points: point t's two row blocks and its output block are block t
    along the rows; the weights and the bias are always block (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The grid has twenty points. -/
theorem point_lt (t : Fin cfg2.N) : t.val < 20 := by
  have h : cfg2.N = 20 := N_2
  have := t.isLt
  omega

/-- Row r of point t's block is row 5000 t + r of the table: twenty blocks of 5000 rows tile the 100000 rows. -/
def rowOf (t : Fin cfg2.N) (r : Fin 5000) : Fin 100000 :=
  ⟨5000 * t.val + r.val, by have := point_lt t; have := r.isLt; omega⟩

/-- The block of neighbour means at point t holds rows 5000 t … 5000 t + 4999 of the table of means. -/
theorem means_block_rows (c : Dev nD) (t : Fin cfg2.N) (r : Fin 5000) (q : Fin 16) :
    (iblk2 V c 0 t : Vec Ideal S5000x16 .f32) (ix2 r q) = (V c main_v51 : Vec Ideal S100000x16 .f32) (ix2 (rowOf t r) q) := by
  obtain ⟨e0, e1, -⟩ := index_maps t
  show V c main_v51 (((cfg2.win 0).blk t).view.emb (ix2 r q)) = V c main_v51 (ix2 (rowOf t r) q)
  refine congrArg (V c main_v51) (funext fun a => Fin.ext ?_)
  match a with
  | ⟨0, _⟩ => show win2_0.index t (0 : Fin 2) * 5000 + 1 * r.val = 5000 * t.val + r.val; omega
  | ⟨1, _⟩ => show win2_0.index t (1 : Fin 2) * 16 + 1 * q.val = q.val; omega

/-- The block of the nodes' own features at point t holds the same rows of the feature table. -/
theorem features_block_rows (c : Dev nD) (t : Fin cfg2.N) (r : Fin 5000) (q : Fin 16) :
    (iblk2 V c 1 t : Vec Ideal S5000x16 .f32) (ix2 r q) = (V c main_v39 : Vec Ideal S100000x16 .f32) (ix2 (rowOf t r) q) := by
  obtain ⟨-, -, e0, e1, -⟩ := index_maps t
  show V c main_v39 (((cfg2.win 1).blk t).view.emb (ix2 r q)) = V c main_v39 (ix2 (rowOf t r) q)
  refine congrArg (V c main_v39) (funext fun a => Fin.ext ?_)
  match a with
  | ⟨0, _⟩ => show win2_1.index t (0 : Fin 2) * 5000 + 1 * r.val = 5000 * t.val + r.val; omega
  | ⟨1, _⟩ => show win2_1.index t (1 : Fin 2) * 16 + 1 * q.val = q.val; omega

/-- The weight applied to the means is staged whole at every point. -/
theorem means_weight_block (c : Dev nD) (t : Fin cfg2.N) :
    (iblk2 V c 2 t : Vec Ideal S16x16 .f32) = (V c main_arg8 : Vec Ideal S16x16 .f32) := by
  obtain ⟨-, -, -, -, e0, e1, -⟩ := index_maps t
  funext y
  show V c main_arg8 (((cfg2.win 2).blk t).view.emb y) = V c main_arg8 y
  refine congrArg (V c main_arg8) (funext fun a => Fin.ext ?_)
  match a with
  | ⟨0, _⟩ => show win2_2.index t (0 : Fin 2) * 16 + 1 * (y 0).val = (y 0).val; omega
  | ⟨1, _⟩ => show win2_2.index t (1 : Fin 2) * 16 + 1 * (y 1).val = (y 1).val; omega

/-- So is the weight applied to the nodes' own features. -/
theorem features_weight_block (c : Dev nD) (t : Fin cfg2.N) :
    (iblk2 V c 3 t : Vec Ideal S16x16 .f32) = (V c main_arg9 : Vec Ideal S16x16 .f32) := by
  obtain ⟨-, -, -, -, -, -, e0, e1, -⟩ := index_maps t
  funext y
  show V c main_arg9 (((cfg2.win 3).blk t).view.emb y) = V c main_arg9 y
  refine congrArg (V c main_arg9) (funext fun a => Fin.ext ?_)
  match a with
  | ⟨0, _⟩ => show win2_3.index t (0 : Fin 2) * 16 + 1 * (y 0).val = (y 0).val; omega
  | ⟨1, _⟩ => show win2_3.index t (1 : Fin 2) * 16 + 1 * (y 1).val = (y 1).val; omega

/-- And the bias row. -/
theorem bias_block (c : Dev nD) (t : Fin cfg2.N) :
    (iblk2 V c 4 t : Vec Ideal S1x16 .f32) = (V c main_v52 : Vec Ideal S1x16 .f32) := by
  obtain ⟨-, -, -, -, -, -, -, -, e0, e1, -⟩ := index_maps t
  funext y
  show V c main_v52 (((cfg2.win 4).blk t).view.emb y) = V c main_v52 y
  refine congrArg (V c main_v52) (funext fun a => Fin.ext ?_)
  match a with
  | ⟨0, _⟩ => show win2_4.index t (0 : Fin 2) * 1 + 1 * (y 0).val = (y 0).val; omega
  | ⟨1, _⟩ => show win2_4.index t (1 : Fin 2) * 16 + 1 * (y 1).val = (y 1).val; omega

/-! ## What a point writes back, and the whole array -/

/-- The body's one store and its loads all start at entry (0, 0) of their buffers. -/
theorem origin : (![0, 0] : Fin 2 → Nat) = fun _ => 0 := funext fun a => by fin_cases a <;> rfl

/-- The graph layer of the whole tables, as the region finds them. -/
abbrev layerOf (c : Dev nD) : Vec Ideal S100000x16 .f32 :=
  Cert.Spec.sageS (n := 100000) (k := 16) (d := 16) (V c main_v51) (V c main_v39) (V c main_arg8) (V c main_arg9) (V c main_v52)

set_option maxHeartbeats 400000 in
/-- The body's result on point t's blocks, at entry y of the block, is the layer of the whole tables at the entry i
    of the array that y is written back to: row 5000 t + (y's row), same column. The layer is row-local, the block's
    rows are those rows of the tables, and the weights and the bias are staged whole. -/
theorem block_entry (c : Dev nD) (t : Fin cfg2.N) (y : S5000x16.Idx) (i : S100000x16.Idx)
    (h0 : (i 0).val = 5000 * t.val + (y 0).val) (h1 : (i 1).val = (y 1).val) :
    k2_pay1 (F := Ideal) (iblk2 V c 0 t) (iblk2 V c 1 t) (iblk2 V c 2 t) (iblk2 V c 3 t) (iblk2 V c 4 t) y = layerOf V c i := by
  obtain ⟨r, j, rfl⟩ : ∃ (r : Fin 5000) (j : Fin 16), y = ix2 r j := ⟨y 0, y 1, eq_ix2 y⟩
  have hi : i = ix2 (rowOf t r) j := by
    funext a; apply Fin.ext
    match a with
    | ⟨0, _⟩ => exact h0
    | ⟨1, _⟩ => exact h1
  rw [hi]
  refine (payload_at (iblk2 V c 0 t) (iblk2 V c 1 t) (iblk2 V c 2 t) (iblk2 V c 3 t) (iblk2 V c 4 t) r j).trans ?_
  rw [means_weight_block V c t, features_weight_block V c t, bias_block V c t]
  exact Cert.Spec.sageS_rows (iblk2 V c 0 t) (iblk2 V c 1 t) (V c main_v51) (V c main_v39) (rowOf t)
    (means_block_rows V c t) (features_block_rows V c t) (V c main_arg8) (V c main_arg9) (V c main_v52) r j

set_option maxHeartbeats 400000 in
/-- WHAT POINT t WRITES BACK is block t of the layer of the whole tables. -/
theorem flushed_eq (c : Dev nD) (t : Fin cfg2.N) :
    (dat2 (F := Ideal) V c).flushed 5 t = ((cfg2.win 5).blk t).view.read (Elt Ideal) (layerOf V c) := by
  show (cfg2.win 5).cut (grid2.coords t) ((dat2 V c).after 5 t) = _
  rw [after2_5]
  unfold out2_5
  rw [View.canon_unit_zero origin]
  simp only [View.ld_unit_zero (S := S5000x16) origin, View.ld_unit_zero (S := S16x16) origin, View.ld_unit_zero (S := S1x16) origin]
  obtain ⟨-, -, -, -, -, -, -, -, -, -, e0, e1⟩ := index_maps t
  funext y
  refine block_entry V c t y (((cfg2.win 5).blk t).view.emb y) ?_ ?_
  · show win2_5.index t (0 : Fin 2) * 5000 + 1 * (y 0).val = 5000 * t.val + (y 0).val; omega
  · show win2_5.index t (1 : Fin 2) * 16 + 1 * (y 1).val = (y 1).val; omega

/-- An entry of the array lies in point t's block exactly when each coordinate lies in the block's range on its axis. -/
theorem mem_block (t : Fin cfg2.N) (i : S100000x16.Idx) :
    i ∈ ((cfg2.win 5).blk t).view.set ↔ ∀ a : Fin 2, win2_5.index t a * S5000x16.size a ≤ (i a).val
      ∧ (i a).val < win2_5.index t a * S5000x16.size a + S5000x16.size a := by
  show i ∈ ((View.whole main_v53).slice (win2_5.rect t)).set ↔ _
  rw [View.set_slice_whole, Rect.mem_set_unit]
  exact Iff.rfl

/-- Every entry (i, j) of the array is written back by some point: the one whose block holds row i, point i / 5000. -/
theorem covered (i : S100000x16.Idx) :
    ∃ t : Fin cfg2.N, (cfg2.win 5).flush t = true ∧ i ∈ ((cfg2.win 5).blk t).view.set := by
  have hi0 : (i 0).val < 100000 := idx2_lt0 i
  have hi1 : (i 1).val < 16 := idx2_lt1 i
  have hN : cfg2.N = 20 := N_2
  have ht : (i 0).val / 5000 < cfg2.N := by omega
  obtain ⟨-, -, -, -, -, -, -, -, -, -, e0, e1⟩ := index_maps ⟨(i 0).val / 5000, ht⟩
  refine ⟨⟨(i 0).val / 5000, ht⟩, flush2_5 _, ?_⟩
  rw [mem_block]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 16 ≤ (i 1).val
      ∧ (i 1).val < win2_5.index ⟨(i 0).val / 5000, ht⟩ (1 : Fin 2) * 16 + 16
    rw [e1]; omega

end Layer2

/-- After the twenty write-backs the array holds the graph layer of the whole tables: each point writes its block of
    it, and the blocks cover the array. -/
theorem region2 (c : Dev nD) :
    (dat2 (F := Ideal) V c).arrAt 5 cfg2.N
      = Cert.Spec.sageS (n := 100000) (k := 16) (d := 16) (V c main_v51) (V c main_v39) (V c main_arg8) (V c main_arg9) (V c main_v52) :=
  (dat2 (F := Ideal) V c).arrAt_eq_of_cover 5 (Layer2.layerOf V c) (fun t _ => Layer2.flushed_eq V c t)
    (fun i => Layer2.covered i)

end Cert.KernelIdeal.RegionValue

end
-- ==== Proof.KRegion3.lean ====
/-
  What the array written by the head holds when the region ends, as ONE function of the arrays the region found.

  The region runs over twenty grid points. Point t loads rows 5000 t … 5000 t + 4999 of the 100000 × 16 node table,
  the four weights and the four bias rows whole, and stores a 5000 × 4 block that is written back to rows
  5000 t … 5000 t + 4999 of the 100000 × 4 result. The stored block is four linear stages of the loaded rows, with
  the exponential linear unit after the first three: on the extended reals a change of float format is the identity,
  a product accumulated into the zero array is the plain sum of products, the bias row is read on every row, and
  "select (v > 0) v (exp v − 1)" is the unit. Each stage is row-local, so the stored block at row r is the head of
  the whole table at row 5000 t + r; the twenty blocks tile the result, so the result is the head of the table.
-/
import proofs.«136279_j14955076125382_1_alg».proof.Proof.Gen.KernelIdeal.Frame
import proofs.«136279_j14955076125382_1_alg».proof.Proof.Spec
import proofs.«136279_j14955076125382_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

namespace Head

/-! ## The stages of the head, as the body writes them -/

/-- The two words the unit is written with: the f32 pattern of zero is the extended real 0 and the pattern
    0x3F800000 is the extended real 1; with them "select (v > 0) v (exp v − 1)" is the unit at v. -/
theorem unit_at (v : Ideal .f32) :
    Scalar.select (FloatOps.cmpf .ogt v (Scalar.ofBits .f32 0x00000000#32)) v
        (FloatOps.subf (FloatOps.exp v) (Scalar.ofBits .f32 0x3F800000#32))
      = Cert.Spec.elu v := by
  have hs : ∀ b : BitVec FTy.f32.bits, Scalar.ofBits (F := Ideal) .f32 b = Ideal.ofBits .f32 b := fun _ => rfl
  have h1 : Ideal.ofBits .f32 0x3F800000#32 = 1 := IdealRules.sign_bit.ideal_onePat .f32
  simp only [Scalar.select, Ideal.cmpf_def, hs, Ideal.cmp, Ideal.ofBits_zero_f32, h1, Ideal.subf_def, Ideal.exp_def]
  unfold Cert.Spec.elu
  by_cases h : 0 < v <;> simp [h]

/-- The unit over a whole table. -/
theorem unit_table {n d : Nat} (v : FVec Ideal ⟨2, ![n, d]⟩ .f32) :
    select (cmpf .ogt v (broadcast ⟨2, ![n, d]⟩ (Scalar.ofBits .f32 0x00000000#32))) v
        (subf (exp v) (broadcast ⟨2, ![n, d]⟩ (Scalar.ofBits .f32 0x3F800000#32)))
      = Cert.Spec.eluS v :=
  funext fun e => unit_at (v e)

/-- One linear stage over a whole table: the product into the zero array plus the bias row read on every row. The
    change of format of the two factors is the identity on extended reals. -/
theorem linear_table {n k d : Nat} (D : DotDims ⟨2, ![n, k]⟩ ⟨2, ![k, d]⟩ ⟨2, ![n, d]⟩) (hD : D = DotDims.plain n k d)
    (A : FVec Ideal ⟨2, ![n, k]⟩ .f32) (W : FVec Ideal ⟨2, ![k, d]⟩ .f32) (b : FVec Ideal ⟨2, ![1, d]⟩ .f32)
    (hA hW) (hc : (⟨2, ![1, d]⟩ : Shape).ShapeCasts ⟨2, ![1, d]⟩) (hb : (⟨2, ![1, d]⟩ : Shape).Broadcasts ⟨2, ![n, d]⟩) :
    addf (matmul D none (truncf .bf16 A hA) (truncf .bf16 W hW) (constant ⟨2, ![n, d]⟩ .f32 0x00000000#32))
        (broadcastTo ⟨2, ![n, d]⟩ (shapeCast ⟨2, ![1, d]⟩ b hc) hb)
      = Cert.Spec.linS A W b := by
  subst hD
  funext e
  obtain ⟨r, j, rfl⟩ : ∃ (r : Fin n) (j : Fin d), e = ix2 r j := ⟨e 0, e 1, eq_ix2 e⟩
  rw [addf_apply, shapeCast_self, broadcastTo_1b_ab_apply, Cert.Spec.linS_apply]
  unfold Cert.Spec.linAt
  exact congrArg (· + b (ix2 0 j)) (Cert.LibDotPlain.matmul_zero_plain n k d none _ _ r j)

/-! ## The body's arithmetic is the head of its loaded blocks -/

/-- The last stage: the unit, then the linear stage into the four result columns. -/
theorem last_stage (h3 : FVec Ideal S5000x64 .f32) (W3 : Vec Ideal S64x4 .f32) (b3 : Vec Ideal S1x4 .f32) :
    k3_pay1 h3 W3 b3 = Cert.Spec.linS (Cert.Spec.eluS h3) W3 b3 := by
  unfold k3_pay1
  dsimp only
  rw [unit_table h3]
  exact linear_table _ rfl _ W3 b3 _ _ _ _

/-- The first three linear stages with the unit between them. -/
theorem first_stages (h : Vec Ideal S5000x16 .f32) (W0 : Vec Ideal S16x64 .f32) (b0 : Vec Ideal S1x64 .f32)
    (W1 : Vec Ideal S64x64 .f32) (b1 : Vec Ideal S1x64 .f32) (W2 : Vec Ideal S64x64 .f32) (b2 : Vec Ideal S1x64 .f32) :
    k3_pay2 h W0 b0 W1 b1 W2 b2
      = Cert.Spec.linS (Cert.Spec.eluS (Cert.Spec.linS (Cert.Spec.eluS (Cert.Spec.linS h W0 b0)) W1 b1)) W2 b2 := by
  unfold k3_pay2
  dsimp only
  rw [shapeCast_self h]
  rw [linear_table dot_S5000x16_S16x64_S5000x64_1_0_0_1_n_n rfl h W0 b0]
  rw [unit_table]
  rw [linear_table dot_S5000x64_S64x64_S5000x64_1_0_0_1_n_n rfl _ W1 b1]
  rw [unit_table]
  exact linear_table _ rfl _ W2 b2 _ _ _ _

/-- The stored block is the head of the loaded blocks. -/
theorem body_value (h : Vec Ideal S5000x16 .f32) (W0 : Vec Ideal S16x64 .f32) (b0 : Vec Ideal S1x64 .f32)
    (W1 : Vec Ideal S64x64 .f32) (b1 : Vec Ideal S1x64 .f32) (W2 : Vec Ideal S64x64 .f32) (b2 : Vec Ideal S1x64 .f32)
    (W3 : Vec Ideal S64x4 .f32) (b3 : Vec Ideal S1x4 .f32) :
    k3_pay1 (k3_pay2 h W0 b0 W1 b1 W2 b2) W3 b3 = Cert.Spec.mlpS (n := 5000) h W0 b0 W1 b1 W2 b2 W3 b3 := by
  rw [last_stage, first_stages]
  rfl

/-! ## The blocks the body loads, as rows of the arrays the region found -/

theorem offsets_zero : (![0, 0] : Fin 2 → Nat) = fun _ => 0 := funext fun a => by fin_cases a <;> rfl

/-- The index maps, decided once over the twenty grid points: the node table's and the result's block index is
    (t, 0); every weight's and bias's is (0, 0). -/
theorem index_maps : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = t.val ∧ win3_9.index t (1 : Fin 2) = 0) :=
  (by decide +kernel : ∀ t : Fin grid3.N, _)

/-- Row r of the block of grid point t is row 5000 t + r of the table. -/
def tableRow (t : Fin cfg3.N) (r : Fin 5000) : Fin 100000 :=
  ⟨5000 * t.val + r.val, by have h : t.val < 20 := t.isLt; have := r.isLt; omega⟩

/-- The arrays the region finds, at their literal types. -/
abbrev nodes (c : Dev nD) : FVec Ideal ⟨2, ![100000, 16]⟩ .f32 := V c main_v53
abbrev weight0 (c : Dev nD) : FVec Ideal ⟨2, ![16, 64]⟩ .f32 := V c main_arg11
abbrev bias0 (c : Dev nD) : FVec Ideal ⟨2, ![1, 64]⟩ .f32 := V c main_v54
abbrev weight1 (c : Dev nD) : FVec Ideal ⟨2, ![64, 64]⟩ .f32 := V c main_arg13
abbrev bias1 (c : Dev nD) : FVec Ideal ⟨2, ![1, 64]⟩ .f32 := V c main_v55
abbrev weight2 (c : Dev nD) : FVec Ideal ⟨2, ![64, 64]⟩ .f32 := V c main_arg15
abbrev bias2 (c : Dev nD) : FVec Ideal ⟨2, ![1, 64]⟩ .f32 := V c main_v56
abbrev weight3 (c : Dev nD) : FVec Ideal ⟨2, ![64, 4]⟩ .f32 := V c main_arg17
abbrev bias3 (c : Dev nD) : FVec Ideal ⟨2, ![1, 4]⟩ .f32 := V c main_v57

/-- The node table's block at point t holds the table's rows 5000 t … 5000 t + 4999. -/
theorem nodes_block (c : Dev nD) (t : Fin cfg3.N) (r : Fin 5000) (q : Fin 16) :
    (iblk3 V c 0 t : Vec Ideal S5000x16 .f32) (ix2 r q) = nodes V c (ix2 (tableRow t r) q) := by
  obtain ⟨⟨e0, e1⟩, -⟩ := index_maps t
  show V c main_v53 (((cfg3.win 0).blk t).view.emb (ix2 r q)) = V c main_v53 (ix2 (tableRow t r) q)
  refine congrArg (V c main_v53) (funext fun a => Fin.ext ?_)
  match a with
  | ⟨0, _⟩ => show win3_0.index t (0 : Fin 2) * 5000 + 1 * r.val = 5000 * t.val + r.val; rw [e0]; omega
  | ⟨1, _⟩ => show win3_0.index t (1 : Fin 2) * 16 + 1 * q.val = q.val; rw [e1]; omega

/-- A weight's or a bias's block is the whole array at every point: its block index is (0, 0) and the block has the
    array's extents. -/
theorem weight0_block (c : Dev nD) (t : Fin cfg3.N) : (iblk3 V c 1 t : Vec Ideal S16x64 .f32) = weight0 V c := by
  obtain ⟨-, ⟨e0, e1⟩, -⟩ := index_maps t
  funext y
  show V c main_arg11 (((cfg3.win 1).blk t).view.emb y) = V c main_arg11 y
  refine congrArg (V c main_arg11) (funext fun a => Fin.ext ?_)
  match a with
  | ⟨0, _⟩ => show win3_1.index t (0 : Fin 2) * 16 + 1 * (y 0).val = (y 0).val; rw [e0]; omega
  | ⟨1, _⟩ => show win3_1.index t (1 : Fin 2) * 64 + 1 * (y 1).val = (y 1).val; rw [e1]; omega

theorem bias0_block (c : Dev nD) (t : Fin cfg3.N) : (iblk3 V c 2 t : Vec Ideal S1x64 .f32) = bias0 V c := by
  obtain ⟨-, -, ⟨e0, e1⟩, -⟩ := index_maps t
  funext y
  show V c main_v54 (((cfg3.win 2).blk t).view.emb y) = V c main_v54 y
  refine congrArg (V c main_v54) (funext fun a => Fin.ext ?_)
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega

theorem weight1_block (c : Dev nD) (t : Fin cfg3.N) : (iblk3 V c 3 t : Vec Ideal S64x64 .f32) = weight1 V c := by
  obtain ⟨-, -, -, ⟨e0, e1⟩, -⟩ := index_maps t
  funext y
  show V c main_arg13 (((cfg3.win 3).blk t).view.emb y) = V c main_arg13 y
  refine congrArg (V c main_arg13) (funext fun a => Fin.ext ?_)
  match a with
  | ⟨0, _⟩ => show win3_3.index t (0 : Fin 2) * 64 + 1 * (y 0).val = (y 0).val; rw [e0]; omega
  | ⟨1, _⟩ => show win3_3.index t (1 : Fin 2) * 64 + 1 * (y 1).val = (y 1).val; rw [e1]; omega

theorem bias1_block (c : Dev nD) (t : Fin cfg3.N) : (iblk3 V c 4 t : Vec Ideal S1x64 .f32) = bias1 V c := by
  obtain ⟨-, -, -, -, ⟨e0, e1⟩, -⟩ := index_maps t
  funext y
  show V c main_v55 (((cfg3.win 4).blk t).view.emb y) = V c main_v55 y
  refine congrArg (V c main_v55) (funext fun a => Fin.ext ?_)
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

theorem weight2_block (c : Dev nD) (t : Fin cfg3.N) : (iblk3 V c 5 t : Vec Ideal S64x64 .f32) = weight2 V c := by
  obtain ⟨-, -, -, -, -, ⟨e0, e1⟩, -⟩ := index_maps t
  funext y
  show V c main_arg15 (((cfg3.win 5).blk t).view.emb y) = V c main_arg15 y
  refine congrArg (V c main_arg15) (funext fun a => Fin.ext ?_)
  match a with
  | ⟨0, _⟩ => show win3_5.index t (0 : Fin 2) * 64 + 1 * (y 0).val = (y 0).val; rw [e0]; omega
  | ⟨1, _⟩ => show win3_5.index t (1 : Fin 2) * 64 + 1 * (y 1).val = (y 1).val; rw [e1]; omega

theorem bias2_block (c : Dev nD) (t : Fin cfg3.N) : (iblk3 V c 6 t : Vec Ideal S1x64 .f32) = bias2 V c := by
  obtain ⟨-, -, -, -, -, -, ⟨e0, e1⟩, -⟩ := index_maps t
  funext y
  show V c main_v56 (((cfg3.win 6).blk t).view.emb y) = V c main_v56 y
  refine congrArg (V c main_v56) (funext fun a => Fin.ext ?_)
  match a with
  | ⟨0, _⟩ => show win3_6.index t (0 : Fin 2) * 1 + 1 * (y 0).val = (y 0).val; rw [e0]; omega
  | ⟨1, _⟩ => show win3_6.index t (1 : Fin 2) * 64 + 1 * (y 1).val = (y 1).val; rw [e1]; omega

theorem weight3_block (c : Dev nD) (t : Fin cfg3.N) : (iblk3 V c 7 t : Vec Ideal S64x4 .f32) = weight3 V c := by
  obtain ⟨-, -, -, -, -, -, -, ⟨e0, e1⟩, -⟩ := index_maps t
  funext y
  show V c main_arg17 (((cfg3.win 7).blk t).view.emb y) = V c main_arg17 y
  refine congrArg (V c main_arg17) (funext fun a => Fin.ext ?_)
  match a with
  | ⟨0, _⟩ => show win3_7.index t (0 : Fin 2) * 64 + 1 * (y 0).val = (y 0).val; rw [e0]; omega
  | ⟨1, _⟩ => show win3_7.index t (1 : Fin 2) * 4 + 1 * (y 1).val = (y 1).val; rw [e1]; omega

theorem bias3_block (c : Dev nD) (t : Fin cfg3.N) : (iblk3 V c 8 t : Vec Ideal S1x4 .f32) = bias3 V c := by
  obtain ⟨-, -, -, -, -, -, -, -, ⟨e0, e1⟩, -⟩ := index_maps t
  funext y
  show V c main_v57 (((cfg3.win 8).blk t).view.emb y) = V c main_v57 y
  refine congrArg (V c main_v57) (funext fun a => Fin.ext ?_)
  match a with
  | ⟨0, _⟩ => show win3_8.index t (0 : Fin 2) * 1 + 1 * (y 0).val = (y 0).val; rw [e0]; omega
  | ⟨1, _⟩ => show win3_8.index t (1 : Fin 2) * 4 + 1 * (y 1).val = (y 1).val; rw [e1]; omega

/-! ## What one grid point writes back -/

/-- The head of the whole node table: the function the result array is claimed to hold. -/
abbrev headOfTable (c : Dev nD) : FVec Ideal ⟨2, ![100000, 4]⟩ .f32 :=
  Cert.Spec.mlpS (n := 100000) (nodes V c) (weight0 V c) (bias0 V c) (weight1 V c) (bias1 V c) (weight2 V c) (bias2 V c)
    (weight3 V c) (bias3 V c)

/-- The body's arithmetic on the blocks of point t, at row r, is the head of the table at row 5000 t + r: the head
    is row-local, the block's rows are the table's, and the weights and biases are whole. -/
theorem body_rows (c : Dev nD) (t : Fin cfg3.N) (r : Fin 5000) (j : Fin 4) :
    k3_pay1 (k3_pay2 (iblk3 V c 0 t) (iblk3 V c 1 t) (iblk3 V c 2 t) (iblk3 V c 3 t) (iblk3 V c 4 t) (iblk3 V c 5 t)
        (iblk3 V c 6 t)) (iblk3 V c 7 t) (iblk3 V c 8 t) (ix2 r j)
      = headOfTable V c (ix2 (tableRow t r) j) := by
  refine (congrFun (body_value (iblk3 V c 0 t) (iblk3 V c 1 t) (iblk3 V c 2 t) (iblk3 V c 3 t) (iblk3 V c 4 t)
    (iblk3 V c 5 t) (iblk3 V c 6 t) (iblk3 V c 7 t) (iblk3 V c 8 t)) (ix2 r j)).trans ?_
  rw [weight0_block V c t, bias0_block V c t, weight1_block V c t, bias1_block V c t, weight2_block V c t,
    bias2_block V c t, weight3_block V c t, bias3_block V c t]
  exact Cert.Spec.mlpS_rows (iblk3 V c 0 t) (nodes V c) (tableRow t) (nodes_block V c t) (weight0 V c) (bias0 V c)
    (weight1 V c) (bias1 V c) (weight2 V c) (bias2 V c) (weight3 V c) (bias3 V c) r j

/-- WHAT POINT t WRITES BACK is block t of the head of the table: the body's one store fills the staging block with its
    arithmetic on the loaded blocks, and row r of the block is written to row 5000 t + r of the result. -/
theorem flushed_block (c : Dev nD) (t : Fin cfg3.N) :
    (dat3 (F := Ideal) V c).flushed 9 t = ((cfg3.win 9).blk t).view.read (Elt Ideal) (headOfTable V c) := by
  show (cfg3.win 9).cut (grid3.coords t) ((dat3 V c).after 9 t) = _
  rw [after3_9]
  unfold out3_9
  rw [View.canon_unit_zero offsets_zero]
  simp only [View.ld_unit_zero (S := S5000x16) offsets_zero, View.ld_unit_zero (S := S16x64) offsets_zero,
    View.ld_unit_zero (S := S1x64) offsets_zero, View.ld_unit_zero (S := S64x64) offsets_zero,
    View.ld_unit_zero (S := S64x4) offsets_zero, View.ld_unit_zero (S := S1x4) offsets_zero]
  refine funext fun (y : S5000x4.Idx) => ?_
  obtain ⟨r, j, rfl⟩ : ∃ (r : Fin 5000) (j : Fin 4), y = ix2 r j := ⟨y 0, y 1, eq_ix2 y⟩
  obtain ⟨-, -, -, -, -, -, -, -, -, ⟨e0, e1⟩⟩ := index_maps t
  show k3_pay1 (k3_pay2 (iblk3 V c 0 t) (iblk3 V c 1 t) (iblk3 V c 2 t) (iblk3 V c 3 t) (iblk3 V c 4 t) (iblk3 V c 5 t)
        (iblk3 V c 6 t)) (iblk3 V c 7 t) (iblk3 V c 8 t) (ix2 r j)
      = headOfTable V c (((cfg3.win 9).blk t).view.emb (ix2 r j))
  refine (body_rows V c t r j).trans (congrArg (headOfTable V c) (funext fun a => Fin.ext ?_))
  match a with
  | ⟨0, _⟩ => show 5000 * t.val + r.val = win3_9.index t (0 : Fin 2) * 5000 + 1 * r.val; rw [e0]; omega
  | ⟨1, _⟩ => show j.val = win3_9.index t (1 : Fin 2) * 4 + 1 * j.val; rw [e1]; omega

/-! ## The twenty blocks tile the result array -/

/-- An index of the result array is in point t's block iff each coordinate is in the block's range on its axis. -/
theorem mem_block (t : Fin cfg3.N) (i : S100000x4.Idx) :
    i ∈ ((cfg3.win 9).blk t).view.set ↔ ∀ a : Fin 2, win3_9.index t a * S5000x4.size a ≤ (i a).val ∧ (i a).val < win3_9.index t a * S5000x4.size a + S5000x4.size a := by
  show i ∈ ((View.whole main_v58).slice (win3_9.rect t)).set ↔ _
  rw [View.set_slice_whole, Rect.mem_set_unit]
  exact Iff.rfl

/-- Row i of the result array lies in the block of the point i / 5000. -/
theorem covered (i : S100000x4.Idx) :
    ∃ t : Fin cfg3.N, (cfg3.win 9).flush t = true ∧ i ∈ ((cfg3.win 9).blk t).view.set := by
  have hi0 : (i 0).val < 100000 := (i 0).isLt
  have hi1 : (i 1).val < 4 := (i 1).isLt
  let t : Fin cfg3.N := ⟨(i 0).val / 5000, by show (i 0).val / 5000 < 20; omega⟩
  obtain ⟨-, -, -, -, -, -, -, -, -, ⟨e0, e1⟩⟩ := index_maps t
  have ht : t.val = (i 0).val / 5000 := rfl
  refine ⟨t, flush3_9 t, ?_⟩
  rw [mem_block]
  intro a
  match a with
  | ⟨0, _⟩ => show win3_9.index t (0 : Fin 2) * 5000 ≤ (i 0).val ∧ (i 0).val < win3_9.index t (0 : Fin 2) * 5000 + 5000; rw [e0, ht]; omega
  | ⟨1, _⟩ => show win3_9.index t (1 : Fin 2) * 4 ≤ (i 1).val ∧ (i 1).val < win3_9.index t (1 : Fin 2) * 4 + 4; rw [e1]; omega

/-! ## The result array when the region ends -/

end Head

open Head in
theorem region3 (c : Dev nD) :
    (dat3 (F := Ideal) V c).arrAt 9 cfg3.N
      = Cert.Spec.mlpS (n := 100000) (V c main_v53) (V c main_arg11) (V c main_v54) (V c main_arg13) (V c main_v55)
          (V c main_arg15) (V c main_v56) (V c main_arg17) (V c main_v57) :=
  (dat3 (F := Ideal) V c).arrAt_eq_of_cover 9 (headOfTable V c) (fun t _ => flushed_block V c t) covered

end Cert.KernelIdeal.RegionValue

end
-- ==== Proof.KValue.lean ====
/-
  The idealized kernel program's result array, read back through the run.

  The program's run passes eight boundaries: a stretch of host operations, then a kernel region, four times over.  At
  each boundary every buffer holds a definite function of the launch memory.  Walking the result array back:
  it is written by the last region (the head) from the third layer's table and the head's weights and bias rows; the
  third layer's table is written by the third region from the neighbour mean of the second layer's table (formed by the
  host stretch before it) and that table itself; and so on down to the first host stretch, which reads the arguments.
  Three small things are carried across the regions untouched: the source list, the destination list and the
  reciprocal clamped degree, all computed by the first stretch; and each argument array stays as launched until the
  region or stretch that reads it.  The outcome: the result array is `Terms.kernelTerm` of the nineteen arguments.
-/
import proofs.«136279_j14955076125382_1_alg».proof.Proof.Gen.KernelIdeal.Frame
import proofs.«136279_j14955076125382_1_alg».proof.Proof.TermsK
import proofs.«136279_j14955076125382_1_alg».proof.Proof.KRegion0
import proofs.«136279_j14955076125382_1_alg».proof.Proof.KRegion1
import proofs.«136279_j14955076125382_1_alg».proof.Proof.KRegion2
import proofs.«136279_j14955076125382_1_alg».proof.Proof.KRegion3
import Idealize.ShloMosaic.Lib.StableHlo.Run

noncomputable section

namespace Cert.KernelIdeal.Value

open Idealize.ShloMosaic Idealize.ShloMosaic.TcCoe Idealize.SL.Sem Idealize.ShloMosaic.StableHlo
open Cert.KernelIdeal Cert.KernelIdeal.Gen Cert.KernelIdeal.Terms Cert.KernelIdeal.RegionValue

/-! ## The buffers each stretch or region leaves alone -/

/-- What the first host stretch leaves alone, of what is read later: every argument but the edge table and the first bias. -/
def keep0 : List (Ref sig .tc) := [main_arg0, main_arg2, main_arg3, main_arg5, main_arg6, main_arg7, main_arg8, main_arg9, main_arg10, main_arg11, main_arg12, main_arg13, main_arg14, main_arg15, main_arg16, main_arg17, main_arg18]
/-- What the second host stretch leaves alone, of what is read later. -/
def keep1 : List (Ref sig .tc) := [main_v25, main_v1, main_v3, main_v11, main_arg5, main_arg6, main_arg8, main_arg9, main_arg10, main_arg11, main_arg12, main_arg13, main_arg14, main_arg15, main_arg16, main_arg17, main_arg18]
/-- What the third host stretch leaves alone, of what is read later. -/
def keep2 : List (Ref sig .tc) := [main_v39, main_arg8, main_arg9, main_arg11, main_arg12, main_arg13, main_arg14, main_arg15, main_arg16, main_arg17, main_arg18]
/-- What the fourth host stretch leaves alone, of what the head reads. -/
def keep3 : List (Ref sig .tc) := [main_v53, main_arg11, main_arg13, main_arg15, main_arg17]
/-- What the first region does not touch, of what is read later. -/
def past0 : List (Ref sig .tc) := [main_v1, main_v3, main_v11, main_arg5, main_arg6, main_arg7, main_arg8, main_arg9, main_arg10, main_arg11, main_arg12, main_arg13, main_arg14, main_arg15, main_arg16, main_arg17, main_arg18]
/-- What the second region does not touch, of what is read later. -/
def past1 : List (Ref sig .tc) := [main_v1, main_v3, main_v11, main_arg8, main_arg9, main_arg10, main_arg11, main_arg12, main_arg13, main_arg14, main_arg15, main_arg16, main_arg17, main_arg18]
/-- What the third region does not touch, of what is read later. -/
def past2 : List (Ref sig .tc) := [main_arg11, main_arg12, main_arg13, main_arg14, main_arg15, main_arg16, main_arg17, main_arg18]

/-! ## The four host stretches, from any contents `V` -/

section Host

variable (V : Valuation τ sig (Elt Ideal))

set_option maxHeartbeats 1000000 in
theorem host0_v1 : after (hostOps0 (F := Ideal)) V (Proc.devRef .tc main_v1) = src (V (Proc.devRef .tc main_arg1)) := by
  after_results_simp
  rfl
set_option maxHeartbeats 1000000 in
theorem host0_v3 : after (hostOps0 (F := Ideal)) V (Proc.devRef .tc main_v3) = dst (V (Proc.devRef .tc main_arg1)) := by
  after_results_simp
  rfl
set_option maxHeartbeats 1000000 in
theorem host0_v11 : after (hostOps0 (F := Ideal)) V (Proc.devRef .tc main_v11) = invDegree (dst (V (Proc.devRef .tc main_arg1))) := by
  after_results_simp
  rfl
set_option maxHeartbeats 1000000 in
theorem host0_v23 : after (hostOps0 (F := Ideal)) V (Proc.devRef .tc main_v23) = agg32 (V (Proc.devRef .tc main_arg0)) (src (V (Proc.devRef .tc main_arg1))) (dst (V (Proc.devRef .tc main_arg1))) (invDegree (dst (V (Proc.devRef .tc main_arg1)))) := by
  after_results_simp
  rfl
set_option maxHeartbeats 1000000 in
theorem host0_v24 : after (hostOps0 (F := Ideal)) V (Proc.devRef .tc main_v24) = row16 (V (Proc.devRef .tc main_arg4)) := by
  after_results_simp
  rfl
set_option maxHeartbeats 4000000 in
theorem host0_keep : ∀ b ∈ keep0, after (hostOps0 (F := Ideal)) V (Proc.devRef .tc b) = V (Proc.devRef .tc b) := by
  intro b hb
  simp only [keep0, List.mem_cons, List.mem_nil_iff, or_false] at hb
  rcases hb with rfl | rfl | rfl | rfl | rfl | rfl | rfl | rfl | rfl | rfl | rfl | rfl | rfl | rfl | rfl | rfl | rfl
  all_goals after_results_simp

set_option maxHeartbeats 1000000 in
theorem host1_v37 : after (hostOps1 (F := Ideal)) V (Proc.devRef .tc main_v37) = agg16 (V (Proc.devRef .tc main_v25)) (V (Proc.devRef .tc main_v1)) (V (Proc.devRef .tc main_v3)) (V (Proc.devRef .tc main_v11)) := by
  after_results_simp
  rfl
set_option maxHeartbeats 1000000 in
theorem host1_v38 : after (hostOps1 (F := Ideal)) V (Proc.devRef .tc main_v38) = row16 (V (Proc.devRef .tc main_arg7)) := by
  after_results_simp
  rfl
set_option maxHeartbeats 4000000 in
theorem host1_keep : ∀ b ∈ keep1, after (hostOps1 (F := Ideal)) V (Proc.devRef .tc b) = V (Proc.devRef .tc b) := by
  intro b hb
  simp only [keep1, List.mem_cons, List.mem_nil_iff, or_false] at hb
  rcases hb with rfl | rfl | rfl | rfl | rfl | rfl | rfl | rfl | rfl | rfl | rfl | rfl | rfl | rfl | rfl | rfl | rfl
  all_goals after_results_simp

set_option maxHeartbeats 1000000 in
theorem host2_v51 : after (hostOps2 (F := Ideal)) V (Proc.devRef .tc main_v51) = agg16 (V (Proc.devRef .tc main_v39)) (V (Proc.devRef .tc main_v1)) (V (Proc.devRef .tc main_v3)) (V (Proc.devRef .tc main_v11)) := by
  after_results_simp
  rfl
set_option maxHeartbeats 1000000 in
theorem host2_v52 : after (hostOps2 (F := Ideal)) V (Proc.devRef .tc main_v52) = row16 (V (Proc.devRef .tc main_arg10)) := by
  after_results_simp
  rfl
set_option maxHeartbeats 4000000 in
theorem host2_keep : ∀ b ∈ keep2, after (hostOps2 (F := Ideal)) V (Proc.devRef .tc b) = V (Proc.devRef .tc b) := by
  intro b hb
  simp only [keep2, List.mem_cons, List.mem_nil_iff, or_false] at hb
  rcases hb with rfl | rfl | rfl | rfl | rfl | rfl | rfl | rfl | rfl | rfl | rfl
  all_goals after_results_simp

set_option maxHeartbeats 1000000 in
theorem host3_v54 : after (hostOps3 (F := Ideal)) V (Proc.devRef .tc main_v54) = row64 (V (Proc.devRef .tc main_arg12)) := by
  after_results_simp
  rfl
set_option maxHeartbeats 1000000 in
theorem host3_v55 : after (hostOps3 (F := Ideal)) V (Proc.devRef .tc main_v55) = row64 (V (Proc.devRef .tc main_arg14)) := by
  after_results_simp
  rfl
set_option maxHeartbeats 1000000 in
theorem host3_v56 : after (hostOps3 (F := Ideal)) V (Proc.devRef .tc main_v56) = row64 (V (Proc.devRef .tc main_arg16)) := by
  after_results_simp
  rfl
set_option maxHeartbeats 1000000 in
theorem host3_v57 : after (hostOps3 (F := Ideal)) V (Proc.devRef .tc main_v57) = row4 (V (Proc.devRef .tc main_arg18)) := by
  after_results_simp
  rfl
set_option maxHeartbeats 4000000 in
theorem host3_keep : ∀ b ∈ keep3, after (hostOps3 (F := Ideal)) V (Proc.devRef .tc b) = V (Proc.devRef .tc b) := by
  intro b hb
  simp only [keep3, List.mem_cons, List.mem_nil_iff, or_false] at hb
  rcases hb with rfl | rfl | rfl | rfl | rfl
  all_goals after_results_simp

end Host

/-! ## The boundaries, from the launch memory `m` -/

section Run

variable (m : (ℓ : Loc nD τ sig) → Buf (Elt Ideal) ℓ) (ρ : Dev nD → PrngReg) (c : Dev nD)

theorem W2_keep : ∀ b ∈ past0, W2 m ρ c (Proc.devRef .tc b) = W1 m ρ c (Proc.devRef .tc b) := by
  intro b hb
  simp only [past0, List.mem_cons, List.mem_nil_iff, or_false] at hb
  rcases hb with rfl | rfl | rfl | rfl | rfl | rfl | rfl | rfl | rfl | rfl | rfl | rfl | rfl | rfl | rfl | rfl | rfl
  all_goals exact W2_of_ne m ρ c _ (by decide)
theorem W4_keep : ∀ b ∈ past1, W4 m ρ c (Proc.devRef .tc b) = W3 m ρ c (Proc.devRef .tc b) := by
  intro b hb
  simp only [past1, List.mem_cons, List.mem_nil_iff, or_false] at hb
  rcases hb with rfl | rfl | rfl | rfl | rfl | rfl | rfl | rfl | rfl | rfl | rfl | rfl | rfl | rfl
  all_goals exact W4_of_ne m ρ c _ (by decide)
theorem W6_keep : ∀ b ∈ past2, W6 m ρ c (Proc.devRef .tc b) = W5 m ρ c (Proc.devRef .tc b) := by
  intro b hb
  simp only [past2, List.mem_cons, List.mem_nil_iff, or_false] at hb
  rcases hb with rfl | rfl | rfl | rfl | rfl | rfl | rfl | rfl
  all_goals exact W6_of_ne m ρ c _ (by decide)

/-- An argument array as launched. -/
abbrev arg (b : Ref sig .tc) : Buf (Elt Ideal) ((c : Thread nD τ).loc b) := m ((c : Thread nD τ).loc b)

/-- The source list, the destination list and the reciprocal clamped degree, of the launched edge table. -/
abbrev S : EdgeVec := src (arg m c main_arg1)
abbrev D : EdgeVec := dst (arg m c main_arg1)
abbrev I : FVec Ideal S100000x1 .f32 := invDegree (D m c)

/-- The three layers' tables. -/
def h1 : FVec Ideal S100000x16 .f32 :=
  Cert.Spec.sageS (agg32 (arg m c main_arg0) (S m c) (D m c) (I m c)) (arg m c main_arg0) (arg m c main_arg2) (arg m c main_arg3) (row16 (arg m c main_arg4))
def h2 : FVec Ideal S100000x16 .f32 :=
  Cert.Spec.sageS (agg16 (h1 m c) (S m c) (D m c) (I m c)) (h1 m c) (arg m c main_arg5) (arg m c main_arg6) (row16 (arg m c main_arg7))
def h3 : FVec Ideal S100000x16 .f32 :=
  Cert.Spec.sageS (agg16 (h2 m c) (S m c) (D m c) (I m c)) (h2 m c) (arg m c main_arg8) (arg m c main_arg9) (row16 (arg m c main_arg10))

/-! ### After the first stretch -/

theorem W1_keep : ∀ b ∈ keep0, W1 m ρ c (Proc.devRef .tc b) = arg m c b := fun b hb => host0_keep (W0 m ρ c) b hb
theorem W1_v1 : W1 m ρ c (Proc.devRef .tc main_v1) = S m c := host0_v1 (W0 m ρ c)
theorem W1_v3 : W1 m ρ c (Proc.devRef .tc main_v3) = D m c := host0_v3 (W0 m ρ c)
theorem W1_v11 : W1 m ρ c (Proc.devRef .tc main_v11) = I m c := host0_v11 (W0 m ρ c)
theorem W1_v23 : W1 m ρ c (Proc.devRef .tc main_v23) = agg32 (arg m c main_arg0) (S m c) (D m c) (I m c) := host0_v23 (W0 m ρ c)
theorem W1_v24 : W1 m ρ c (Proc.devRef .tc main_v24) = row16 (arg m c main_arg4) := host0_v24 (W0 m ρ c)

/-! ### After the first region -/

theorem W2_v25 : W2 m ρ c (Proc.devRef .tc main_v25) = h1 m c := by
  refine (W2_arr m ρ c 5).trans ((region0 (V1 m ρ) c).trans ?_)
  show Cert.Spec.sageS (W1 m ρ c (Proc.devRef .tc main_v23)) (W1 m ρ c (Proc.devRef .tc main_arg0)) (W1 m ρ c (Proc.devRef .tc main_arg2))
      (W1 m ρ c (Proc.devRef .tc main_arg3)) (W1 m ρ c (Proc.devRef .tc main_v24)) = _
  rw [W1_v23, W1_v24, W1_keep m ρ c main_arg0 (by decide), W1_keep m ρ c main_arg2 (by decide), W1_keep m ρ c main_arg3 (by decide)]
  rfl

theorem W2_past (b : Ref sig .tc) (hb : b ∈ past0) (hk : b ∈ keep0) : W2 m ρ c (Proc.devRef .tc b) = arg m c b :=
  (W2_keep m ρ c b hb).trans (W1_keep m ρ c b hk)
theorem W2_v1 : W2 m ρ c (Proc.devRef .tc main_v1) = S m c := (W2_keep m ρ c main_v1 (by decide)).trans (W1_v1 m ρ c)
theorem W2_v3 : W2 m ρ c (Proc.devRef .tc main_v3) = D m c := (W2_keep m ρ c main_v3 (by decide)).trans (W1_v3 m ρ c)
theorem W2_v11 : W2 m ρ c (Proc.devRef .tc main_v11) = I m c := (W2_keep m ρ c main_v11 (by decide)).trans (W1_v11 m ρ c)

/-! ### After the second stretch -/

theorem W3_keep (b : Ref sig .tc) (hb : b ∈ keep1) : W3 m ρ c (Proc.devRef .tc b) = W2 m ρ c (Proc.devRef .tc b) :=
  host1_keep (W2 m ρ c) b hb
theorem W3_arg (b : Ref sig .tc) (h1' : b ∈ keep1) (h2' : b ∈ past0) (h3' : b ∈ keep0) : W3 m ρ c (Proc.devRef .tc b) = arg m c b :=
  (W3_keep m ρ c b h1').trans (W2_past m ρ c b h2' h3')
theorem W3_v1 : W3 m ρ c (Proc.devRef .tc main_v1) = S m c := (W3_keep m ρ c main_v1 (by decide)).trans (W2_v1 m ρ c)
theorem W3_v3 : W3 m ρ c (Proc.devRef .tc main_v3) = D m c := (W3_keep m ρ c main_v3 (by decide)).trans (W2_v3 m ρ c)
theorem W3_v11 : W3 m ρ c (Proc.devRef .tc main_v11) = I m c := (W3_keep m ρ c main_v11 (by decide)).trans (W2_v11 m ρ c)
theorem W3_v25 : W3 m ρ c (Proc.devRef .tc main_v25) = h1 m c := (W3_keep m ρ c main_v25 (by decide)).trans (W2_v25 m ρ c)
theorem W3_v37 : W3 m ρ c (Proc.devRef .tc main_v37) = agg16 (h1 m c) (S m c) (D m c) (I m c) := by
  refine (host1_v37 (W2 m ρ c)).trans ?_
  rw [W2_v25, W2_v1, W2_v3, W2_v11]
theorem W3_v38 : W3 m ρ c (Proc.devRef .tc main_v38) = row16 (arg m c main_arg7) := by
  refine (host1_v38 (W2 m ρ c)).trans ?_
  rw [W2_past m ρ c main_arg7 (by decide) (by decide)]

/-! ### After the second region -/

theorem W4_v39 : W4 m ρ c (Proc.devRef .tc main_v39) = h2 m c := by
  refine (W4_arr m ρ c 5).trans ((region1 (V3 m ρ) c).trans ?_)
  show Cert.Spec.sageS (W3 m ρ c (Proc.devRef .tc main_v37)) (W3 m ρ c (Proc.devRef .tc main_v25)) (W3 m ρ c (Proc.devRef .tc main_arg5))
      (W3 m ρ c (Proc.devRef .tc main_arg6)) (W3 m ρ c (Proc.devRef .tc main_v38)) = _
  rw [W3_v37, W3_v25, W3_v38, W3_arg m ρ c main_arg5 (by decide) (by decide) (by decide), W3_arg m ρ c main_arg6 (by decide) (by decide) (by decide)]
  rfl

theorem W4_arg (b : Ref sig .tc) (h0' : b ∈ past1) (h1' : b ∈ keep1) (h2' : b ∈ past0) (h3' : b ∈ keep0) :
    W4 m ρ c (Proc.devRef .tc b) = arg m c b := (W4_keep m ρ c b h0').trans (W3_arg m ρ c b h1' h2' h3')
theorem W4_v1 : W4 m ρ c (Proc.devRef .tc main_v1) = S m c := (W4_keep m ρ c main_v1 (by decide)).trans (W3_v1 m ρ c)
theorem W4_v3 : W4 m ρ c (Proc.devRef .tc main_v3) = D m c := (W4_keep m ρ c main_v3 (by decide)).trans (W3_v3 m ρ c)
theorem W4_v11 : W4 m ρ c (Proc.devRef .tc main_v11) = I m c := (W4_keep m ρ c main_v11 (by decide)).trans (W3_v11 m ρ c)

/-! ### After the third stretch -/

theorem W5_keep (b : Ref sig .tc) (hb : b ∈ keep2) : W5 m ρ c (Proc.devRef .tc b) = W4 m ρ c (Proc.devRef .tc b) :=
  host2_keep (W4 m ρ c) b hb
theorem W5_arg (b : Ref sig .tc) (hk : b ∈ keep2) (h0' : b ∈ past1) (h1' : b ∈ keep1) (h2' : b ∈ past0) (h3' : b ∈ keep0) :
    W5 m ρ c (Proc.devRef .tc b) = arg m c b := (W5_keep m ρ c b hk).trans (W4_arg m ρ c b h0' h1' h2' h3')
theorem W5_v39 : W5 m ρ c (Proc.devRef .tc main_v39) = h2 m c := (W5_keep m ρ c main_v39 (by decide)).trans (W4_v39 m ρ c)
theorem W5_v51 : W5 m ρ c (Proc.devRef .tc main_v51) = agg16 (h2 m c) (S m c) (D m c) (I m c) := by
  refine (host2_v51 (W4 m ρ c)).trans ?_
  rw [W4_v39, W4_v1, W4_v3, W4_v11]
theorem W5_v52 : W5 m ρ c (Proc.devRef .tc main_v52) = row16 (arg m c main_arg10) := by
  refine (host2_v52 (W4 m ρ c)).trans ?_
  rw [W4_arg m ρ c main_arg10 (by decide) (by decide) (by decide) (by decide)]

/-! ### After the third region -/

theorem W6_v53 : W6 m ρ c (Proc.devRef .tc main_v53) = h3 m c := by
  refine (W6_arr m ρ c 5).trans ((region2 (V5 m ρ) c).trans ?_)
  show Cert.Spec.sageS (W5 m ρ c (Proc.devRef .tc main_v51)) (W5 m ρ c (Proc.devRef .tc main_v39)) (W5 m ρ c (Proc.devRef .tc main_arg8))
      (W5 m ρ c (Proc.devRef .tc main_arg9)) (W5 m ρ c (Proc.devRef .tc main_v52)) = _
  rw [W5_v51, W5_v39, W5_v52, W5_arg m ρ c main_arg8 (by decide) (by decide) (by decide) (by decide) (by decide),
    W5_arg m ρ c main_arg9 (by decide) (by decide) (by decide) (by decide) (by decide)]
  rfl

theorem W6_arg (b : Ref sig .tc) (hp : b ∈ past2) (hk : b ∈ keep2) (h0' : b ∈ past1) (h1' : b ∈ keep1) (h2' : b ∈ past0) (h3' : b ∈ keep0) :
    W6 m ρ c (Proc.devRef .tc b) = arg m c b := (W6_keep m ρ c b hp).trans (W5_arg m ρ c b hk h0' h1' h2' h3')

/-! ### After the fourth stretch -/

theorem W7_keep (b : Ref sig .tc) (hb : b ∈ keep3) : W7 m ρ c (Proc.devRef .tc b) = W6 m ρ c (Proc.devRef .tc b) :=
  host3_keep (W6 m ρ c) b hb
theorem W7_v53 : W7 m ρ c (Proc.devRef .tc main_v53) = h3 m c := (W7_keep m ρ c main_v53 (by decide)).trans (W6_v53 m ρ c)
theorem W7_arg (b : Ref sig .tc) (h7 : b ∈ keep3) (hp : b ∈ past2) (hk : b ∈ keep2) (h0' : b ∈ past1) (h1' : b ∈ keep1) (h2' : b ∈ past0)
    (h3' : b ∈ keep0) : W7 m ρ c (Proc.devRef .tc b) = arg m c b := (W7_keep m ρ c b h7).trans (W6_arg m ρ c b hp hk h0' h1' h2' h3')
theorem W7_v54 : W7 m ρ c (Proc.devRef .tc main_v54) = row64 (arg m c main_arg12) := by
  refine (host3_v54 (W6 m ρ c)).trans ?_
  rw [W6_arg m ρ c main_arg12 (by decide) (by decide) (by decide) (by decide) (by decide) (by decide)]
theorem W7_v55 : W7 m ρ c (Proc.devRef .tc main_v55) = row64 (arg m c main_arg14) := by
  refine (host3_v55 (W6 m ρ c)).trans ?_
  rw [W6_arg m ρ c main_arg14 (by decide) (by decide) (by decide) (by decide) (by decide) (by decide)]
theorem W7_v56 : W7 m ρ c (Proc.devRef .tc main_v56) = row64 (arg m c main_arg16) := by
  refine (host3_v56 (W6 m ρ c)).trans ?_
  rw [W6_arg m ρ c main_arg16 (by decide) (by decide) (by decide) (by decide) (by decide) (by decide)]
theorem W7_v57 : W7 m ρ c (Proc.devRef .tc main_v57) = row4 (arg m c main_arg18) := by
  refine (host3_v57 (W6 m ρ c)).trans ?_
  rw [W6_arg m ρ c main_arg18 (by decide) (by decide) (by decide) (by decide) (by decide) (by decide)]

/-! ### After the head: the result -/

/-- The result array after the run is the program's term of the arguments as launched. -/
theorem W8_v58 : W8 m ρ c (Proc.devRef .tc main_v58)
    = kernelTerm (arg m c main_arg0) (arg m c main_arg1) (arg m c main_arg2) (arg m c main_arg3) (arg m c main_arg4)
        (arg m c main_arg5) (arg m c main_arg6) (arg m c main_arg7) (arg m c main_arg8) (arg m c main_arg9) (arg m c main_arg10)
        (arg m c main_arg11) (arg m c main_arg12) (arg m c main_arg13) (arg m c main_arg14) (arg m c main_arg15) (arg m c main_arg16)
        (arg m c main_arg17) (arg m c main_arg18) := by
  refine (W8_arr m ρ c 9).trans ((region3 (V7 m ρ) c).trans ?_)
  show Cert.Spec.mlpS (W7 m ρ c (Proc.devRef .tc main_v53)) (W7 m ρ c (Proc.devRef .tc main_arg11)) (W7 m ρ c (Proc.devRef .tc main_v54))
      (W7 m ρ c (Proc.devRef .tc main_arg13)) (W7 m ρ c (Proc.devRef .tc main_v55)) (W7 m ρ c (Proc.devRef .tc main_arg15))
      (W7 m ρ c (Proc.devRef .tc main_v56)) (W7 m ρ c (Proc.devRef .tc main_arg17)) (W7 m ρ c (Proc.devRef .tc main_v57)) = _
  rw [W7_v53, W7_v54, W7_v55, W7_v56, W7_v57,
    W7_arg m ρ c main_arg11 (by decide) (by decide) (by decide) (by decide) (by decide) (by decide) (by decide),
    W7_arg m ρ c main_arg13 (by decide) (by decide) (by decide) (by decide) (by decide) (by decide) (by decide),
    W7_arg m ρ c main_arg15 (by decide) (by decide) (by decide) (by decide) (by decide) (by decide) (by decide),
    W7_arg m ρ c main_arg17 (by decide) (by decide) (by decide) (by decide) (by decide) (by decide) (by decide)]
  rfl

end Run

end Cert.KernelIdeal.Value

end
-- ==== Proof.KFinal.lean ====
/-
  The idealized kernel program's run with its result named: every weakly fair execution terminates, nothing
  faulting, the result array holding the program's term of the arguments as launched, the arguments unchanged.
  The run ends with the result array at the last boundary's contents; the walk back through the boundaries says what
  those contents are.
-/
import proofs.«136279_j14955076125382_1_alg».proof.Proof.KRun
import proofs.«136279_j14955076125382_1_alg».proof.Proof.KValue

noncomputable section

namespace Cert.KernelIdeal.Final

open Idealize.ShloMosaic Idealize.ShloMosaic.TcCoe Idealize.SL.Sem
open Cert.KernelIdeal Cert.KernelIdeal.Terms

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v58)
        = kernelTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (defs (F := Ideal)) _ _).mono (fun _ h c => ⟨(h c).1.trans (Cert.KernelIdeal.Value.W8_v58 m ρ c), (h c).2⟩)
    (Cert.KernelIdeal.RunValue.run_value (F := Ideal) m ρ)

end Cert.KernelIdeal.Final

end
-- ==== Proof.RefOps.lean ====
/-
  The idealized reference program's operations in the order it runs them, every call replaced by its callee's
  operations over that call's own buffers (a call means its body on the operands), 200 in all. The program is
  three graph layers and a head; the list is cut where a layer's result is complete, so that each piece reads
  only the arguments and the results of the pieces before it.
-/
import proofs.«136279_j14955076125382_1_alg».proof.Proof.Gen.ReferenceIdeal
import Idealize.ShloMosaic.Lib.StableHlo.Run

noncomputable section

namespace Cert.ReferenceIdeal.Run

open Idealize.ShloMosaic Idealize.ShloMosaic.TcCoe Idealize.SL.Sem Idealize.ShloMosaic.StableHlo
open Cert.ReferenceIdeal Cert.ReferenceIdeal.Gen

variable {F : FTy → Type} [FloatOps F]

/-- Layer 0 (the values %0 … %28). The edge table's two rows read out as the source and destination lists; a negative
    source wrapped by the node count; the input rows gathered at the sources and summed into their destinations; the
    destinations counted, the count clamped below by one; the sum divided by it; that mean and the input each through
    a weight, the bias row added; then the unit on the result, its fifteen operations in line: zero, the test v > 0
    twice, select(v > 0, 0, v), its expm1, the product with one, and select(v > 0, v, that). (49 operations.) -/
abbrev opsL0 : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.binary main_v1 main_v4 main_v5 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v6 (broadcastInDim S3200000 ![] bcast_S_S3200000 : (⟨S_, .i32⟩ : BufTy).Contents (Elt F) → (⟨S3200000, .i32⟩ : BufTy).Contents (Elt F)),
    StableHlo.binary main_v1 main_v6 main_v7 (addi : (⟨S3200000, .i32⟩ : BufTy).Contents (Elt F) → (⟨S3200000, .i32⟩ : BufTy).Contents (Elt F) → (⟨S3200000, .i32⟩ : BufTy).Contents (Elt F)),
    StableHlo.ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v8 main_v9 (broadcastInDim S3200000x1 ![0] bcast_S3200000_S3200000x1_0 : (⟨S3200000, .i32⟩ : BufTy).Contents (Elt F) → (⟨S3200000x1, .i32⟩ : BufTy).Contents (Elt F)),
    StableHlo.binary main_arg0 main_v9 main_v10 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst (constant S_ .f32 0x00000000#32),
    StableHlo.unary main_cst main_v11 (broadcastInDim S100000x32 ![] bcast_S_S100000x32 : (⟨S_, .f32⟩ : BufTy).Contents (Elt F) → (⟨S100000x32, .f32⟩ : BufTy).Contents (Elt F)),
    StableHlo.unary main_v3 main_v12 (broadcastInDim S3200000x1 ![0] bcast_S3200000_S3200000x1_0 : (⟨S3200000, .i32⟩ : BufTy).Contents (Elt F) → (⟨S3200000x1, .i32⟩ : BufTy).Contents (Elt F)),
    StableHlo.ternary main_v11 main_v12 main_v10 main_v13 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_1 (constant S_ .f32 0x3F800000#32),
    StableHlo.unary main_cst_1 main_v14 (broadcastInDim S3200000x1 ![] bcast_S_S3200000x1 : (⟨S_, .f32⟩ : BufTy).Contents (Elt F) → (⟨S3200000x1, .f32⟩ : BufTy).Contents (Elt F)),
    StableHlo.nullary main_cst_2 (constant S_ .f32 0x00000000#32),
    StableHlo.unary main_cst_2 main_v15 (broadcastInDim S100000x1 ![] bcast_S_S100000x1 : (⟨S_, .f32⟩ : BufTy).Contents (Elt F) → (⟨S100000x1, .f32⟩ : BufTy).Contents (Elt F)),
    StableHlo.unary main_v3 main_v16 (broadcastInDim S3200000x1 ![0] bcast_S3200000_S3200000x1_0 : (⟨S3200000, .i32⟩ : BufTy).Contents (Elt F) → (⟨S3200000x1, .i32⟩ : BufTy).Contents (Elt F)),
    StableHlo.ternary main_v15 main_v16 main_v14 main_v17 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    StableHlo.nullary main_cst_3 (constant S_ .f32 0x3F800000#32),
    StableHlo.unary main_cst_3 main_v18 (broadcastInDim S100000x1 ![] bcast_S_S100000x1 : (⟨S_, .f32⟩ : BufTy).Contents (Elt F) → (⟨S100000x1, .f32⟩ : BufTy).Contents (Elt F)),
    StableHlo.binary main_v17 main_v18 main_v19 (maximumf : (⟨S100000x1, .f32⟩ : BufTy).Contents (Elt F) → (⟨S100000x1, .f32⟩ : BufTy).Contents (Elt F) → (⟨S100000x1, .f32⟩ : BufTy).Contents (Elt F)),
    StableHlo.unary main_v19 main_v20 (broadcastInDim S100000x32 ![0, 1] bcast_S100000x1_S100000x32_0_1 : (⟨S100000x1, .f32⟩ : BufTy).Contents (Elt F) → (⟨S100000x32, .f32⟩ : BufTy).Contents (Elt F)),
    StableHlo.binary main_v13 main_v20 main_v21 (Host.divf : (⟨S100000x32, .f32⟩ : BufTy).Contents (Elt F) → (⟨S100000x32, .f32⟩ : BufTy).Contents (Elt F) → (⟨S100000x32, .f32⟩ : BufTy).Contents (Elt F)),
    StableHlo.binary main_v21 main_arg2 main_v22 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg4 main_v23 (broadcastInDim S1x16 ![1] bcast_S16_S1x16_1 : (⟨S16, .f32⟩ : BufTy).Contents (Elt F) → (⟨S1x16, .f32⟩ : BufTy).Contents (Elt F)),
    StableHlo.unary main_v23 main_v24 (broadcastInDim S100000x16 ![0, 1] bcast_S1x16_S100000x16_0_1 : (⟨S1x16, .f32⟩ : BufTy).Contents (Elt F) → (⟨S100000x16, .f32⟩ : BufTy).Contents (Elt F)),
    StableHlo.binary main_v22 main_v24 main_v25 (addf : (⟨S100000x16, .f32⟩ : BufTy).Contents (Elt F) → (⟨S100000x16, .f32⟩ : BufTy).Contents (Elt F) → (⟨S100000x16, .f32⟩ : BufTy).Contents (Elt F)),
    StableHlo.binary main_arg0 main_arg3 main_v26 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.binary main_v25 main_v26 main_v27 (addf : (⟨S100000x16, .f32⟩ : BufTy).Contents (Elt F) → (⟨S100000x16, .f32⟩ : BufTy).Contents (Elt F) → (⟨S100000x16, .f32⟩ : BufTy).Contents (Elt F)),
    StableHlo.TRef.nullary main_call0.cst (constant S_ .f32 0x00000000#32),
    StableHlo.TRef.unary main_call0.cst main_call0.v0 (broadcastInDim S100000x16 ![] bcast_S_S100000x16),
    StableHlo.TRef.binary (.of main_v27) main_call0.v0 main_call0.v1 (cmpf .ogt),
    StableHlo.TRef.nullary main_call0.cst_0 (constant S_ .f32 0x00000000#32),
    StableHlo.TRef.unary main_call0.cst_0 main_call0.v2 (broadcastInDim S100000x16 ![] bcast_S_S100000x16),
    StableHlo.TRef.binary (.of main_v27) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x16 ![] bcast_S_S100000x16),
    StableHlo.TRef.ternary main_call0.v3 main_call0.call0.v1 (.of main_v27) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x16 ![] bcast_S_S100000x16),
    StableHlo.TRef.binary main_call0.v6 main_call0.v5 main_call0.v7 mulf,
    StableHlo.TRef.ternary main_call0.v1 (.of main_v27) main_call0.v7 main_call0.call1.v0 select ]

/-- Layer 1 (%c_4 … %53): the same line over the sixteen features of layer 0's result, the degree counted again. (45 operations.) -/
abbrev opsL1 : List (HloOp τ sig (Elt F)) :=
  [ StableHlo.nullary main_c_4 (constantI S_ 32 0#32),
    StableHlo.unary main_c_4 main_v29 (broadcastInDim S3200000 ![] bcast_S_S3200000 : (⟨S_, .i32⟩ : BufTy).Contents (Elt F) → (⟨S3200000, .i32⟩ : BufTy).Contents (Elt F)),
    StableHlo.binary main_v1 main_v29 main_v30 (cmpi .slt : (⟨S3200000, .i32⟩ : BufTy).Contents (Elt F) → (⟨S3200000, .i32⟩ : BufTy).Contents (Elt F) → (⟨S3200000, .i1⟩ : BufTy).Contents (Elt F)),
    StableHlo.nullary main_c_5 (constantI S_ 32 100000#32),
    StableHlo.unary main_c_5 main_v31 (broadcastInDim S3200000 ![] bcast_S_S3200000 : (⟨S_, .i32⟩ : BufTy).Contents (Elt F) → (⟨S3200000, .i32⟩ : BufTy).Contents (Elt F)),
    StableHlo.binary main_v1 main_v31 main_v32 (addi : (⟨S3200000, .i32⟩ : BufTy).Contents (Elt F) → (⟨S3200000, .i32⟩ : BufTy).Contents (Elt F) → (⟨S3200000, .i32⟩ : BufTy).Contents (Elt F)),
    StableHlo.ternary main_v30 main_v32 main_v1 main_v33 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v33 main_v34 (broadcastInDim S3200000x1 ![0] bcast_S3200000_S3200000x1_0 : (⟨S3200000, .i32⟩ : BufTy).Contents (Elt F) → (⟨S3200000x1, .i32⟩ : BufTy).Contents (Elt F)),
    StableHlo.binary main_v28 main_v34 main_v35 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.nullary main_cst_6 (constant S_ .f32 0x00000000#32),
    StableHlo.unary main_cst_6 main_v36 (broadcastInDim S100000x16 ![] bcast_S_S100000x16 : (⟨S_, .f32⟩ : BufTy).Contents (Elt F) → (⟨S100000x16, .f32⟩ : BufTy).Contents (Elt F)),
    StableHlo.unary main_v3 main_v37 (broadcastInDim S3200000x1 ![0] bcast_S3200000_S3200000x1_0 : (⟨S3200000, .i32⟩ : BufTy).Contents (Elt F) → (⟨S3200000x1, .i32⟩ : BufTy).Contents (Elt F)),
    StableHlo.ternary main_v36 main_v37 main_v35 main_v38 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.nullary main_cst_7 (constant S_ .f32 0x3F800000#32),
    StableHlo.unary main_cst_7 main_v39 (broadcastInDim S3200000x1 ![] bcast_S_S3200000x1 : (⟨S_, .f32⟩ : BufTy).Contents (Elt F) → (⟨S3200000x1, .f32⟩ : BufTy).Contents (Elt F)),
    StableHlo.nullary main_cst_8 (constant S_ .f32 0x00000000#32),
    StableHlo.unary main_cst_8 main_v40 (broadcastInDim S100000x1 ![] bcast_S_S100000x1 : (⟨S_, .f32⟩ : BufTy).Contents (Elt F) → (⟨S100000x1, .f32⟩ : BufTy).Contents (Elt F)),
    StableHlo.unary main_v3 main_v41 (broadcastInDim S3200000x1 ![0] bcast_S3200000_S3200000x1_0 : (⟨S3200000, .i32⟩ : BufTy).Contents (Elt F) → (⟨S3200000x1, .i32⟩ : BufTy).Contents (Elt F)),
    StableHlo.ternary main_v40 main_v41 main_v39 main_v42 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    StableHlo.nullary main_cst_9 (constant S_ .f32 0x3F800000#32),
    StableHlo.unary main_cst_9 main_v43 (broadcastInDim S100000x1 ![] bcast_S_S100000x1 : (⟨S_, .f32⟩ : BufTy).Contents (Elt F) → (⟨S100000x1, .f32⟩ : BufTy).Contents (Elt F)),
    StableHlo.binary main_v42 main_v43 main_v44 (maximumf : (⟨S100000x1, .f32⟩ : BufTy).Contents (Elt F) → (⟨S100000x1, .f32⟩ : BufTy).Contents (Elt F) → (⟨S100000x1, .f32⟩ : BufTy).Contents (Elt F)),
    StableHlo.unary main_v44 main_v45 (broadcastInDim S100000x16 ![0, 1] bcast_S100000x1_S100000x16_0_1 : (⟨S100000x1, .f32⟩ : BufTy).Contents (Elt F) → (⟨S100000x16, .f32⟩ : BufTy).Contents (Elt F)),
    StableHlo.binary main_v38 main_v45 main_v46 (Host.divf : (⟨S100000x16, .f32⟩ : BufTy).Contents (Elt F) → (⟨S100000x16, .f32⟩ : BufTy).Contents (Elt F) → (⟨S100000x16, .f32⟩ : BufTy).Contents (Elt F)),
    StableHlo.binary main_v46 main_arg5 main_v47 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.unary main_arg7 main_v48 (broadcastInDim S1x16 ![1] bcast_S16_S1x16_1 : (⟨S16, .f32⟩ : BufTy).Contents (Elt F) → (⟨S1x16, .f32⟩ : BufTy).Contents (Elt F)),
    StableHlo.unary main_v48 main_v49 (broadcastInDim S100000x16 ![0, 1] bcast_S1x16_S100000x16_0_1 : (⟨S1x16, .f32⟩ : BufTy).Contents (Elt F) → (⟨S100000x16, .f32⟩ : BufTy).Contents (Elt F)),
    StableHlo.binary main_v47 main_v49 main_v50 (addf : (⟨S100000x16, .f32⟩ : BufTy).Contents (Elt F) → (⟨S100000x16, .f32⟩ : BufTy).Contents (Elt F) → (⟨S100000x16, .f32⟩ : BufTy).Contents (Elt F)),
    StableHlo.binary main_v28 main_arg6 main_v51 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.binary main_v50 main_v51 main_v52 (addf : (⟨S100000x16, .f32⟩ : BufTy).Contents (Elt F) → (⟨S100000x16, .f32⟩ : BufTy).Contents (Elt F) → (⟨S100000x16, .f32⟩ : BufTy).Contents (Elt F)),
    StableHlo.TRef.nullary main_call1.cst (constant S_ .f32 0x00000000#32),
    StableHlo.TRef.unary main_call1.cst main_call1.v0 (broadcastInDim S100000x16 ![] bcast_S_S100000x16),
    StableHlo.TRef.binary (.of main_v52) main_call1.v0 main_call1.v1 (cmpf .ogt),
    StableHlo.TRef.nullary main_call1.cst_0 (constant S_ .f32 0x00000000#32),
    StableHlo.TRef.unary main_call1.cst_0 main_call1.v2 (broadcastInDim S100000x16 ![] bcast_S_S100000x16),
    StableHlo.TRef.binary (.of main_v52) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x16 ![] bcast_S_S100000x16),
    StableHlo.TRef.ternary main_call1.v3 main_call1.call0.v1 (.of main_v52) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x16 ![] bcast_S_S100000x16),
    StableHlo.TRef.binary main_call1.v6 main_call1.v5 main_call1.v7 mulf,
    StableHlo.TRef.ternary main_call1.v1 (.of main_v52) main_call1.v7 main_call1.call1.v0 select ]

/-- Layer 2 (%c_10 … %78): the same once more, over layer 1's result. (45 operations.) -/
abbrev opsL2 : List (HloOp τ sig (Elt F)) :=
  [ StableHlo.nullary main_c_10 (constantI S_ 32 0#32),
    StableHlo.unary main_c_10 main_v54 (broadcastInDim S3200000 ![] bcast_S_S3200000 : (⟨S_, .i32⟩ : BufTy).Contents (Elt F) → (⟨S3200000, .i32⟩ : BufTy).Contents (Elt F)),
    StableHlo.binary main_v1 main_v54 main_v55 (cmpi .slt : (⟨S3200000, .i32⟩ : BufTy).Contents (Elt F) → (⟨S3200000, .i32⟩ : BufTy).Contents (Elt F) → (⟨S3200000, .i1⟩ : BufTy).Contents (Elt F)),
    StableHlo.nullary main_c_11 (constantI S_ 32 100000#32),
    StableHlo.unary main_c_11 main_v56 (broadcastInDim S3200000 ![] bcast_S_S3200000 : (⟨S_, .i32⟩ : BufTy).Contents (Elt F) → (⟨S3200000, .i32⟩ : BufTy).Contents (Elt F)),
    StableHlo.binary main_v1 main_v56 main_v57 (addi : (⟨S3200000, .i32⟩ : BufTy).Contents (Elt F) → (⟨S3200000, .i32⟩ : BufTy).Contents (Elt F) → (⟨S3200000, .i32⟩ : BufTy).Contents (Elt F)),
    StableHlo.ternary main_v55 main_v57 main_v1 main_v58 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v58 main_v59 (broadcastInDim S3200000x1 ![0] bcast_S3200000_S3200000x1_0 : (⟨S3200000, .i32⟩ : BufTy).Contents (Elt F) → (⟨S3200000x1, .i32⟩ : BufTy).Contents (Elt F)),
    StableHlo.binary main_v53 main_v59 main_v60 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.nullary main_cst_12 (constant S_ .f32 0x00000000#32),
    StableHlo.unary main_cst_12 main_v61 (broadcastInDim S100000x16 ![] bcast_S_S100000x16 : (⟨S_, .f32⟩ : BufTy).Contents (Elt F) → (⟨S100000x16, .f32⟩ : BufTy).Contents (Elt F)),
    StableHlo.unary main_v3 main_v62 (broadcastInDim S3200000x1 ![0] bcast_S3200000_S3200000x1_0 : (⟨S3200000, .i32⟩ : BufTy).Contents (Elt F) → (⟨S3200000x1, .i32⟩ : BufTy).Contents (Elt F)),
    StableHlo.ternary main_v61 main_v62 main_v60 main_v63 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.nullary main_cst_13 (constant S_ .f32 0x3F800000#32),
    StableHlo.unary main_cst_13 main_v64 (broadcastInDim S3200000x1 ![] bcast_S_S3200000x1 : (⟨S_, .f32⟩ : BufTy).Contents (Elt F) → (⟨S3200000x1, .f32⟩ : BufTy).Contents (Elt F)),
    StableHlo.nullary main_cst_14 (constant S_ .f32 0x00000000#32),
    StableHlo.unary main_cst_14 main_v65 (broadcastInDim S100000x1 ![] bcast_S_S100000x1 : (⟨S_, .f32⟩ : BufTy).Contents (Elt F) → (⟨S100000x1, .f32⟩ : BufTy).Contents (Elt F)),
    StableHlo.unary main_v3 main_v66 (broadcastInDim S3200000x1 ![0] bcast_S3200000_S3200000x1_0 : (⟨S3200000, .i32⟩ : BufTy).Contents (Elt F) → (⟨S3200000x1, .i32⟩ : BufTy).Contents (Elt F)),
    StableHlo.ternary main_v65 main_v66 main_v64 main_v67 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    StableHlo.nullary main_cst_15 (constant S_ .f32 0x3F800000#32),
    StableHlo.unary main_cst_15 main_v68 (broadcastInDim S100000x1 ![] bcast_S_S100000x1 : (⟨S_, .f32⟩ : BufTy).Contents (Elt F) → (⟨S100000x1, .f32⟩ : BufTy).Contents (Elt F)),
    StableHlo.binary main_v67 main_v68 main_v69 (maximumf : (⟨S100000x1, .f32⟩ : BufTy).Contents (Elt F) → (⟨S100000x1, .f32⟩ : BufTy).Contents (Elt F) → (⟨S100000x1, .f32⟩ : BufTy).Contents (Elt F)),
    StableHlo.unary main_v69 main_v70 (broadcastInDim S100000x16 ![0, 1] bcast_S100000x1_S100000x16_0_1 : (⟨S100000x1, .f32⟩ : BufTy).Contents (Elt F) → (⟨S100000x16, .f32⟩ : BufTy).Contents (Elt F)),
    StableHlo.binary main_v63 main_v70 main_v71 (Host.divf : (⟨S100000x16, .f32⟩ : BufTy).Contents (Elt F) → (⟨S100000x16, .f32⟩ : BufTy).Contents (Elt F) → (⟨S100000x16, .f32⟩ : BufTy).Contents (Elt F)),
    StableHlo.binary main_v71 main_arg8 main_v72 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.unary main_arg10 main_v73 (broadcastInDim S1x16 ![1] bcast_S16_S1x16_1 : (⟨S16, .f32⟩ : BufTy).Contents (Elt F) → (⟨S1x16, .f32⟩ : BufTy).Contents (Elt F)),
    StableHlo.unary main_v73 main_v74 (broadcastInDim S100000x16 ![0, 1] bcast_S1x16_S100000x16_0_1 : (⟨S1x16, .f32⟩ : BufTy).Contents (Elt F) → (⟨S100000x16, .f32⟩ : BufTy).Contents (Elt F)),
    StableHlo.binary main_v72 main_v74 main_v75 (addf : (⟨S100000x16, .f32⟩ : BufTy).Contents (Elt F) → (⟨S100000x16, .f32⟩ : BufTy).Contents (Elt F) → (⟨S100000x16, .f32⟩ : BufTy).Contents (Elt F)),
    StableHlo.binary main_v53 main_arg9 main_v76 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.binary main_v75 main_v76 main_v77 (addf : (⟨S100000x16, .f32⟩ : BufTy).Contents (Elt F) → (⟨S100000x16, .f32⟩ : BufTy).Contents (Elt F) → (⟨S100000x16, .f32⟩ : BufTy).Contents (Elt F)),
    StableHlo.TRef.nullary main_call2.cst (constant S_ .f32 0x00000000#32),
    StableHlo.TRef.unary main_call2.cst main_call2.v0 (broadcastInDim S100000x16 ![] bcast_S_S100000x16),
    StableHlo.TRef.binary (.of main_v77) main_call2.v0 main_call2.v1 (cmpf .ogt),
    StableHlo.TRef.nullary main_call2.cst_0 (constant S_ .f32 0x00000000#32),
    StableHlo.TRef.unary main_call2.cst_0 main_call2.v2 (broadcastInDim S100000x16 ![] bcast_S_S100000x16),
    StableHlo.TRef.binary (.of main_v77) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x16 ![] bcast_S_S100000x16),
    StableHlo.TRef.ternary main_call2.v3 main_call2.call0.v1 (.of main_v77) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x16 ![] bcast_S_S100000x16),
    StableHlo.TRef.binary main_call2.v6 main_call2.v5 main_call2.v7 mulf,
    StableHlo.TRef.ternary main_call2.v1 (.of main_v77) main_call2.v7 main_call2.call1.v0 select ]

/-- The head (%79 … %97): three stages, each a weight, the bias row added and the unit over sixty-four features, and
    a last stage of a weight and a bias row alone. (61 operations.) -/
abbrev opsH : List (HloOp τ sig (Elt F)) :=
  [ StableHlo.binary main_v78 main_arg11 main_v79 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    StableHlo.unary main_arg12 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S100000x64 ![0, 1] bcast_S1x64_S100000x64_0_1 : (⟨S1x64, .f32⟩ : BufTy).Contents (Elt F) → (⟨S100000x64, .f32⟩ : BufTy).Contents (Elt F)),
    StableHlo.binary main_v79 main_v81 main_v82 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v82) main_call3.v0 main_call3.v1 (cmpf .ogt),
    StableHlo.TRef.nullary main_call3.cst_0 (constant S_ .f32 0x00000000#32),
    StableHlo.TRef.unary main_call3.cst_0 main_call3.v2 (broadcastInDim S100000x64 ![] bcast_S_S100000x64),
    StableHlo.TRef.binary (.of main_v82) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x64 ![] bcast_S_S100000x64),
    StableHlo.TRef.ternary main_call3.v3 main_call3.call0.v1 (.of main_v82) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x64 ![] bcast_S_S100000x64),
    StableHlo.TRef.binary main_call3.v6 main_call3.v5 main_call3.v7 mulf,
    StableHlo.TRef.ternary main_call3.v1 (.of main_v82) main_call3.v7 main_call3.call1.v0 select,
    StableHlo.binary main_v83 main_arg13 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v87) main_call4.v0 main_call4.v1 (cmpf .ogt),
    StableHlo.TRef.nullary main_call4.cst_0 (constant S_ .f32 0x00000000#32),
    StableHlo.TRef.unary main_call4.cst_0 main_call4.v2 (broadcastInDim S100000x64 ![] bcast_S_S100000x64),
    StableHlo.TRef.binary (.of main_v87) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x64 ![] bcast_S_S100000x64),
    StableHlo.TRef.ternary main_call4.v3 main_call4.call0.v1 (.of main_v87) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x64 ![] bcast_S_S100000x64),
    StableHlo.TRef.binary main_call4.v6 main_call4.v5 main_call4.v7 mulf,
    StableHlo.TRef.ternary main_call4.v1 (.of main_v87) main_call4.v7 main_call4.call1.v0 select,
    StableHlo.binary main_v88 main_arg15 main_v89 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg16 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v91 main_v92 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v92) main_call5.v0 main_call5.v1 (cmpf .ogt),
    StableHlo.TRef.nullary main_call5.cst_0 (constant S_ .f32 0x00000000#32),
    StableHlo.TRef.unary main_call5.cst_0 main_call5.v2 (broadcastInDim S100000x64 ![] bcast_S_S100000x64),
    StableHlo.TRef.binary (.of main_v92) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x64 ![] bcast_S_S100000x64),
    StableHlo.TRef.ternary main_call5.v3 main_call5.call0.v1 (.of main_v92) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x64 ![] bcast_S_S100000x64),
    StableHlo.TRef.binary main_call5.v6 main_call5.v5 main_call5.v7 mulf,
    StableHlo.TRef.ternary main_call5.v1 (.of main_v92) main_call5.v7 main_call5.call1.v0 select,
    StableHlo.binary main_v93 main_arg17 main_v94 ((fun l r => Host.dotGeneral dot_S100000x64_S64x4_S100000x4_1_0_0_1_n_n none l r) : (⟨S100000x64, .f32⟩ : BufTy).Contents (Elt F) → (⟨S64x4, .f32⟩ : BufTy).Contents (Elt F) → (⟨S100000x4, .f32⟩ : BufTy).Contents (Elt F)),
    StableHlo.unary main_arg18 main_v95 (broadcastInDim S1x4 ![1] bcast_S4_S1x4_1 : (⟨S4, .f32⟩ : BufTy).Contents (Elt F) → (⟨S1x4, .f32⟩ : BufTy).Contents (Elt F)),
    StableHlo.unary main_v95 main_v96 (broadcastInDim S100000x4 ![0, 1] bcast_S1x4_S100000x4_0_1 : (⟨S1x4, .f32⟩ : BufTy).Contents (Elt F) → (⟨S100000x4, .f32⟩ : BufTy).Contents (Elt F)),
    StableHlo.binary main_v94 main_v96 main_v97 (addf : (⟨S100000x4, .f32⟩ : BufTy).Contents (Elt F) → (⟨S100000x4, .f32⟩ : BufTy).Contents (Elt F) → (⟨S100000x4, .f32⟩ : BufTy).Contents (Elt F)) ]

/-- The whole program: the three layers, then the head. -/
abbrev ops : List (HloOp τ sig (Elt F)) := opsL0 ++ opsL1 ++ opsL2 ++ opsH

end Cert.ReferenceIdeal.Run

end
-- ==== Proof.RefRun.lean ====
/-
  The idealized reference program is one straight line of host operations, and its run is the fold of that line.

  The program is printed in two windows, and six of its statements are calls of the unit, which calls the two
  selects in turn.  A call means its callee's body on the operands; so once the callees' definitions are unfolded at
  their calls and the sequencing is reassociated, each window is a chain of single operations: the first window is
  layer 0's line followed by the first twenty-five operations of layer 1 (down to the mean's product with its
  weight, %47), the second window is the rest.  Two lines run one after the other are their concatenation run as
  one, and the two pieces concatenate to the whole list, which is thereby cut in the middle of layer 1.

  Every operation touches TensorCore buffers only and determines what it writes, and the signature scopes no
  buffer and no semaphore; so from any memory with zero counters every weakly fair execution terminates with each
  buffer at the fold of the operations over the launch contents.
-/
import proofs.«136279_j14955076125382_1_alg».proof.Proof.Gen.ReferenceIdeal
import proofs.«136279_j14955076125382_1_alg».proof.Proof.RefOps
import Idealize.ShloMosaic.Lib.StableHlo.Run
import Mathlib.Data.List.Basic

noncomputable section

namespace Cert.ReferenceIdeal.Run

open Idealize.ShloMosaic Idealize.ShloMosaic.TcCoe Idealize.SL.Sem Idealize.ShloMosaic.StableHlo
open Cert.ReferenceIdeal Cert.ReferenceIdeal.Gen

variable {F : FTy → Type} [FloatOps F]

/-! ## The program is the line -/

/-- A list cut inside its middle piece: the pieces before and after the cut concatenate to the whole. -/
theorem append_cut {α : Type} (a l b : List α) (n : Nat) :
    a ++ l ++ b = (a ++ l.take n) ++ (l.drop n ++ b) := by
  conv_lhs => rw [← List.take_append_drop n l]
  simp only [List.append_assoc]

/-- The whole line, cut where the first window of the printed program ends: after the twenty-fifth operation of
    layer 1 (the mean's product with its weight, %47). -/
theorem ops_cut :
    (ops : List (HloOp τ sig (Elt F))) = (opsL0 ++ opsL1.take 25) ++ (opsL1.drop 25 ++ (opsL2 ++ opsH)) := by
  show opsL0 ++ opsL1 ++ opsL2 ++ opsH = _
  rw [List.append_assoc (opsL0 ++ opsL1) opsL2 opsH]
  exact append_cut ..

-- seventy-four binds in a chain: the rewriting under it and the comparison after it recurse once per statement
set_option maxRecDepth 4096 in
set_option maxHeartbeats 400000 in
/-- The first window is layer 0's line followed by the first twenty-five operations of layer 1: the unit's
    definition and the two selects' unfolded at the call, both sides are one chain of single operations once the
    sequencing is reassociated (`bind_assoc`, `pure_bind`). -/
theorem part0_eq (c : Dev nD) : main_part0 (F := F) c = seq (opsL0 ++ opsL1.take 25) := by
  simp only [main_part0, fn_elu.body, fn_where.body, fn_where_0.body, bind_assoc, pure_bind]
  rfl

-- a hundred and twenty-six binds in a chain
set_option maxRecDepth 8192 in
set_option maxHeartbeats 400000 in
/-- The second window is the rest: layer 1 from the bias row on, layer 2 and the head, five calls of the unit
    (at sixteen and at sixty-four features) unfolded the same way. -/
theorem part1_eq (c : Dev nD) : main_part1 (F := F) c = seq (opsL1.drop 25 ++ (opsL2 ++ opsH)) := by
  simp only [main_part1, fn_elu.body, fn_where.body, fn_where_0.body, fn_elu_1.body, fn_where_2.body, fn_where_3.body,
    bind_assoc, pure_bind]
  rfl

/-- @main runs its two windows in order, and two lines run one after the other are their concatenation run as one
    (`seq_append`): @main is the whole line. -/
theorem main_eq (c : Dev nD) : main (F := F) c = seq ops := by
  rw [ops_cut, seq_append, ← part0_eq c, ← part1_eq c]
  rfl

/-! ## What the run asks of the line -/

theorem scopedRefs_eq : (Finset.univ.filter fun b : Ref sig .tc => b.isScoped) = ∅ := by decide
theorem scopedSems_eq : (Finset.univ.filter fun sm : SemLoc sig => sm.isScoped .tc) = ∅ := by decide

/-- Every operation of a piece touches TensorCore buffers only: each is one of the builders, whose buffers are its
    operands' and its result's. -/
theorem sub_L0 : (opsL0 : List (HloOp τ sig (Elt F))).Forall fun op => op.bufs ⊆ tcRefs τ sig := by
  simp only [List.Forall, nullary_bufs_sub, unary_bufs_sub, binary_bufs_sub, ternary_bufs_sub, reshape_bufs_sub, and_self]
theorem sub_L1 : (opsL1 : List (HloOp τ sig (Elt F))).Forall fun op => op.bufs ⊆ tcRefs τ sig := by
  simp only [List.Forall, nullary_bufs_sub, unary_bufs_sub, binary_bufs_sub, ternary_bufs_sub, and_self]
theorem sub_L2 : (opsL2 : List (HloOp τ sig (Elt F))).Forall fun op => op.bufs ⊆ tcRefs τ sig := by
  simp only [List.Forall, nullary_bufs_sub, unary_bufs_sub, binary_bufs_sub, ternary_bufs_sub, and_self]
theorem sub_H : (opsH : List (HloOp τ sig (Elt F))).Forall fun op => op.bufs ⊆ tcRefs τ sig := by
  simp only [List.Forall, nullary_bufs_sub, unary_bufs_sub, binary_bufs_sub, ternary_bufs_sub, and_self]

theorem ops_sub : (ops : List (HloOp τ sig (Elt F))).Forall fun op => op.bufs ⊆ tcRefs τ sig :=
  List.forall_append.2 ⟨List.forall_append.2 ⟨List.forall_append.2 ⟨sub_L0, sub_L1⟩, sub_L2⟩, sub_H⟩

/-- Every operation of a piece determines what it writes (none allocates a buffer of contents not chosen): by
    computation, operation by operation. -/
theorem fresh_L0 : ∀ op ∈ (opsL0 : List (HloOp τ sig (Elt F))), op.fresh = ∅ := by
  intro _ h; (repeat (cases h with | head => rfl | tail _ h => ?_)); exact nomatch h
theorem fresh_L1 : ∀ op ∈ (opsL1 : List (HloOp τ sig (Elt F))), op.fresh = ∅ := by
  intro _ h; (repeat (cases h with | head => rfl | tail _ h => ?_)); exact nomatch h
theorem fresh_L2 : ∀ op ∈ (opsL2 : List (HloOp τ sig (Elt F))), op.fresh = ∅ := by
  intro _ h; (repeat (cases h with | head => rfl | tail _ h => ?_)); exact nomatch h
theorem fresh_H : ∀ op ∈ (opsH : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.1 h with h | h
  · rcases List.mem_append.1 h with h | h
    · rcases List.mem_append.1 h with h | h
      · exact fresh_L0 op h
      · exact fresh_L1 op h
    · exact fresh_L2 op h
  · exact fresh_H op h

/-! ## The run -/

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Run

end
-- ==== Proof.TermsR.lean ====
/-
  The idealized reference program's result as one term of its nineteen arguments.

  The reference reads the same source and destination lists from the edge table and wraps negative sources the same
  way.  In EVERY layer it recomputes the clamped degree max(count, 1) and DIVIDES the message sum by it.  A layer is
  unit(mean · Wl + b + h · Wr) with the bias broadcast over the rows; its unit is spelt
  select(v > 0, v, 1 · expm1(select(v > 0, 0, v))).  The head is three stages unit(h · W + b) and a last stage h · W + b.
-/
import proofs.«136279_j14955076125382_1_alg».proof.Proof.Gen.ReferenceIdeal
import Idealize.ShloMosaic.PureOps.Ideal

noncomputable section

namespace Cert.ReferenceIdeal.Terms

open Idealize.ShloMosaic Cert.ReferenceIdeal Cert.ReferenceIdeal.Gen

abbrev EdgeTbl := (⟨S2x3200000, .i32⟩ : BufTy).Contents (Elt Ideal)
abbrev EdgeVec := (⟨S3200000, .i32⟩ : BufTy).Contents (Elt Ideal)

/-- Row 0 of the edge table: the edges' sources. -/
def src (ei : EdgeTbl) : EdgeVec := fun i =>
  shapeCast S3200000 (extractStridedSlice S1x3200000 ![0, 0] ei slices_S2x3200000_S1x3200000_0_0) shapeCasts_S1x3200000_S3200000 i

/-- Row 1 of the edge table: the edges' destinations. -/
def dst (ei : EdgeTbl) : EdgeVec := fun i =>
  shapeCast S3200000 (extractStridedSlice S1x3200000 ![1, 0] ei slices_S2x3200000_S1x3200000_1_0) shapeCasts_S1x3200000_S3200000 i

/-- A negative index counts from the end: add the node count. -/
def wrap (s : EdgeVec) : EdgeVec :=
  select (cmpi .slt s (broadcastInDim S3200000 ![] bcast_S_S3200000 (constantI S_ 32 0#32)))
    (addi s (broadcastInDim S3200000 ![] bcast_S_S3200000 (constantI S_ 32 100000#32))) s

/-- max(number of edges ending at the node, 1). -/
def degree (d : EdgeVec) : FVec Ideal S100000x1 .f32 :=
  maximumf
    (Host.scatterAdd scatter_S100000x1_S3200000x1_S3200000x1_1_0_0_1
      (broadcastInDim S100000x1 ![] bcast_S_S100000x1 (constant (F := Ideal) S_ .f32 0x00000000#32))
      (broadcastInDim S3200000x1 ![0] bcast_S3200000_S3200000x1_0 d)
      (broadcastInDim S3200000x1 ![] bcast_S_S3200000x1 (constant (F := Ideal) S_ .f32 0x3F800000#32)))
    (broadcastInDim S100000x1 ![] bcast_S_S100000x1 (constant (F := Ideal) S_ .f32 0x3F800000#32))

/-- At every node, the sum of the rows of `h` at the sources of the edges ending there (32 features). -/
def msgSum32 (h : FVec Ideal S100000x32 .f32) (s d : EdgeVec) : FVec Ideal S100000x32 .f32 :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 d)
    (Host.gather gather_S100000x32_S3200000x1_S3200000x32_1_0_n_n_0_1_132 h
      (broadcastInDim S3200000x1 ![0] bcast_S3200000_S3200000x1_0 (wrap s)))

/-- The same over 16 features. -/
def msgSum16 (h : FVec Ideal S100000x16 .f32) (s d : EdgeVec) : FVec Ideal S100000x16 .f32 :=
  Host.scatterAdd scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 d)
    (Host.gather gather_S100000x16_S3200000x1_S3200000x16_1_0_n_n_0_1_116 h
      (broadcastInDim S3200000x1 ![0] bcast_S3200000_S3200000x1_0 (wrap s)))

/-- The neighbour mean as the reference forms it: the message sum divided by the clamped degree. -/
def agg32 (h : FVec Ideal S100000x32 .f32) (s d : EdgeVec) : FVec Ideal S100000x32 .f32 :=
  Host.divf (msgSum32 h s d) (broadcastInDim S100000x32 ![0, 1] bcast_S100000x1_S100000x32_0_1 (degree d))

def agg16 (h : FVec Ideal S100000x16 .f32) (s d : EdgeVec) : FVec Ideal S100000x16 .f32 :=
  Host.divf (msgSum16 h s d) (broadcastInDim S100000x16 ![0, 1] bcast_S100000x1_S100000x16_0_1 (degree d))

/-- The reference's unit on a 16-column table, as its called function spells it. -/
def elu16 (a : FVec Ideal S100000x16 .f32) : FVec Ideal S100000x16 .f32 :=
  select (cmpf .ogt a (broadcastInDim S100000x16 ![] bcast_S_S100000x16 (constant (F := Ideal) S_ .f32 0x00000000#32))) a
    (mulf (broadcastInDim S100000x16 ![] bcast_S_S100000x16 (constant (F := Ideal) S_ .f32 0x3F800000#32))
      (Host.expm1
        (select (cmpf .ogt a (broadcastInDim S100000x16 ![] bcast_S_S100000x16 (constant (F := Ideal) S_ .f32 0x00000000#32)))
          (broadcastInDim S100000x16 ![] bcast_S_S100000x16 (id (constant (F := Ideal) S_ .f32 0x00000000#32))) a)))

/-- The same on a 64-column table. -/
def elu64 (a : FVec Ideal S100000x64 .f32) : FVec Ideal S100000x64 .f32 :=
  select (cmpf .ogt a (broadcastInDim S100000x64 ![] bcast_S_S100000x64 (constant (F := Ideal) S_ .f32 0x00000000#32))) a
    (mulf (broadcastInDim S100000x64 ![] bcast_S_S100000x64 (constant (F := Ideal) S_ .f32 0x3F800000#32))
      (Host.expm1
        (select (cmpf .ogt a (broadcastInDim S100000x64 ![] bcast_S_S100000x64 (constant (F := Ideal) S_ .f32 0x00000000#32)))
          (broadcastInDim S100000x64 ![] bcast_S_S100000x64 (id (constant (F := Ideal) S_ .f32 0x00000000#32))) a)))

/-- A bias vector broadcast over the rows of a table. -/
def bias16 (b : FVec Ideal S16 .f32) : FVec Ideal S100000x16 .f32 :=
  broadcastInDim S100000x16 ![0, 1] bcast_S1x16_S100000x16_0_1 (broadcastInDim S1x16 ![1] bcast_S16_S1x16_1 b)
def bias64 (b : FVec Ideal S64 .f32) : FVec Ideal S100000x64 .f32 :=
  broadcastInDim S100000x64 ![0, 1] bcast_S1x64_S100000x64_0_1 (broadcastInDim S1x64 ![1] bcast_S64_S1x64_1 b)
def bias4 (b : FVec Ideal S4 .f32) : FVec Ideal S100000x4 .f32 :=
  broadcastInDim S100000x4 ![0, 1] bcast_S1x4_S100000x4_0_1 (broadcastInDim S1x4 ![1] bcast_S4_S1x4_1 b)

/-- The first graph layer before its unit: mean · Wl + b + h · Wr (32 input features). -/
def conv32 (h : FVec Ideal S100000x32 .f32) (s d : EdgeVec) (Wl Wr : FVec Ideal S32x16 .f32) (b : FVec Ideal S16 .f32) :
    FVec Ideal S100000x16 .f32 :=
  addf (addf (Host.dotGeneral dot_S100000x32_S32x16_S100000x16_1_0_0_1_n_n none (agg32 h s d) Wl) (bias16 b))
    (Host.dotGeneral dot_S100000x32_S32x16_S100000x16_1_0_0_1_n_n none h Wr)

/-- A later graph layer before its unit (16 input features). -/
def conv16 (h : FVec Ideal S100000x16 .f32) (s d : EdgeVec) (Wl Wr : FVec Ideal S16x16 .f32) (b : FVec Ideal S16 .f32) :
    FVec Ideal S100000x16 .f32 :=
  addf (addf (Host.dotGeneral dot_S100000x16_S16x16_S100000x16_1_0_0_1_n_n none (agg16 h s d) Wl) (bias16 b))
    (Host.dotGeneral dot_S100000x16_S16x16_S100000x16_1_0_0_1_n_n none h Wr)

/-- The reference's result. -/
def refTerm (x : FVec Ideal S100000x32 .f32) (ei : EdgeTbl)
    (Wl0 Wr0 : FVec Ideal S32x16 .f32) (bl0 : FVec Ideal S16 .f32)
    (Wl1 Wr1 : FVec Ideal S16x16 .f32) (bl1 : FVec Ideal S16 .f32)
    (Wl2 Wr2 : FVec Ideal S16x16 .f32) (bl2 : FVec Ideal S16 .f32)
    (LW0 : FVec Ideal S16x64 .f32) (LB0 : FVec Ideal S64 .f32) (LW1 : FVec Ideal S64x64 .f32) (LB1 : FVec Ideal S64 .f32)
    (LW2 : FVec Ideal S64x64 .f32) (LB2 : FVec Ideal S64 .f32) (LW3 : FVec Ideal S64x4 .f32) (LB3 : FVec Ideal S4 .f32) :
    FVec Ideal S100000x4 .f32 :=
  let s := src ei
  let d := dst ei
  let h1 := elu16 (conv32 x s d Wl0 Wr0 bl0)
  let h2 := elu16 (conv16 h1 s d Wl1 Wr1 bl1)
  let h3 := elu16 (conv16 h2 s d Wl2 Wr2 bl2)
  let g1 := elu64 (addf (Host.dotGeneral dot_S100000x16_S16x64_S100000x64_1_0_0_1_n_n none h3 LW0) (bias64 LB0))
  let g2 := elu64 (addf (Host.dotGeneral dot_S100000x64_S64x64_S100000x64_1_0_0_1_n_n none g1 LW1) (bias64 LB1))
  let g3 := elu64 (addf (Host.dotGeneral dot_S100000x64_S64x64_S100000x64_1_0_0_1_n_n none g2 LW2) (bias64 LB2))
  addf (Host.dotGeneral dot_S100000x64_S64x4_S100000x4_1_0_0_1_n_n none g3 LW3) (bias4 LB3)

end Cert.ReferenceIdeal.Terms

end
-- ==== Proof.RefValue.lean ====
/-
  The idealized reference program's result, read off its operation lists.

  Running a list of operations from contents V replaces, operation by operation, the contents of the one buffer each
  writes. Every buffer of this program is written once, so what a buffer holds at the end is its operation's function of
  what the operand buffers hold at the end. The program is cut into seven pieces — the three graph layers and the head's
  four stages — and each piece but the last into the operations before its unit and the fifteen of the unit. Over ANY
  contents V a piece's result is one small term of what V holds at the buffers the piece reads: the arguments, and the
  results of the pieces before it. No piece writes an argument, and the layers after the first leave the two edge lists
  alone. Nesting the seven terms gives the reference's term of the nineteen arguments.
-/
import proofs.«136279_j14955076125382_1_alg».proof.Proof.RefOps
import proofs.«136279_j14955076125382_1_alg».proof.Proof.TermsR
import Idealize.ShloMosaic.Lib.StableHlo.Run

noncomputable section

namespace Cert.ReferenceIdeal.Run

open Idealize.ShloMosaic Idealize.ShloMosaic.TcCoe Idealize.SL.Sem Idealize.ShloMosaic.StableHlo
open Cert.ReferenceIdeal Cert.ReferenceIdeal.Gen Cert.ReferenceIdeal.Terms

/-! ## Running a list in pieces -/

/-- Running two lists one after the other is running their concatenation. -/
theorem after_append (a b : List (HloOp τ sig (Elt Ideal))) (V : Valuation τ sig (Elt Ideal)) :
    after (a ++ b) V = after b (after a V) := by
  induction a generalizing V with
  | nil => rfl
  | cons op a ih => simp only [List.cons_append, after_cons, ih]

/-- A list run as its first `n` operations, then the rest. -/
theorem after_split (n : Nat) (l : List (HloOp τ sig (Elt Ideal))) (V : Valuation τ sig (Elt Ideal)) :
    after l V = after (l.drop n) (after (l.take n) V) := by
  rw [← after_append, List.take_append_drop]

/-- The program's nineteen arguments. -/
def argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]

/-- The source and destination lists, which every layer reads. -/
def edgeRefs : List (Ref sig .tc) := [main_v1, main_v3]

/-! ## Layer 0 -/

attribute [local irreducible] Host.gather Host.scatterAdd Host.expm1 Host.divf in
set_option maxHeartbeats 400000 in
/-- Layer 0 leaves the edge table's row 0 as the source list. -/
theorem L0_v1 (V : Valuation τ sig (Elt Ideal)) :
    after (opsL0 (F := Ideal)) V (Proc.devRef .tc main_v1) = src (V (Proc.devRef .tc main_arg1)) := by
  after_results_simp
  rfl

attribute [local irreducible] Host.gather Host.scatterAdd Host.expm1 Host.divf in
set_option maxHeartbeats 400000 in
/-- Layer 0 leaves the edge table's row 1 as the destination list. -/
theorem L0_v3 (V : Valuation τ sig (Elt Ideal)) :
    after (opsL0 (F := Ideal)) V (Proc.devRef .tc main_v3) = dst (V (Proc.devRef .tc main_arg1)) := by
  after_results_simp
  rfl

attribute [local irreducible] Host.gather Host.scatterAdd Host.expm1 Host.divf in
set_option maxHeartbeats 400000 in
/-- Layer 0 before its unit, read off its first thirty-four operations: the mean of the gathered input rows through one
    weight, the bias row, and the input through the other weight. -/
theorem L0_pre (V : Valuation τ sig (Elt Ideal)) :
    after ((opsL0 (F := Ideal)).take 34) V (Proc.devRef .tc main_v27)
      = conv32 (V (Proc.devRef .tc main_arg0)) (src (V (Proc.devRef .tc main_arg1))) (dst (V (Proc.devRef .tc main_arg1)))
          (V (Proc.devRef .tc main_arg2)) (V (Proc.devRef .tc main_arg3)) (V (Proc.devRef .tc main_arg4)) := by
  simp only [List.take_succ_cons, List.take_zero, List.drop_succ_cons, List.drop_zero]
  after_results_simp
  rfl

set_option maxHeartbeats 400000 in
/-- The last fifteen operations of layer 0 are the unit on the value they find at the layer's sum. -/
theorem L0_unit (W : Valuation τ sig (Elt Ideal)) :
    after ((opsL0 (F := Ideal)).drop 34) W (Proc.devRef .tc main_v28) = elu16 (W (Proc.devRef .tc main_v27)) := by
  simp only [List.take_succ_cons, List.take_zero, List.drop_succ_cons, List.drop_zero]
  after_results_simp
  rfl

/-- Layer 0's result. -/
theorem L0_out (V : Valuation τ sig (Elt Ideal)) :
    after (opsL0 (F := Ideal)) V (Proc.devRef .tc main_v28)
      = elu16 (conv32 (V (Proc.devRef .tc main_arg0)) (src (V (Proc.devRef .tc main_arg1))) (dst (V (Proc.devRef .tc main_arg1)))
          (V (Proc.devRef .tc main_arg2)) (V (Proc.devRef .tc main_arg3)) (V (Proc.devRef .tc main_arg4))) := by
  rw [after_split 34 opsL0 V, L0_unit, L0_pre]

set_option maxHeartbeats 1000000 in
/-- Layer 0 writes no argument. -/
theorem L0_args (V : Valuation τ sig (Elt Ideal)) :
    ∀ b ∈ argRefs, after (opsL0 (F := Ideal)) V (Proc.devRef .tc b) = V (Proc.devRef .tc b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl
  all_goals after_results_simp

/-! ## Layer 1 -/

attribute [local irreducible] Host.gather Host.scatterAdd Host.expm1 Host.divf in
set_option maxHeartbeats 400000 in
/-- Layer 1 before its unit, read off its first thirty operations, over layer 0's result and the two edge lists it
    finds. -/
theorem L1_pre (V : Valuation τ sig (Elt Ideal)) :
    after ((opsL1 (F := Ideal)).take 30) V (Proc.devRef .tc main_v52)
      = conv16 (V (Proc.devRef .tc main_v28)) (V (Proc.devRef .tc main_v1)) (V (Proc.devRef .tc main_v3))
          (V (Proc.devRef .tc main_arg5)) (V (Proc.devRef .tc main_arg6)) (V (Proc.devRef .tc main_arg7)) := by
  simp only [List.take_succ_cons, List.take_zero, List.drop_succ_cons, List.drop_zero]
  after_results_simp
  rfl

set_option maxHeartbeats 400000 in
/-- The last fifteen operations of layer 1 are the unit on the value they find at the layer's sum. -/
theorem L1_unit (W : Valuation τ sig (Elt Ideal)) :
    after ((opsL1 (F := Ideal)).drop 30) W (Proc.devRef .tc main_v53) = elu16 (W (Proc.devRef .tc main_v52)) := by
  simp only [List.take_succ_cons, List.take_zero, List.drop_succ_cons, List.drop_zero]
  after_results_simp
  rfl

/-- Layer 1's result. -/
theorem L1_out (V : Valuation τ sig (Elt Ideal)) :
    after (opsL1 (F := Ideal)) V (Proc.devRef .tc main_v53)
      = elu16 (conv16 (V (Proc.devRef .tc main_v28)) (V (Proc.devRef .tc main_v1)) (V (Proc.devRef .tc main_v3))
          (V (Proc.devRef .tc main_arg5)) (V (Proc.devRef .tc main_arg6)) (V (Proc.devRef .tc main_arg7))) := by
  rw [after_split 30 opsL1 V, L1_unit, L1_pre]

set_option maxHeartbeats 1000000 in
/-- Layer 1 writes no argument. -/
theorem L1_args (V : Valuation τ sig (Elt Ideal)) :
    ∀ b ∈ argRefs, after (opsL1 (F := Ideal)) V (Proc.devRef .tc b) = V (Proc.devRef .tc b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl
  all_goals after_results_simp

set_option maxHeartbeats 1000000 in
/-- Layer 1 leaves the two edge lists as it finds them. -/
theorem L1_edges (V : Valuation τ sig (Elt Ideal)) :
    ∀ b ∈ edgeRefs, after (opsL1 (F := Ideal)) V (Proc.devRef .tc b) = V (Proc.devRef .tc b) := by
  intro b hb
  simp only [edgeRefs, List.mem_cons, List.mem_nil_iff, or_false] at hb
  rcases hb with rfl | rfl
  all_goals after_results_simp

/-! ## Layer 2 -/

attribute [local irreducible] Host.gather Host.scatterAdd Host.expm1 Host.divf in
set_option maxHeartbeats 400000 in
/-- Layer 2 before its unit, read off its first thirty operations, over layer 1's result and the two edge lists it
    finds. -/
theorem L2_pre (V : Valuation τ sig (Elt Ideal)) :
    after ((opsL2 (F := Ideal)).take 30) V (Proc.devRef .tc main_v77)
      = conv16 (V (Proc.devRef .tc main_v53)) (V (Proc.devRef .tc main_v1)) (V (Proc.devRef .tc main_v3))
          (V (Proc.devRef .tc main_arg8)) (V (Proc.devRef .tc main_arg9)) (V (Proc.devRef .tc main_arg10)) := by
  simp only [List.take_succ_cons, List.take_zero, List.drop_succ_cons, List.drop_zero]
  after_results_simp
  rfl

set_option maxHeartbeats 400000 in
/-- The last fifteen operations of layer 2 are the unit on the value they find at the layer's sum. -/
theorem L2_unit (W : Valuation τ sig (Elt Ideal)) :
    after ((opsL2 (F := Ideal)).drop 30) W (Proc.devRef .tc main_v78) = elu16 (W (Proc.devRef .tc main_v77)) := by
  simp only [List.take_succ_cons, List.take_zero, List.drop_succ_cons, List.drop_zero]
  after_results_simp
  rfl

/-- Layer 2's result. -/
theorem L2_out (V : Valuation τ sig (Elt Ideal)) :
    after (opsL2 (F := Ideal)) V (Proc.devRef .tc main_v78)
      = elu16 (conv16 (V (Proc.devRef .tc main_v53)) (V (Proc.devRef .tc main_v1)) (V (Proc.devRef .tc main_v3))
          (V (Proc.devRef .tc main_arg8)) (V (Proc.devRef .tc main_arg9)) (V (Proc.devRef .tc main_arg10))) := by
  rw [after_split 30 opsL2 V, L2_unit, L2_pre]

set_option maxHeartbeats 1000000 in
/-- Layer 2 writes no argument. -/
theorem L2_args (V : Valuation τ sig (Elt Ideal)) :
    ∀ b ∈ argRefs, after (opsL2 (F := Ideal)) V (Proc.devRef .tc b) = V (Proc.devRef .tc b) := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl
  all_goals after_results_simp

/-! ## The head -/

/-- The head's four stages as pieces of its operation list: nineteen operations each for the first three (a weight, the bias
    row in two steps, their sum, and the fifteen of the unit), and the last four. -/
abbrev opsH1 : List (HloOp τ sig (Elt Ideal)) := (opsH (F := Ideal)).take 19
abbrev opsH2 : List (HloOp τ sig (Elt Ideal)) := ((opsH (F := Ideal)).drop 19).take 19
abbrev opsH3 : List (HloOp τ sig (Elt Ideal)) := (((opsH (F := Ideal)).drop 19).drop 19).take 19
abbrev opsH4 : List (HloOp τ sig (Elt Ideal)) := (((opsH (F := Ideal)).drop 19).drop 19).drop 19

/-- The head run stage by stage. -/
theorem H_run (V : Valuation τ sig (Elt Ideal)) :
    after (opsH (F := Ideal)) V = after opsH4 (after opsH3 (after opsH2 (after opsH1 V))) := by
  rw [after_split 19 opsH V, after_split 19 (opsH.drop 19), after_split 19 ((opsH.drop 19).drop 19)]

/-- A stage of the head before its unit: h · W + b, the bias broadcast over the rows (sixteen features in, sixty-four
    out). -/
def lin16x64 (h : FVec Ideal S100000x16 .f32) (W : FVec Ideal S16x64 .f32) (b : FVec Ideal S64 .f32) :
    FVec Ideal S100000x64 .f32 :=
  addf (Host.dotGeneral dot_S100000x16_S16x64_S100000x64_1_0_0_1_n_n none h W) (bias64 b)

/-- The same, sixty-four features in and out. -/
def lin64x64 (h : FVec Ideal S100000x64 .f32) (W : FVec Ideal S64x64 .f32) (b : FVec Ideal S64 .f32) :
    FVec Ideal S100000x64 .f32 :=
  addf (Host.dotGeneral dot_S100000x64_S64x64_S100000x64_1_0_0_1_n_n none h W) (bias64 b)

/-- The same, sixty-four features in and four out. -/
def lin64x4 (h : FVec Ideal S100000x64 .f32) (W : FVec Ideal S64x4 .f32) (b : FVec Ideal S4 .f32) :
    FVec Ideal S100000x4 .f32 :=
  addf (Host.dotGeneral dot_S100000x64_S64x4_S100000x4_1_0_0_1_n_n none h W) (bias4 b)

attribute [local irreducible] Host.gather Host.scatterAdd Host.expm1 Host.divf in
set_option maxHeartbeats 400000 in
/-- Stage 1 of the head before its unit, read off the stage's first four operations: the value it finds through the
    weight, plus the bias row. -/
theorem H1_pre (V : Valuation τ sig (Elt Ideal)) :
    after (opsH1.take 4) V (Proc.devRef .tc main_v82)
      = lin16x64 (V (Proc.devRef .tc main_v78)) (V (Proc.devRef .tc main_arg11)) (V (Proc.devRef .tc main_arg12)) := by
  simp only [opsH1, List.take_succ_cons, List.take_zero, List.drop_succ_cons, List.drop_zero]
  after_results_simp
  rfl

set_option maxHeartbeats 400000 in
/-- The stage's last fifteen operations are the unit on the value they find at the stage's sum. -/
theorem H1_unit (W : Valuation τ sig (Elt Ideal)) :
    after (opsH1.drop 4) W (Proc.devRef .tc main_v83) = elu64 (W (Proc.devRef .tc main_v82)) := by
  simp only [opsH1, List.take_succ_cons, List.take_zero, List.drop_succ_cons, List.drop_zero]
  after_results_simp
  rfl

/-- Stage 1's result. -/
theorem H1_out (V : Valuation τ sig (Elt Ideal)) :
    after opsH1 V (Proc.devRef .tc main_v83)
      = elu64 (lin16x64 (V (Proc.devRef .tc main_v78)) (V (Proc.devRef .tc main_arg11)) (V (Proc.devRef .tc main_arg12))) := by
  rw [after_split 4 opsH1 V, H1_unit, H1_pre]

attribute [local irreducible] Host.gather Host.scatterAdd Host.expm1 Host.divf in
set_option maxHeartbeats 400000 in
/-- Stage 2 of the head before its unit, read off the stage's first four operations: the value it finds through the
    weight, plus the bias row. -/
theorem H2_pre (V : Valuation τ sig (Elt Ideal)) :
    after (opsH2.take 4) V (Proc.devRef .tc main_v87)
      = lin64x64 (V (Proc.devRef .tc main_v83)) (V (Proc.devRef .tc main_arg13)) (V (Proc.devRef .tc main_arg14)) := by
  simp only [opsH2, List.take_succ_cons, List.take_zero, List.drop_succ_cons, List.drop_zero]
  after_results_simp
  rfl

set_option maxHeartbeats 400000 in
/-- The stage's last fifteen operations are the unit on the value they find at the stage's sum. -/
theorem H2_unit (W : Valuation τ sig (Elt Ideal)) :
    after (opsH2.drop 4) W (Proc.devRef .tc main_v88) = elu64 (W (Proc.devRef .tc main_v87)) := by
  simp only [opsH2, List.take_succ_cons, List.take_zero, List.drop_succ_cons, List.drop_zero]
  after_results_simp
  rfl

/-- Stage 2's result. -/
theorem H2_out (V : Valuation τ sig (Elt Ideal)) :
    after opsH2 V (Proc.devRef .tc main_v88)
      = elu64 (lin64x64 (V (Proc.devRef .tc main_v83)) (V (Proc.devRef .tc main_arg13)) (V (Proc.devRef .tc main_arg14))) := by
  rw [after_split 4 opsH2 V, H2_unit, H2_pre]

attribute [local irreducible] Host.gather Host.scatterAdd Host.expm1 Host.divf in
set_option maxHeartbeats 400000 in
/-- Stage 3 of the head before its unit, read off the stage's first four operations: the value it finds through the
    weight, plus the bias row. -/
theorem H3_pre (V : Valuation τ sig (Elt Ideal)) :
    after (opsH3.take 4) V (Proc.devRef .tc main_v92)
      = lin64x64 (V (Proc.devRef .tc main_v88)) (V (Proc.devRef .tc main_arg15)) (V (Proc.devRef .tc main_arg16)) := by
  simp only [opsH3, List.take_succ_cons, List.take_zero, List.drop_succ_cons, List.drop_zero]
  after_results_simp
  rfl

set_option maxHeartbeats 400000 in
/-- The stage's last fifteen operations are the unit on the value they find at the stage's sum. -/
theorem H3_unit (W : Valuation τ sig (Elt Ideal)) :
    after (opsH3.drop 4) W (Proc.devRef .tc main_v93) = elu64 (W (Proc.devRef .tc main_v92)) := by
  simp only [opsH3, List.take_succ_cons, List.take_zero, List.drop_succ_cons, List.drop_zero]
  after_results_simp
  rfl

/-- Stage 3's result. -/
theorem H3_out (V : Valuation τ sig (Elt Ideal)) :
    after opsH3 V (Proc.devRef .tc main_v93)
      = elu64 (lin64x64 (V (Proc.devRef .tc main_v88)) (V (Proc.devRef .tc main_arg15)) (V (Proc.devRef .tc main_arg16))) := by
  rw [after_split 4 opsH3 V, H3_unit, H3_pre]

attribute [local irreducible] Host.gather Host.scatterAdd Host.expm1 Host.divf in
set_option maxHeartbeats 400000 in
/-- The head's last stage, its four operations: the value it finds through the weight, plus the bias row. -/
theorem H4_out (V : Valuation τ sig (Elt Ideal)) :
    after opsH4 V (Proc.devRef .tc main_v97)
      = lin64x4 (V (Proc.devRef .tc main_v93)) (V (Proc.devRef .tc main_arg17)) (V (Proc.devRef .tc main_arg18)) := by
  simp only [opsH4, List.take_succ_cons, List.take_zero, List.drop_succ_cons, List.drop_zero]
  after_results_simp
  rfl

set_option maxHeartbeats 1000000 in
/-- Stage 1 of the head writes no argument. -/
theorem H1_args (V : Valuation τ sig (Elt Ideal)) :
    ∀ b ∈ argRefs, after opsH1 V (Proc.devRef .tc b) = V (Proc.devRef .tc b) := by
  simp only [opsH1, List.take_succ_cons, List.take_zero, List.drop_succ_cons, List.drop_zero]
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl
  all_goals after_results_simp

set_option maxHeartbeats 1000000 in
/-- Stage 2 of the head writes no argument. -/
theorem H2_args (V : Valuation τ sig (Elt Ideal)) :
    ∀ b ∈ argRefs, after opsH2 V (Proc.devRef .tc b) = V (Proc.devRef .tc b) := by
  simp only [opsH2, List.take_succ_cons, List.take_zero, List.drop_succ_cons, List.drop_zero]
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl
  all_goals after_results_simp

set_option maxHeartbeats 1000000 in
/-- Stage 3 of the head writes no argument. -/
theorem H3_args (V : Valuation τ sig (Elt Ideal)) :
    ∀ b ∈ argRefs, after opsH3 V (Proc.devRef .tc b) = V (Proc.devRef .tc b) := by
  simp only [opsH3, List.take_succ_cons, List.take_zero, List.drop_succ_cons, List.drop_zero]
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl
  all_goals after_results_simp

set_option maxHeartbeats 1000000 in
/-- Stage 4 of the head writes no argument. -/
theorem H4_args (V : Valuation τ sig (Elt Ideal)) :
    ∀ b ∈ argRefs, after opsH4 V (Proc.devRef .tc b) = V (Proc.devRef .tc b) := by
  simp only [opsH4, List.take_succ_cons, List.take_zero, List.drop_succ_cons, List.drop_zero]
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl
  all_goals after_results_simp

/-! ## The pieces in order

Each piece reads the arguments, which no piece writes, and what the pieces before it left; so the program's result is
the pieces' terms nested. -/

/-- The program run through its first piece, its first two, … its first seven (the whole program). -/
local notation "run₁ " V:max => after (opsL0 (F := Ideal)) V
local notation "run₂ " V:max => after (opsL1 (F := Ideal)) (run₁ V)
local notation "run₃ " V:max => after (opsL2 (F := Ideal)) (run₂ V)
local notation "run₄ " V:max => after opsH1 (run₃ V)
local notation "run₅ " V:max => after opsH2 (run₄ V)
local notation "run₆ " V:max => after opsH3 (run₅ V)
local notation "run₇ " V:max => after opsH4 (run₆ V)

/-- What layer 0 leaves at its result, as a term of the contents `V` at the arguments. -/
def out1 (V : Valuation τ sig (Elt Ideal)) : FVec Ideal S100000x16 .f32 :=
  elu16 (conv32 (V (Proc.devRef .tc main_arg0)) (src (V (Proc.devRef .tc main_arg1))) (dst (V (Proc.devRef .tc main_arg1)))
    (V (Proc.devRef .tc main_arg2)) (V (Proc.devRef .tc main_arg3)) (V (Proc.devRef .tc main_arg4)))

/-- What layer 1 leaves, over layer 0's term. -/
def out2 (V : Valuation τ sig (Elt Ideal)) : FVec Ideal S100000x16 .f32 :=
  elu16 (conv16 (out1 V) (src (V (Proc.devRef .tc main_arg1))) (dst (V (Proc.devRef .tc main_arg1)))
    (V (Proc.devRef .tc main_arg5)) (V (Proc.devRef .tc main_arg6)) (V (Proc.devRef .tc main_arg7)))

/-- What layer 2 leaves, over layer 1's term. -/
def out3 (V : Valuation τ sig (Elt Ideal)) : FVec Ideal S100000x16 .f32 :=
  elu16 (conv16 (out2 V) (src (V (Proc.devRef .tc main_arg1))) (dst (V (Proc.devRef .tc main_arg1)))
    (V (Proc.devRef .tc main_arg8)) (V (Proc.devRef .tc main_arg9)) (V (Proc.devRef .tc main_arg10)))

/-- What the head's first stage leaves, over the layers' term. -/
def out4 (V : Valuation τ sig (Elt Ideal)) : FVec Ideal S100000x64 .f32 :=
  elu64 (lin16x64 (out3 V) (V (Proc.devRef .tc main_arg11)) (V (Proc.devRef .tc main_arg12)))

/-- What the head's second stage leaves. -/
def out5 (V : Valuation τ sig (Elt Ideal)) : FVec Ideal S100000x64 .f32 :=
  elu64 (lin64x64 (out4 V) (V (Proc.devRef .tc main_arg13)) (V (Proc.devRef .tc main_arg14)))

/-- What the head's third stage leaves. -/
def out6 (V : Valuation τ sig (Elt Ideal)) : FVec Ideal S100000x64 .f32 :=
  elu64 (lin64x64 (out5 V) (V (Proc.devRef .tc main_arg15)) (V (Proc.devRef .tc main_arg16)))

/-- What the head's last stage leaves: the program's result. -/
def out7 (V : Valuation τ sig (Elt Ideal)) : FVec Ideal S100000x4 .f32 :=
  lin64x4 (out6 V) (V (Proc.devRef .tc main_arg17)) (V (Proc.devRef .tc main_arg18))

/-- The first two pieces write no argument. -/
theorem keep2 (V : Valuation τ sig (Elt Ideal)) :
    ∀ b ∈ argRefs, (run₂ V) (Proc.devRef .tc b) = V (Proc.devRef .tc b) := by
  intro b hb
  rw [L1_args _ b hb, L0_args V b hb]

/-- The first three pieces write no argument. -/
theorem keep3 (V : Valuation τ sig (Elt Ideal)) :
    ∀ b ∈ argRefs, (run₃ V) (Proc.devRef .tc b) = V (Proc.devRef .tc b) := by
  intro b hb
  rw [L2_args _ b hb, keep2 V b hb]

/-- The first four pieces write no argument. -/
theorem keep4 (V : Valuation τ sig (Elt Ideal)) :
    ∀ b ∈ argRefs, (run₄ V) (Proc.devRef .tc b) = V (Proc.devRef .tc b) := by
  intro b hb
  rw [H1_args _ b hb, keep3 V b hb]

/-- The first five pieces write no argument. -/
theorem keep5 (V : Valuation τ sig (Elt Ideal)) :
    ∀ b ∈ argRefs, (run₅ V) (Proc.devRef .tc b) = V (Proc.devRef .tc b) := by
  intro b hb
  rw [H2_args _ b hb, keep4 V b hb]

/-- The first six pieces write no argument. -/
theorem keep6 (V : Valuation τ sig (Elt Ideal)) :
    ∀ b ∈ argRefs, (run₆ V) (Proc.devRef .tc b) = V (Proc.devRef .tc b) := by
  intro b hb
  rw [H3_args _ b hb, keep5 V b hb]

/-- The first seven pieces write no argument. -/
theorem keep7 (V : Valuation τ sig (Elt Ideal)) :
    ∀ b ∈ argRefs, (run₇ V) (Proc.devRef .tc b) = V (Proc.devRef .tc b) := by
  intro b hb
  rw [H4_args _ b hb, keep6 V b hb]

/-- After the first two layers the source list is still the edge table's row 0. -/
theorem edges2_src (V : Valuation τ sig (Elt Ideal)) :
    (run₂ V) (Proc.devRef .tc main_v1) = src (V (Proc.devRef .tc main_arg1)) := by
  rw [L1_edges _ main_v1 (by decide), L0_v1]

/-- After the first two layers the destination list is still the edge table's row 1. -/
theorem edges2_dst (V : Valuation τ sig (Elt Ideal)) :
    (run₂ V) (Proc.devRef .tc main_v3) = dst (V (Proc.devRef .tc main_arg1)) := by
  rw [L1_edges _ main_v3 (by decide), L0_v3]

/-- Layer 0's result is its term. -/
theorem val1 (V : Valuation τ sig (Elt Ideal)) : (run₁ V) (Proc.devRef .tc main_v28) = out1 V := by
  rw [out1, L0_out]

/-- Layer 1's result is its term: it reads layer 0's result, the edge lists layer 0 left, and three arguments. -/
theorem val2 (V : Valuation τ sig (Elt Ideal)) : (run₂ V) (Proc.devRef .tc main_v53) = out2 V := by
  rw [out2, L1_out, val1, L0_v1, L0_v3, L0_args V main_arg5 (by decide), L0_args V main_arg6 (by decide),
    L0_args V main_arg7 (by decide)]

/-- Layer 2's result is its term. -/
theorem val3 (V : Valuation τ sig (Elt Ideal)) : (run₃ V) (Proc.devRef .tc main_v78) = out3 V := by
  rw [out3, L2_out, val2, edges2_src, edges2_dst, keep2 V main_arg8 (by decide), keep2 V main_arg9 (by decide),
    keep2 V main_arg10 (by decide)]

/-- The head's first stage's result is its term. -/
theorem val4 (V : Valuation τ sig (Elt Ideal)) : (run₄ V) (Proc.devRef .tc main_v83) = out4 V := by
  rw [out4, H1_out, val3, keep3 V main_arg11 (by decide), keep3 V main_arg12 (by decide)]

/-- The head's second stage's result is its term. -/
theorem val5 (V : Valuation τ sig (Elt Ideal)) : (run₅ V) (Proc.devRef .tc main_v88) = out5 V := by
  rw [out5, H2_out, val4, keep4 V main_arg13 (by decide), keep4 V main_arg14 (by decide)]

/-- The head's third stage's result is its term. -/
theorem val6 (V : Valuation τ sig (Elt Ideal)) : (run₆ V) (Proc.devRef .tc main_v93) = out6 V := by
  rw [out6, H3_out, val5, keep5 V main_arg15 (by decide), keep5 V main_arg16 (by decide)]

/-- The program's result is the last stage's term. -/
theorem val7 (V : Valuation τ sig (Elt Ideal)) : (run₇ V) (Proc.devRef .tc main_v97) = out7 V := by
  rw [out7, H4_out, val6, keep6 V main_arg17 (by decide), keep6 V main_arg18 (by decide)]

/-- The result buffer after all of @main's operations, from any contents V, is the reference's term of V at the arguments. -/
theorem value (V : Valuation τ sig (Elt Ideal)) :
    after (ops (F := Ideal)) V (Proc.devRef .tc main_v97)
      = refTerm (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) (V (Proc.devRef .tc main_arg13)) (V (Proc.devRef .tc main_arg14)) (V (Proc.devRef .tc main_arg15))
          (V (Proc.devRef .tc main_arg16)) (V (Proc.devRef .tc main_arg17)) (V (Proc.devRef .tc main_arg18)) := by
  show after (opsL0 ++ opsL1 ++ opsL2 ++ opsH) V _ = _
  rw [after_append, after_append, after_append, H_run, val7]
  rfl

/-- No operation writes an argument. -/
theorem arg_kept (V : Valuation τ sig (Elt Ideal)) :
    ∀ b ∈ argRefs, after (ops (F := Ideal)) V (Proc.devRef .tc b) = V (Proc.devRef .tc b) := by
  intro b hb
  show after (opsL0 ++ opsL1 ++ opsL2 ++ opsH) V _ = _
  rw [after_append, after_append, after_append, H_run]
  exact keep7 V b hb

end Cert.ReferenceIdeal.Run

end
-- ==== Proof.RFinal.lean ====
/-
  The idealized reference program's run with its result named: every weakly fair execution terminates, nothing
  faulting, the result array holding the reference's term of the arguments as launched, the arguments unchanged.
  The run leaves every buffer at the fold of the operations over the launch memory; the result buffer's fold is the
  reference's term, and no operation writes an argument.
-/
import proofs.«136279_j14955076125382_1_alg».proof.Proof.RefRun
import proofs.«136279_j14955076125382_1_alg».proof.Proof.RefValue

noncomputable section

namespace Cert.ReferenceIdeal.Final

open Idealize.ShloMosaic Idealize.ShloMosaic.TcCoe Idealize.SL.Sem Idealize.ShloMosaic.StableHlo
open Cert.ReferenceIdeal Cert.ReferenceIdeal.Terms Cert.ReferenceIdeal.Run

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v97)
        = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (defs (F := Ideal)) _ _).mono (fun _ h c =>
    ⟨(h c main_v97).trans (value (launchContents m c)),
     (h c main_arg0).trans (arg_kept (launchContents m c) main_arg0 (by decide)),
     (h c main_arg1).trans (arg_kept (launchContents m c) main_arg1 (by decide)),
     (h c main_arg2).trans (arg_kept (launchContents m c) main_arg2 (by decide)),
     (h c main_arg3).trans (arg_kept (launchContents m c) main_arg3 (by decide)),
     (h c main_arg4).trans (arg_kept (launchContents m c) main_arg4 (by decide)),
     (h c main_arg5).trans (arg_kept (launchContents m c) main_arg5 (by decide)),
     (h c main_arg6).trans (arg_kept (launchContents m c) main_arg6 (by decide)),
     (h c main_arg7).trans (arg_kept (launchContents m c) main_arg7 (by decide)),
     (h c main_arg8).trans (arg_kept (launchContents m c) main_arg8 (by decide)),
     (h c main_arg9).trans (arg_kept (launchContents m c) main_arg9 (by decide)),
     (h c main_arg10).trans (arg_kept (launchContents m c) main_arg10 (by decide)),
     (h c main_arg11).trans (arg_kept (launchContents m c) main_arg11 (by decide)),
     (h c main_arg12).trans (arg_kept (launchContents m c) main_arg12 (by decide)),
     (h c main_arg13).trans (arg_kept (launchContents m c) main_arg13 (by decide)),
     (h c main_arg14).trans (arg_kept (launchContents m c) main_arg14 (by decide)),
     (h c main_arg15).trans (arg_kept (launchContents m c) main_arg15 (by decide)),
     (h c main_arg16).trans (arg_kept (launchContents m c) main_arg16 (by decide)),
     (h c main_arg17).trans (arg_kept (launchContents m c) main_arg17 (by decide)),
     (h c main_arg18).trans (arg_kept (launchContents m c) main_arg18 (by decide))⟩)
    (run_main (F := Ideal) m ρ)

end Cert.ReferenceIdeal.Final

end
-- ==== Proof.Bridge.lean ====
/-
  The two programs' results are one function of the arguments, over the extended reals.

  Three things differ between the terms, and each is an identity of extended reals that needs no finiteness:
  (1) the neighbour mean is  sum · (1 / max(c, 1))  on one side and  sum / max(c, 1)  on the other: both are
      sum · (max(c, 1))⁻¹, since max(c, 1) ≥ 1 is never zero;
  (2) the unit is  v if v > 0 else exp v − 1  on one side and  v if v > 0 else 1 · expm1(v if not v > 0 else 0)  on
      the other, and expm1 v is exp v − 1;
  (3) a layer adds  mean·Wl + h·Wr + b  on one side and  mean·Wl + b + h·Wr  on the other: addition of extended reals
      is commutative and associative.
  A matrix product read at an entry is the same sum of products on both sides.
-/
import proofs.«136279_j14955076125382_1_alg».proof.Proof.TermsK
import proofs.«136279_j14955076125382_1_alg».proof.Proof.TermsR
import proofs.«136279_j14955076125382_1_alg».proof.Proof.LibDotPlain
import Idealize.ShloMosaic.PureOps.Ideal.Laws
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx
open Cert.KernelIdeal

open scoped BigOperators

/- The edge gather and the scatter-add are the same opaque functions on both sides; nothing below looks inside them. -/
attribute [local irreducible] Host.gather Host.scatterAdd

/-! ## The graph part is the same text in both vocabularies

Both programs name the same shapes, the same gather, scatter and product records and the same side conditions, so
the source list, the destination list, the clamped degree and the message sums are literally the same terms. -/

theorem src_eq (ei : Cert.KernelIdeal.Terms.EdgeTbl) :
    Cert.ReferenceIdeal.Terms.src ei = Cert.KernelIdeal.Terms.src ei := rfl

theorem dst_eq (ei : Cert.KernelIdeal.Terms.EdgeTbl) :
    Cert.ReferenceIdeal.Terms.dst ei = Cert.KernelIdeal.Terms.dst ei := rfl

theorem degree_eq (d : Cert.KernelIdeal.Terms.EdgeVec) :
    Cert.ReferenceIdeal.Terms.degree d = Cert.KernelIdeal.Terms.degree d := rfl

theorem msgSum32_eq (h : FVec Ideal S100000x32 .f32) (s d : Cert.KernelIdeal.Terms.EdgeVec) :
    Cert.ReferenceIdeal.Terms.msgSum32 h s d = Cert.KernelIdeal.Terms.msgSum32 h s d := rfl

theorem msgSum16_eq (h : FVec Ideal S100000x16 .f32) (s d : Cert.KernelIdeal.Terms.EdgeVec) :
    Cert.ReferenceIdeal.Terms.msgSum16 h s d = Cert.KernelIdeal.Terms.msgSum16 h s d := rfl

/-! ## The mean: sum · (1 / max(c, 1)) = sum / max(c, 1) -/

/-- The f32 pattern of 1.0 is the extended real one. -/
theorem one_f32 : Ideal.ofBits .f32 0x3F800000#32 = (1 : EReal) := by
  rw [show (1 : EReal) = ((1 : ℝ) : EReal) by norm_cast]
  simp [Ideal.ofBits, Ideal.ieee, -EReal.coe_mul]; norm_num

/-- max(c, 1) ≥ 1 > 0 is never zero, so both quotients are products with (max(c, 1))⁻¹, and 1 · y = y. -/
theorem mul_div_one_max (x c : EReal) : x * Ideal.div 1 (max c 1) = Ideal.div x (max c 1) := by
  have h1 : (1 : EReal) ≤ max c 1 := le_max_right c 1
  have hne : max c 1 ≠ 0 := fun h0 => by
    rw [h0] at h1
    exact absurd h1 (not_le.mpr zero_lt_one)
  unfold Ideal.div
  rw [if_neg hne, if_neg hne, one_mul]

/-- A table times the broadcast of the reciprocal clamped count is the table divided by the broadcast of the clamped
    count: at each index both sides read the count column at the same place, whatever that place is. -/
theorem mul_bcast_inv {s t : Shape} (dims : Fin s.rank → Fin t.rank) (hb : s.BroadcastsInDim t dims)
    (m : FVec Ideal t .f32) (c one : FVec Ideal s .f32) (hone : ∀ j, one j = 1) :
    mulf m (broadcastInDim t dims hb (Host.divf one (maximumf c one)))
      = Host.divf m (broadcastInDim t dims hb (maximumf c one)) := by
  funext e
  show m e * Ideal.div (one _) (max (c _) (one _)) = Ideal.div (m e) (max (c _) (one _))
  rw [hone]
  exact mul_div_one_max _ _

/-- A broadcast of the constant with the pattern of 1.0 reads one everywhere. -/
theorem bcast_one {s t : Shape} (dims : Fin s.rank → Fin t.rank) (hb : s.BroadcastsInDim t dims) (j : t.Idx) :
    broadcastInDim t dims hb (constant (F := Ideal) s .f32 0x3F800000#32) j = 1 := one_f32

/-- The neighbour mean over 32 features: the kernel program's product with the reciprocal is the reference's quotient. -/
theorem agg32_eq (h : FVec Ideal S100000x32 .f32) (s d : Cert.KernelIdeal.Terms.EdgeVec) :
    Cert.KernelIdeal.Terms.agg32 h s d (Cert.KernelIdeal.Terms.invDegree d) = Cert.ReferenceIdeal.Terms.agg32 h s d := by
  unfold Cert.KernelIdeal.Terms.agg32 Cert.ReferenceIdeal.Terms.agg32 Cert.KernelIdeal.Terms.invDegree
  rw [msgSum32_eq, degree_eq]
  unfold Cert.KernelIdeal.Terms.degree
  exact mul_bcast_inv _ _ _ _ _ (fun j => bcast_one _ _ j)

/-- The same over 16 features. -/
theorem agg16_eq (h : FVec Ideal S100000x16 .f32) (s d : Cert.KernelIdeal.Terms.EdgeVec) :
    Cert.KernelIdeal.Terms.agg16 h s d (Cert.KernelIdeal.Terms.invDegree d) = Cert.ReferenceIdeal.Terms.agg16 h s d := by
  unfold Cert.KernelIdeal.Terms.agg16 Cert.ReferenceIdeal.Terms.agg16 Cert.KernelIdeal.Terms.invDegree
  rw [msgSum16_eq, degree_eq]
  unfold Cert.KernelIdeal.Terms.degree
  exact mul_bcast_inv _ _ _ _ _ (fun j => bcast_one _ _ j)

/-! ## The unit: select(v > 0, v, 1 · expm1(select(v > 0, 0, v))) is v for v > 0 and exp v − 1 otherwise -/

/-- On one extended real. Above zero the first select takes v; otherwise the inner select takes v, expm1 v is
    exp v − 1, and the factor one drops. -/
theorem elu_scalar (v : EReal) :
    Scalar.select (Ideal.cmp .ogt v 0) v (1 * (Ideal.exp (Scalar.select (Ideal.cmp .ogt v 0) 0 v) - 1)) = Cert.Spec.elu v := by
  unfold Cert.Spec.elu Scalar.select Ideal.cmp
  by_cases h : 0 < v
  · simp [h]
  · simp [h]

/-- On a table of any shape, with the all-zero and all-one tables given by what they read at an index. -/
theorem elu_vec {s : Shape} (a zero one zero' : FVec Ideal s .f32) (hz : ∀ i, zero i = 0) (ho : ∀ i, one i = 1)
    (hz' : ∀ i, zero' i = 0) :
    select (cmpf .ogt a zero) a (mulf one (Host.expm1 (select (cmpf .ogt a zero) zero' a)))
      = fun e => Cert.Spec.elu (a e) := by
  funext e
  show Scalar.select (Ideal.cmp .ogt (a e) (zero e)) (a e)
      (one e * (Ideal.exp (Scalar.select (Ideal.cmp .ogt (a e) (zero e)) (zero' e) (a e)) - 1)) = Cert.Spec.elu (a e)
  rw [hz, ho, hz']
  exact elu_scalar _

/-- The reference's unit on a 16-column table is the specification's. -/
theorem elu16_eq (a : FVec Ideal S100000x16 .f32) :
    Cert.ReferenceIdeal.Terms.elu16 a = Cert.Spec.eluS a := by
  unfold Cert.ReferenceIdeal.Terms.elu16 Cert.Spec.eluS
  exact elu_vec a _ _ _ (fun _ => Ideal.ofBits_zero_f32) (fun _ => one_f32) (fun _ => Ideal.ofBits_zero_f32)

/-- The same on a 64-column table. -/
theorem elu64_eq (a : FVec Ideal Cert.ReferenceIdeal.S100000x64 .f32) :
    Cert.ReferenceIdeal.Terms.elu64 a = Cert.Spec.eluS a := by
  unfold Cert.ReferenceIdeal.Terms.elu64 Cert.Spec.eluS
  exact elu_vec a _ _ _ (fun _ => Ideal.ofBits_zero_f32) (fun _ => one_f32) (fun _ => Ideal.ofBits_zero_f32)

/-! ## Tables entry by entry -/

/-- Two tables with two axes are equal when they agree at every entry (i, j). -/
theorem funext_ix2 {n0 n1 : Nat} {α : Type} {f g : (⟨2, ![n0, n1]⟩ : Shape).Idx → α}
    (h : ∀ i j, f (ix2 i j) = g (ix2 i j)) : f = g := by
  funext e
  rw [eq_ix2 e]
  exact h _ _

/-- A length-d vector made a 1 × d row and then spread over n rows reads, at (i, j), the vector at j. (Where d = 1
    the unit-axis rule reads coordinate 0, which is j.) -/
theorem bias_at {n d : Nat} {α : Type} (hb1 : (⟨1, ![d]⟩ : Shape).BroadcastsInDim ⟨2, ![1, d]⟩ ![1])
    (hb2 : (⟨2, ![1, d]⟩ : Shape).BroadcastsInDim ⟨2, ![n, d]⟩ ![0, 1]) (b : (⟨1, ![d]⟩ : Shape).Idx → α)
    (i : Fin n) (j : Fin d) :
    broadcastInDim ⟨2, ![n, d]⟩ ![0, 1] hb2 (broadcastInDim ⟨2, ![1, d]⟩ ![1] hb1 b) (ix2 i j) = b (ix1 j) := by
  rw [broadcastInDim_apply ![0, 1] hb2 _ (ix2 i j) (ix2 (0 : Fin 1) j) (fun a => by
      match a with
      | ⟨0, _⟩ => exact (if_pos rfl).symm
      | ⟨1, _⟩ =>
        show j.val = if d = 1 then 0 else j.val
        split
        · have := j.isLt; omega
        · rfl),
    broadcastInDim_apply ![1] hb1 b (ix2 (0 : Fin 1) j) (ix1 j) (fun a => by
      match a with
      | ⟨0, _⟩ =>
        show j.val = if d = 1 then 0 else j.val
        split
        · have := j.isLt; omega
        · rfl)]

/-- The same vector cast to a 1 × d row reads, at (0, j), the vector at j. -/
theorem row_at {d : Nat} {α : Type} (h : (⟨1, ![d]⟩ : Shape).ShapeCasts ⟨2, ![1, d]⟩) (b : (⟨1, ![d]⟩ : Shape).Idx → α)
    (j : Fin d) : shapeCast ⟨2, ![1, d]⟩ b h (ix2 (0 : Fin 1) j) = b (ix1 j) :=
  shapeCast_a_1a_apply b h 0 j

/-! ## A layer and a linear stage over plain products, for any sizes -/

/-- The host's plain product at an entry: the row against the column. -/
theorem host_dot_at {n k d : Nat} (A : FVec Ideal ⟨2, ![n, k]⟩ .f32) (B : FVec Ideal ⟨2, ![k, d]⟩ .f32) (i : Fin n) (j : Fin d) :
    Host.dotGeneral (DotDims.plain n k d) none A B (ix2 i j) = ∑ q : Fin k, A (ix2 i q) * B (ix2 q j) :=
  Cert.LibDotPlain.dotGeneral_plain n k d none .single A B i j

/-- A graph layer: the specification adds  mean·Wl + x·Wr + b, the reference  mean·Wl + b + x·Wr; the two sums of three
    terms are equal by commutativity and associativity of addition. -/
theorem sage_plain {n k d : Nat} (agg x : FVec Ideal ⟨2, ![n, k]⟩ .f32) (Wl Wr : FVec Ideal ⟨2, ![k, d]⟩ .f32)
    (brow : FVec Ideal ⟨2, ![1, d]⟩ .f32) (bias : FVec Ideal ⟨2, ![n, d]⟩ .f32)
    (hb : ∀ i j, bias (ix2 i j) = brow (ix2 0 j)) :
    Cert.Spec.sageS agg x Wl Wr brow
      = Cert.Spec.eluS (addf (addf (Host.dotGeneral (DotDims.plain n k d) none agg Wl) bias)
          (Host.dotGeneral (DotDims.plain n k d) none x Wr)) := by
  refine funext_ix2 fun i j => ?_
  rw [Cert.Spec.sageS_apply, Cert.Spec.eluS_apply, addf_apply, addf_apply, hb]
  unfold Cert.Spec.sageAt
  rw [host_dot_at, host_dot_at, add_right_comm]

/-- A linear stage: the product plus the bias, entry by entry. -/
theorem lin_plain {n k d : Nat} (A : FVec Ideal ⟨2, ![n, k]⟩ .f32) (W : FVec Ideal ⟨2, ![k, d]⟩ .f32)
    (brow : FVec Ideal ⟨2, ![1, d]⟩ .f32) (bias : FVec Ideal ⟨2, ![n, d]⟩ .f32)
    (hb : ∀ i j, bias (ix2 i j) = brow (ix2 0 j)) :
    Cert.Spec.linS A W brow = addf (Host.dotGeneral (DotDims.plain n k d) none A W) bias := by
  refine funext_ix2 fun i j => ?_
  rw [Cert.Spec.linS_apply, addf_apply, hb]
  unfold Cert.Spec.linAt
  rw [host_dot_at]

/-! ## The two programs' layers and head stages -/

/- The reference's five product records are the plain product's at their sizes: the same lists of axes. -/
theorem dot_32_16 : Cert.ReferenceIdeal.dot_S100000x32_S32x16_S100000x16_1_0_0_1_n_n = DotDims.plain 100000 32 16 := rfl
theorem dot_16_16 : Cert.ReferenceIdeal.dot_S100000x16_S16x16_S100000x16_1_0_0_1_n_n = DotDims.plain 100000 16 16 := rfl
theorem dot_16_64 : Cert.ReferenceIdeal.dot_S100000x16_S16x64_S100000x64_1_0_0_1_n_n = DotDims.plain 100000 16 64 := rfl
theorem dot_64_64 : Cert.ReferenceIdeal.dot_S100000x64_S64x64_S100000x64_1_0_0_1_n_n = DotDims.plain 100000 64 64 := rfl
theorem dot_64_4 : Cert.ReferenceIdeal.dot_S100000x64_S64x4_S100000x4_1_0_0_1_n_n = DotDims.plain 100000 64 4 := rfl

/- The reference's bias spread over the rows reads, at (i, j), what the kernel program's 1 × d bias row reads at (0, j). -/
theorem bias16_row (b : FVec Ideal S16 .f32) (i : Fin 100000) (j : Fin 16) :
    Cert.ReferenceIdeal.Terms.bias16 b (ix2 i j) = Cert.KernelIdeal.Terms.row16 b (ix2 0 j) :=
  (bias_at _ _ b i j).trans (row_at _ b j).symm

theorem bias64_row (b : FVec Ideal S64 .f32) (i : Fin 100000) (j : Fin 64) :
    Cert.ReferenceIdeal.Terms.bias64 b (ix2 i j) = Cert.KernelIdeal.Terms.row64 b (ix2 0 j) :=
  (bias_at _ _ b i j).trans (row_at _ b j).symm

theorem bias4_row (b : FVec Ideal S4 .f32) (i : Fin 100000) (j : Fin 4) :
    Cert.ReferenceIdeal.Terms.bias4 b (ix2 i j) = Cert.KernelIdeal.Terms.row4 b (ix2 0 j) :=
  (bias_at _ _ b i j).trans (row_at _ b j).symm

/-- The first graph layer, for any node table h. -/
theorem layer32 (h : FVec Ideal S100000x32 .f32) (s d : Cert.KernelIdeal.Terms.EdgeVec)
    (Wl Wr : FVec Ideal S32x16 .f32) (b : FVec Ideal S16 .f32) :
    Cert.Spec.sageS (Cert.KernelIdeal.Terms.agg32 h s d (Cert.KernelIdeal.Terms.invDegree d)) h Wl Wr
        (Cert.KernelIdeal.Terms.row16 b)
      = Cert.ReferenceIdeal.Terms.elu16 (Cert.ReferenceIdeal.Terms.conv32 h s d Wl Wr b) := by
  rw [elu16_eq, agg32_eq]
  unfold Cert.ReferenceIdeal.Terms.conv32
  rw [dot_32_16]
  exact sage_plain _ _ _ _ _ _ (bias16_row b)

/-- A later graph layer, for any node table h. -/
theorem layer16 (h : FVec Ideal S100000x16 .f32) (s d : Cert.KernelIdeal.Terms.EdgeVec)
    (Wl Wr : FVec Ideal S16x16 .f32) (b : FVec Ideal S16 .f32) :
    Cert.Spec.sageS (Cert.KernelIdeal.Terms.agg16 h s d (Cert.KernelIdeal.Terms.invDegree d)) h Wl Wr
        (Cert.KernelIdeal.Terms.row16 b)
      = Cert.ReferenceIdeal.Terms.elu16 (Cert.ReferenceIdeal.Terms.conv16 h s d Wl Wr b) := by
  rw [elu16_eq, agg16_eq]
  unfold Cert.ReferenceIdeal.Terms.conv16
  rw [dot_16_16]
  exact sage_plain _ _ _ _ _ _ (bias16_row b)

/-- The head's first linear stage, 16 → 64, for any table A. -/
theorem lin_16_64 (A : FVec Ideal S100000x16 .f32) (W : FVec Ideal S16x64 .f32) (b : FVec Ideal S64 .f32) :
    Cert.Spec.linS A W (Cert.KernelIdeal.Terms.row64 b)
      = addf (Host.dotGeneral Cert.ReferenceIdeal.dot_S100000x16_S16x64_S100000x64_1_0_0_1_n_n none A W)
          (Cert.ReferenceIdeal.Terms.bias64 b) := by
  rw [dot_16_64]
  exact lin_plain _ _ _ _ (bias64_row b)

/-- The head's middle linear stages, 64 → 64. -/
theorem lin_64_64 (A : FVec Ideal Cert.ReferenceIdeal.S100000x64 .f32) (W : FVec Ideal S64x64 .f32) (b : FVec Ideal S64 .f32) :
    Cert.Spec.linS A W (Cert.KernelIdeal.Terms.row64 b)
      = addf (Host.dotGeneral Cert.ReferenceIdeal.dot_S100000x64_S64x64_S100000x64_1_0_0_1_n_n none A W)
          (Cert.ReferenceIdeal.Terms.bias64 b) := by
  rw [dot_64_64]
  exact lin_plain _ _ _ _ (bias64_row b)

/-- The head's last linear stage, 64 → 4. -/
theorem lin_64_4 (A : FVec Ideal Cert.ReferenceIdeal.S100000x64 .f32) (W : FVec Ideal S64x4 .f32) (b : FVec Ideal S4 .f32) :
    Cert.Spec.linS A W (Cert.KernelIdeal.Terms.row4 b)
      = addf (Host.dotGeneral Cert.ReferenceIdeal.dot_S100000x64_S64x4_S100000x4_1_0_0_1_n_n none A W)
          (Cert.ReferenceIdeal.Terms.bias4 b) := by
  rw [dot_64_4]
  exact lin_plain _ _ _ _ (bias4_row b)

/-- The specification's unit on a 64-column table is the reference's. -/
theorem eluS_64 (a : FVec Ideal Cert.ReferenceIdeal.S100000x64 .f32) :
    Cert.Spec.eluS a = Cert.ReferenceIdeal.Terms.elu64 a := (elu64_eq a).symm

/-- The reference's result term IS the kernel program's, for all arguments. -/
theorem terms_eq (x : FVec Ideal S100000x32 .f32) (ei : Cert.KernelIdeal.Terms.EdgeTbl)
    (Wl0 Wr0 : FVec Ideal S32x16 .f32) (bl0 : FVec Ideal S16 .f32)
    (Wl1 Wr1 : FVec Ideal S16x16 .f32) (bl1 : FVec Ideal S16 .f32)
    (Wl2 Wr2 : FVec Ideal S16x16 .f32) (bl2 : FVec Ideal S16 .f32)
    (LW0 : FVec Ideal S16x64 .f32) (LB0 : FVec Ideal S64 .f32) (LW1 : FVec Ideal S64x64 .f32) (LB1 : FVec Ideal S64 .f32)
    (LW2 : FVec Ideal S64x64 .f32) (LB2 : FVec Ideal S64 .f32) (LW3 : FVec Ideal S64x4 .f32) (LB3 : FVec Ideal S4 .f32) :
    Cert.ReferenceIdeal.Terms.refTerm x ei Wl0 Wr0 bl0 Wl1 Wr1 bl1 Wl2 Wr2 bl2 LW0 LB0 LW1 LB1 LW2 LB2 LW3 LB3
      = Cert.KernelIdeal.Terms.kernelTerm x ei Wl0 Wr0 bl0 Wl1 Wr1 bl1 Wl2 Wr2 bl2 LW0 LB0 LW1 LB1 LW2 LB2 LW3 LB3 := by
  -- Both terms are chains of stages; the kernel program's is rewritten into the reference's stage by stage, the
  -- innermost layer first: the edge lists, the three graph layers, the four linear stages and the three units between.
  simp only [Cert.ReferenceIdeal.Terms.refTerm, Cert.KernelIdeal.Terms.kernelTerm, Cert.Spec.mlpS]
  rw [src_eq, dst_eq, layer32, layer16, layer16, lin_16_64, lin_64_64, lin_64_64, lin_64_4, eluS_64, eluS_64, eluS_64]

end Cert.Bridge

end
-- ==== Proof.lean ====
/-
  The certificate's five claims.

  Both word-level and idealized kernel programs run, terminate without a fault and leave their arguments alone: their
  frames.  The idealization rewrote nothing, so nothing is owed for it.  The reference's run is a straight line of host
  operations, which gives its frame and its result.  At the ideal values the kernel program's result is one term of
  its arguments (three graph layers, each  ELU(mean · Wl + x · Wr + b)  with the mean formed as sum · (1 / max(deg, 1)),
  then a four-stage head) and the reference's result another (the mean formed as sum / max(deg, 1), the unit spelt with
  expm1, the bias added before the second product); the two terms are equal on all extended reals, so from memories
  that agree on the arguments the two runs end with equal results.
-/
import proofs.«136279_j14955076125382_1_alg».proof.Defs
import proofs.«136279_j14955076125382_1_alg».proof.Proof.Gen.Kernel
import proofs.«136279_j14955076125382_1_alg».proof.Proof.Gen.Kernel.Frame
import proofs.«136279_j14955076125382_1_alg».proof.Proof.Gen.KernelIdeal
import proofs.«136279_j14955076125382_1_alg».proof.Proof.Gen.KernelIdeal.Frame
import proofs.«136279_j14955076125382_1_alg».proof.Proof.Gen.ReferenceIdeal
import proofs.«136279_j14955076125382_1_alg».proof.Proof.Gen.Pre_finite_inputs
import proofs.«136279_j14955076125382_1_alg».proof.Proof.KFinal
import proofs.«136279_j14955076125382_1_alg».proof.Proof.RFinal
import proofs.«136279_j14955076125382_1_alg».proof.Proof.Bridge
import Idealize.ShloMosaic.Adequacy
import Idealize.ShloMosaic.Init

noncomputable section

namespace Cert.Proof

open Idealize.ShloMosaic Idealize.SL.Sem

/-- The word-level kernel program's frame. -/
theorem frame_kernel : Cert.frame_Kernel := fun m ρ _ => Cert.Kernel.Gen.frame m ρ

/-- The idealized kernel program's frame. -/
theorem frame_kernelIdeal : Cert.frame_KernelIdeal := fun m ρ _ => Cert.KernelIdeal.Gen.frame m ρ

/-- The idealized reference's frame: its run with the result dropped. -/
theorem frame_referenceIdeal : Cert.frame_ReferenceIdeal := fun m ρ _ =>
  (θ_run (Cert.ReferenceIdeal.defs (F := Ideal)) _ _).mono (fun _ h c => (h c).2) (Cert.ReferenceIdeal.Final.run m ρ)

/-- The idealization rewrote nothing. -/
theorem preserves : Cert.preserves_Kernel_KernelIdeal := trivial

/-- From memories agreeing on the arguments both idealized programs end with the kernel program's term of the
    arguments in their result arrays: the kernel program by its run, the reference because its own term is that one. -/
theorem algebraic : Cert.algebraic_KernelIdeal_ReferenceIdeal := by
  intro m ρ m' ρ' _ hagree
  refine ⟨fun c => Cert.KernelIdeal.Terms.kernelTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    Cert.KernelIdeal.Final.run m ρ, ?_⟩
  refine (θ_run (Cert.ReferenceIdeal.defs (F := Ideal)) _ _).mono (fun _ h c => ⟨(h c).1.trans ?_, (h c).2⟩) (Cert.ReferenceIdeal.Final.run m' ρ')
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]
  exact Cert.Bridge.terms_eq _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
